-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x25200x4 : Shape := ⟨3, ![32, 25200, 4]⟩
abbrev S32x25200 : Shape := ⟨2, ![32, 25200]⟩
abbrev S32x25200x80 : Shape := ⟨3, ![32, 25200, 80]⟩
abbrev S32x200x4 : Shape := ⟨3, ![32, 200, 4]⟩
abbrev S32x200 : Shape := ⟨2, ![32, 200]⟩
abbrev S_ : Shape := ⟨0, ![]⟩

class Facts : Prop where
  bcast_S_S32x25200x4 : S_.BroadcastsInDim S32x25200x4 (![] : Fin 0 → Fin S32x25200x4.rank)
  reducesTo_S32x25200x4_S_d0_1_2 : S32x25200x4.ReducesTo [0, 1, 2] S_
  h_S_ : 0 < S_.numel
  bcast_S_S32x25200 : S_.BroadcastsInDim S32x25200 (![] : Fin 0 → Fin S32x25200.rank)
  reducesTo_S32x25200_S_d0_1 : S32x25200.ReducesTo [0, 1] S_
  bcast_S_S32x25200x80 : S_.BroadcastsInDim S32x25200x80 (![] : Fin 0 → Fin S32x25200x80.rank)
  reducesTo_S32x25200x80_S_d0_1_2 : S32x25200x80.ReducesTo [0, 1, 2] S_
  bcast_S_S32x200x4 : S_.BroadcastsInDim S32x200x4 (![] : Fin 0 → Fin S32x200x4.rank)
  reducesTo_S32x200x4_S_d0_1_2 : S32x200x4.ReducesTo [0, 1, 2] S_
  bcast_S_S32x200 : S_.BroadcastsInDim S32x200 (![] : Fin 0 → Fin S32x200.rank)
  reducesTo_S32x200_S_d0_1 : S32x200.ReducesTo [0, 1] S_

variable [Facts]

def fn_part1 {F : FTy → Type} [FloatOps F] (main_arg4 : IVec S32x200 32) (main_v13 : IVec S_ 1) (main_v16 : IVec S32x200x4 1) : IVec S_ 1 :=
  let main_c_5 : IVec S_ 1 := constantI S_ 1 1#1
  let main_v17 : IVec S_ 1 := (fun x v => Host.reduce IntOp.andi x v reducesTo_S32x200x4_S_d0_1_2 h_S_) main_v16 main_c_5
  let main_v18 : IVec S_ 1 := andi main_v13 main_v17
  let main_c_6 : IVec S_ 32 := constantI S_ 32 0#32
  let main_v19 : IVec S32x200 32 := broadcastInDim S32x200 ![] bcast_S_S32x200 main_c_6
  let main_v20 : IVec S32x200 1 := cmpi .sge main_arg4 main_v19
  let main_c_7 : IVec S_ 32 := constantI S_ 32 80#32
  let main_v21 : IVec S32x200 32 := broadcastInDim S32x200 ![] bcast_S_S32x200 main_c_7
  let main_v22 : IVec S32x200 1 := cmpi .slt main_arg4 main_v21
  let main_v23 : IVec S32x200 1 := andi main_v20 main_v22
  let main_c_8 : IVec S_ 1 := constantI S_ 1 1#1
  let main_v24 : IVec S_ 1 := (fun x v => Host.reduce IntOp.andi x v reducesTo_S32x200_S_d0_1 h_S_) main_v23 main_c_8
  let main_v25 : IVec S_ 1 := andi main_v18 main_v24
  main_v25

def fn {F : FTy → Type} [FloatOps F] (main_arg0 : FVec F S32x25200x4 .f32) (main_arg1 : FVec F S32x25200 .f32) (main_arg2 : FVec F S32x25200x80 .f32) (main_arg3 : FVec F S32x200x4 .f32) (main_arg4 : IVec S32x200 32) : IVec S_ 1 :=
  let main_v0 : FVec F S32x25200x4 .f32 := Host.absf main_arg0
  let main_cst : FVec F S_ .f32 := constant S_ .f32 0x7F800000#32
  let main_v1 : FVec F S32x25200x4 .f32 := broadcastInDim S32x25200x4 ![] bcast_S_S32x25200x4 main_cst
  let main_v2 : IVec S32x25200x4 1 := cmpf .olt main_v0 main_v1
  let main_c : IVec S_ 1 := constantI S_ 1 1#1
  let main_v3 : IVec S_ 1 := (fun x v => Host.reduce IntOp.andi x v reducesTo_S32x25200x4_S_d0_1_2 h_S_) main_v2 main_c
  let main_v4 : FVec F S32x25200 .f32 := Host.absf main_arg1
  let main_cst_0 : FVec F S_ .f32 := constant S_ .f32 0x7F800000#32
  let main_v5 : FVec F S32x25200 .f32 := broadcastInDim S32x25200 ![] bcast_S_S32x25200 main_cst_0
  let main_v6 : IVec S32x25200 1 := cmpf .olt main_v4 main_v5
  let main_c_1 : IVec S_ 1 := constantI S_ 1 1#1
  let main_v7 : IVec S_ 1 := (fun x v => Host.reduce IntOp.andi x v reducesTo_S32x25200_S_d0_1 h_S_) main_v6 main_c_1
  let main_v8 : IVec S_ 1 := andi main_v3 main_v7
  let main_v9 : FVec F S32x25200x80 .f32 := Host.absf main_arg2
  let main_cst_2 : FVec F S_ .f32 := constant S_ .f32 0x7F800000#32
  let main_v10 : FVec F S32x25200x80 .f32 := broadcastInDim S32x25200x80 ![] bcast_S_S32x25200x80 main_cst_2
  let main_v11 : IVec S32x25200x80 1 := cmpf .olt main_v9 main_v10
  let main_c_3 : IVec S_ 1 := constantI S_ 1 1#1
  let main_v12 : IVec S_ 1 := (fun x v => Host.reduce IntOp.andi x v reducesTo_S32x25200x80_S_d0_1_2 h_S_) main_v11 main_c_3
  let main_v13 : IVec S_ 1 := andi main_v8 main_v12
  let main_v14 : FVec F S32x200x4 .f32 := Host.absf main_arg3
  let main_cst_4 : FVec F S_ .f32 := constant S_ .f32 0x7F800000#32
  let main_v15 : FVec F S32x200x4 .f32 := broadcastInDim S32x200x4 ![] bcast_S_S32x200x4 main_cst_4
  let main_v16 : IVec S32x200x4 1 := cmpf .olt main_v14 main_v15
  fn_part1 (F := F) main_arg4 main_v13 main_v16
-- ==== Kernel.lean ====
abbrev S32x25200x4 : Shape := ⟨3, ![32, 25200, 4]⟩
abbrev S32x25200 : Shape := ⟨2, ![32, 25200]⟩
abbrev S32x25200x80 : Shape := ⟨3, ![32, 25200, 80]⟩
abbrev S32x200x4 : Shape := ⟨3, ![32, 200, 4]⟩
abbrev S32x200 : Shape := ⟨2, ![32, 200]⟩
abbrev S32x4x200 : Shape := ⟨3, ![32, 4, 200]⟩
abbrev S4x8x128 : Shape := ⟨3, ![4, 8, 128]⟩
abbrev S8x4x200 : Shape := ⟨3, ![8, 4, 200]⟩
abbrev S8x25200 : Shape := ⟨2, ![8, 25200]⟩
abbrev S8x200x80 : Shape := ⟨3, ![8, 200, 80]⟩
abbrev S8x200 : Shape := ⟨2, ![8, 200]⟩
abbrev S1x8x128 : Shape := ⟨3, ![1, 8, 128]⟩
abbrev S8x1x200 : Shape := ⟨3, ![8, 1, 200]⟩
abbrev S1x8x200 : Shape := ⟨3, ![1, 8, 200]⟩
abbrev S1 : Shape := ⟨1, ![1]⟩
abbrev S1x1x1 : Shape := ⟨3, ![1, 1, 1]⟩
abbrev S1x8x25200 : Shape := ⟨3, ![1, 8, 25200]⟩
abbrev S1600x80 : Shape := ⟨2, ![1600, 80]⟩
abbrev S1600x1 : Shape := ⟨2, ![1600, 1]⟩
abbrev S1600 : Shape := ⟨1, ![1600]⟩
abbrev S1x1600x80 : Shape := ⟨3, ![1, 1600, 80]⟩
abbrev S1x1600x1 : Shape := ⟨3, ![1, 1600, 1]⟩
abbrev S8x128 : Shape := ⟨2, ![8, 128]⟩
abbrev S4x1x4 : Shape := ⟨3, ![4, 1, 4]⟩
abbrev S4x4 : Shape := ⟨2, ![4, 4]⟩
abbrev S_ : Shape := ⟨0, ![]⟩
abbrev S4 : Shape := ⟨1, ![4]⟩

abbrev nBuf : Space → Nat
  | .hbm => 45
  | .vmem => 12
  | .smem => 0
  | _ => 0

abbrev bufTy : (tb : Table) → Fin (tcTables nBuf tb) → BufTy
  | .hbm, ⟨0, _⟩ => ⟨S32x25200x4, .f32⟩
  | .hbm, ⟨1, _⟩ => ⟨S32x25200, .f32⟩
  | .hbm, ⟨2, _⟩ => ⟨S32x25200x80, .f32⟩
  | .hbm, ⟨3, _⟩ => ⟨S32x200x4, .f32⟩
  | .hbm, ⟨4, _⟩ => ⟨S32x200, .i32⟩
  | .hbm, ⟨5, _⟩ => ⟨S32x200x4, .f32⟩
  | .hbm, ⟨6, _⟩ => ⟨S32x4x200, .f32⟩
  | .hbm, ⟨7, _⟩ => ⟨S32x4x200, .f32⟩
  | .hbm, ⟨8, _⟩ => ⟨S4x8x128, .f32⟩
  | .hbm, ⟨9, _⟩ => ⟨S4x1x4, .f32⟩
  | .hbm, ⟨10, _⟩ => ⟨S4x4, .f32⟩
  | .hbm, ⟨11, _⟩ => ⟨S_, .f32⟩
  | .hbm, ⟨12, _⟩ => ⟨S4, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S4, .f32⟩
  | .local _ .vmem, ⟨0, _⟩ => ⟨S8x4x200, .f32⟩
  | .local _ .vmem, ⟨1, _⟩ => ⟨S8x4x200, .f32⟩
  | .local _ .vmem, ⟨2, _⟩ => ⟨S8x25200, .f32⟩
  | .local _ .vmem, ⟨3, _⟩ => ⟨S8x25200, .f32⟩
  | .local _ .vmem, ⟨4, _⟩ => ⟨S8x200x80, .f32⟩
  | .local _ .vmem, ⟨5, _⟩ => ⟨S8x200x80, .f32⟩
  | .local _ .vmem, ⟨6, _⟩ => ⟨S8x4x200, .f32⟩
  | .local _ .vmem, ⟨7, _⟩ => ⟨S8x4x200, .f32⟩
  | .local _ .vmem, ⟨8, _⟩ => ⟨S8x200, .i32⟩
  | .local _ .vmem, ⟨9, _⟩ => ⟨S8x200, .i32⟩
  | .local _ .vmem, ⟨10, _⟩ => ⟨S1x8x128, .f32⟩
  | .local _ .vmem, ⟨11, _⟩ => ⟨S1x8x128, .f32⟩
  | _, _ => ⟨S32x25200x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x25200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x200x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x200 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S32x25200x4_S32x200x4_0_0_0 : S32x25200x4.Slices ![0, 0, 0] S32x200x4
  transposes_S32x200x4_S32x4x200_0_2_1 : S32x200x4.Transposes [0, 2, 1] S32x4x200
  inb_S8x4x200_S8x4x200_0_0_0 : ∀ a, (![0, 0, 0] : Fin 3 → Nat) a + S8x4x200.size a ≤ S8x4x200.size a
  h_S8x4x200 : 0 < S8x4x200.numel
  shapeCasts_S8x4x200_S8x4x200 : S8x4x200.ShapeCasts S8x4x200
  slices_S8x4x200_o0_0_0_S8x1x200 : S8x4x200.Slices ![0, 0, 0] S8x1x200
  shapeCasts_S8x1x200_S8x200 : S8x1x200.ShapeCasts S8x200
  slices_S8x4x200_o0_1_0_S8x1x200 : S8x4x200.Slices ![0, 1, 0] S8x1x200
  slices_S8x4x200_o0_2_0_S8x1x200 : S8x4x200.Slices ![0, 2, 0] S8x1x200
  slices_S8x4x200_o0_3_0_S8x1x200 : S8x4x200.Slices ![0, 3, 0] S8x1x200
  shapeCasts_S8x200_S1x8x200 : S8x200.ShapeCasts S1x8x200
  reduces_S1x8x200_S1 : S1x8x200.Reduces [1, 2] S1
  shapeCasts_S1_S1x1x1 : S1.ShapeCasts S1x1x1
  inpos_S1x1x1_p0_0_0 : ∀ a, (![0, 0, 0] : Fin 3 → Nat) a < S1x1x1.size a
  inb_S8x25200_S8x25200_0_0 : ∀ a, (![0, 0] : Fin 2 → Nat) a + S8x25200.size a ≤ S8x25200.size a
  h_S8x25200 : 0 < S8x25200.numel
  iota_S8x25200_d1_w32 : S8x25200.Iotas .tc 32 [1]
  shapeCasts_S8x25200_S1x8x25200 : S8x25200.ShapeCasts S1x8x25200
  reduces_S1x8x25200_S1 : S1x8x25200.Reduces [1, 2] S1
  inb_S8x200x80_S8x200x80_0_0_0 : ∀ a, (![0, 0, 0] : Fin 3 → Nat) a + S8x200x80.size a ≤ S8x200x80.size a
  h_S8x200x80 : 0 < S8x200x80.numel
  shapeCasts_S8x200x80_S1600x80 : S8x200x80.ShapeCasts S1600x80
  inb_S8x200_S8x200_0_0 : ∀ a, (![0, 0] : Fin 2 → Nat) a + S8x200.size a ≤ S8x200.size a
  h_S8x200 : 0 < S8x200.numel
  shapeCasts_S8x200_S1600x1 : S8x200.ShapeCasts S1600x1
  reduces_S1600x80_S1600 : S1600x80.Reduces [1] S1600
  shapeCasts_S1600_S1600x1 : S1600.ShapeCasts S1600x1
  broadcasts_S1600x1_S1600x80 : S1600x1.Broadcasts S1600x80
  shapeCasts_S1600x1_S1600x1 : S1600x1.ShapeCasts S1600x1
  iota_S1600x80_d1_w32 : S1600x80.Iotas .tc 32 [1]
  natLt_1_32 : 1 < 32
  shapeCasts_S1600x80_S1x1600x80 : S1600x80.ShapeCasts S1x1600x80
  reduces_S1x1600x80_S1 : S1x1600x80.Reduces [1, 2] S1
  shapeCasts_S1600x1_S1x1600x1 : S1600x1.ShapeCasts S1x1600x1
  reduces_S1x1600x1_S1 : S1x1600x1.Reduces [1, 2] S1
  iota_S8x128_d0_w32 : S8x128.Iotas .tc 32 [0]
  iota_S8x128_d1_w32 : S8x128.Iotas .tc 32 [1]
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S4x8x128_S4x1x4_0_0_0 : S4x8x128.Slices ![0, 0, 0] S4x1x4
  shapeCasts_S4x1x4_S4x4 : S4x1x4.ShapeCasts S4x4
  reducesTo_S4x4_S4_d0 : S4x4.ReducesTo [0] S4
  h_S_ : 0 < S_.numel
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S1_S4_d0 : Shape.Concatenates [S1, S1, S1, S1] S4 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x200.size a ≤ S32x4x200.size a
  hwx0_0 : ∀ i : grid0.Coords, EltTy.bits .f32 = 32 ∨ (Rect.block (s := S32x4x200) S8x4x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x25200.size a ≤ S32x25200.size a
  hwx0_1 : ∀ i : grid0.Coords, EltTy.bits .f32 = 32 ∨ (Rect.block (s := S32x25200) S8x25200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x200x80.size a ≤ S32x25200x80.size a
  hwx0_2 : ∀ i : grid0.Coords, EltTy.bits .f32 = 32 ∨ (Rect.block (s := S32x25200x80) S8x200x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4x200.size a ≤ S32x4x200.size a
  hwx0_3 : ∀ i : grid0.Coords, EltTy.bits .f32 = 32 ∨ (Rect.block (s := S32x4x200) S8x4x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x200.size a ≤ S32x200.size a
  hwx0_4 : ∀ i : grid0.Coords, EltTy.bits .i32 = 32 ∨ (Rect.block (s := S32x200) S8x200.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S4x8x128.size a
  hwx0_5 : ∀ i : grid0.Coords, EltTy.bits .f32 = 32 ∨ (Rect.block (s := S4x8x128) S1x8x128.size (cc0_transform_5 i) (hinb0_5 i)).WholeWords (EltTy.packing .f32)

variable [Facts₀]

abbrev win0_0 : Pipeline.Window sig grid0 :=
  Pipeline.Window.ofSpec (Memref.whole main_v1) S8x4x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x25200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x200x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x4x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x25200x4 : Shape := ⟨3, ![32, 25200, 4]⟩
abbrev S32x25200 : Shape := ⟨2, ![32, 25200]⟩
abbrev S32x25200x80 : Shape := ⟨3, ![32, 25200, 80]⟩
abbrev S32x200x4 : Shape := ⟨3, ![32, 200, 4]⟩
abbrev S32x200 : Shape := ⟨2, ![32, 200]⟩
abbrev S32x200x1 : Shape := ⟨3, ![32, 200, 1]⟩
abbrev S_ : Shape := ⟨0, ![]⟩
abbrev S32x25000 : Shape := ⟨2, ![32, 25000]⟩
abbrev S32x200x80 : Shape := ⟨3, ![32, 200, 80]⟩
abbrev S32x200x1x1 : Shape := ⟨4, ![32, 200, 1, 1]⟩
abbrev S1 : Shape := ⟨1, ![1]⟩
abbrev S1x1x1x1 : Shape := ⟨4, ![1, 1, 1, 1]⟩
abbrev S4 : Shape := ⟨1, ![4]⟩

abbrev nBuf : Space → Nat
  | .hbm => 201
  | .vmem => 0
  | .smem => 0
  | _ => 0

abbrev hbmTy0_0 (i : Nat) : BufTy := match i % 128 with
  | 0 => ⟨S32x25200x4, .f32⟩
  | 1 => ⟨S32x25200, .f32⟩
  | 2 => ⟨S32x25200x80, .f32⟩
  | 3 => ⟨S32x200x4, .f32⟩
  | 4 => ⟨S32x200, .i32⟩
  | 5 => ⟨S32x200x4, .f32⟩
  | 6 => ⟨S32x200x1, .f32⟩
  | 7 => ⟨S32x200, .f32⟩
  | 8 => ⟨S32x200x1, .f32⟩
  | 9 => ⟨S32x200, .f32⟩
  | 10 => ⟨S32x200x1, .f32⟩
  | 11 => ⟨S32x200, .f32⟩
  | 12 => ⟨S32x200x1, .f32⟩
  | 13 => ⟨S32x200, .f32⟩
  | 14 => ⟨S_, .f32⟩
  | 15 => ⟨S32x200, .f32⟩
  | 16 => ⟨S32x200, .f32⟩
  | 17 => ⟨S32x200, .f32⟩
  | 18 => ⟨S_, .f32⟩
  | 19 => ⟨S32x200, .f32⟩
  | 20 => ⟨S32x200, .f32⟩
  | 21 => ⟨S32x200, .f32⟩
  | 22 => ⟨S_, .f32⟩
  | 23 => ⟨S32x200, .f32⟩
  | 24 => ⟨S32x200, .f32⟩
  | 25 => ⟨S32x200, .f32⟩
  | 26 => ⟨S_, .f32⟩
  | 27 => ⟨S32x200, .f32⟩
  | 28 => ⟨S32x200, .f32⟩
  | 29 => ⟨S32x200, .f32⟩
  | 30 => ⟨S32x200x1, .f32⟩
  | 31 => ⟨S32x200, .f32⟩
  | 32 => ⟨S32x200x1, .f32⟩
  | 33 => ⟨S32x200, .f32⟩
  | 34 => ⟨S32x200x1, .f32⟩
  | 35 => ⟨S32x200, .f32⟩
  | 36 => ⟨S32x200x1, .f32⟩
  | 37 => ⟨S32x200, .f32⟩
  | 38 => ⟨S_, .f32⟩
  | 39 => ⟨S32x200, .f32⟩
  | 40 => ⟨S32x200, .f32⟩
  | 41 => ⟨S32x200, .f32⟩
  | 42 => ⟨S_, .f32⟩
  | 43 => ⟨S32x200, .f32⟩
  | 44 => ⟨S32x200, .f32⟩
  | 45 => ⟨S32x200, .f32⟩
  | 46 => ⟨S_, .f32⟩
  | 47 => ⟨S32x200, .f32⟩
  | 48 => ⟨S32x200, .f32⟩
  | 49 => ⟨S32x200, .f32⟩
  | 50 => ⟨S_, .f32⟩
  | 51 => ⟨S32x200, .f32⟩
  | 52 => ⟨S32x200, .f32⟩
  | 53 => ⟨S32x200, .f32⟩
  | 54 => ⟨S32x200, .f32⟩
  | 55 => ⟨S32x200, .f32⟩
  | 56 => ⟨S32x200, .f32⟩
  | 57 => ⟨S32x200, .f32⟩
  | 58 => ⟨S32x200, .f32⟩
  | 59 => ⟨S_, .i32⟩
  | 60 => ⟨S_, .f32⟩
  | 61 => ⟨S32x200, .f32⟩
  | 62 => ⟨S32x200, .f32⟩
  | 63 => ⟨S32x200, .f32⟩
  | 64 => ⟨S_, .i32⟩
  | 65 => ⟨S_, .f32⟩
  | 66 => ⟨S32x200, .f32⟩
  | 67 => ⟨S32x200, .f32⟩
  | 68 => ⟨S32x200, .f32⟩
  | 69 => ⟨S32x200, .f32⟩
  | 70 => ⟨S32x200, .f32⟩
  | 71 => ⟨S32x200, .f32⟩
  | 72 => ⟨S32x200, .f32⟩
  | 73 => ⟨S32x200, .f32⟩
  | 74 => ⟨S32x200, .f32⟩
  | 75 => ⟨S32x200, .f32⟩
  | 76 => ⟨S32x200, .f32⟩
  | 77 => ⟨S_, .f32⟩
  | 78 => ⟨S32x200, .f32⟩
  | 79 => ⟨S32x200, .f32⟩
  | 80 => ⟨S32x200, .f32⟩
  | 81 => ⟨S32x200, .f32⟩
  | 82 => ⟨S32x200, .f32⟩
  | 83 => ⟨S32x200, .f32⟩
  | 84 => ⟨S32x200, .f32⟩
  | 85 => ⟨S32x200, .f32⟩
  | 86 => ⟨S32x200, .f32⟩
  | 87 => ⟨S32x200, .f32⟩
  | 88 => ⟨S32x200, .f32⟩
  | 89 => ⟨S_, .f32⟩
  | 90 => ⟨S32x200, .f32⟩
  | 91 => ⟨S32x200, .f32⟩
  | 92 => ⟨S32x200, .f32⟩
  | 93 => ⟨S32x200, .f32⟩
  | 94 => ⟨S_, .f32⟩
  | 95 => ⟨S32x200, .f32⟩
  | 96 => ⟨S32x200, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S32x200, .f32⟩
  | 104 => ⟨S32x25000, .f32⟩
  | 105 => ⟨S32x200, .f32⟩
  | 106 => ⟨S_, .f32⟩
  | 107 => ⟨S32x200, .f32⟩
  | 108 => ⟨S32x200, .f32⟩
  | 109 => ⟨S32x200, .f32⟩
  | 110 => ⟨S32x200, .f32⟩
  | 111 => ⟨S32x200, .i1⟩
  | 112 => ⟨S32x200, .f32⟩
  | 113 => ⟨S32x200, .f32⟩
  | 114 => ⟨S32x200, .f32⟩
  | 115 => ⟨S32x200, .f32⟩
  | 116 => ⟨S32x200, .f32⟩
  | 117 => ⟨S32x200, .f32⟩
  | 118 => ⟨S32x200, .f32⟩
  | 119 => ⟨S32x200, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S32x25000, .f32⟩
  | _ => ⟨S32x25200x4, .f32⟩

abbrev hbmTy0_1 (i : Nat) : BufTy := match i % 128 with
  | 0 => ⟨S32x25000, .f32⟩
  | 1 => ⟨S32x25000, .f32⟩
  | 2 => ⟨S32x25000, .f32⟩
  | 3 => ⟨S32x25000, .i1⟩
  | 4 => ⟨S32x25000, .f32⟩
  | 5 => ⟨S32x25000, .f32⟩
  | 6 => ⟨S32x25000, .f32⟩
  | 7 => ⟨S32x25000, .f32⟩
  | 8 => ⟨S32x25000, .f32⟩
  | 9 => ⟨S32x25000, .f32⟩
  | 10 => ⟨S32x25000, .f32⟩
  | 11 => ⟨S32x25000, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S32x200x80, .f32⟩
  | 20 => ⟨S_, .f32⟩
  | 21 => ⟨S32x200, .f32⟩
  | 22 => ⟨S_, .f32⟩
  | 23 => ⟨S32x200, .f32⟩
  | 24 => ⟨S32x200, .f32⟩
  | 25 => ⟨S32x200x1, .f32⟩
  | 26 => ⟨S32x200x80, .f32⟩
  | 27 => ⟨S32x200x80, .f32⟩
  | 28 => ⟨S32x200x80, .f32⟩
  | 29 => ⟨S_, .f32⟩
  | 30 => ⟨S32x200, .f32⟩
  | 31 => ⟨S32x200x1, .f32⟩
  | 32 => ⟨S32x200x1, .f32⟩
  | 33 => ⟨S32x200x80, .f32⟩
  | 34 => ⟨S32x200x80, .f32⟩
  | 35 => ⟨S32x200x1, .i32⟩
  | 36 => ⟨S_, .i32⟩
  | 37 => ⟨S32x200x1, .i32⟩
  | 38 => ⟨S32x200x1, .i1⟩
  | 39 => ⟨S_, .i32⟩
  | 40 => ⟨S32x200x1, .i32⟩
  | 41 => ⟨S32x200x1, .i32⟩
  | 42 => ⟨S32x200x1, .i32⟩
  | 43 => ⟨S32x200x1x1, .i32⟩
  | 44 => ⟨S1, .i32⟩
  | 45 => ⟨S_, .i32⟩
  | 46 => ⟨S32x200x1x1, .i32⟩
  | 47 => ⟨S32x200x1x1, .i1⟩
  | 48 => ⟨S1x1x1x1, .i32⟩
  | 49 => ⟨S32x200x1x1, .i32⟩
  | 50 => ⟨S32x200x1x1, .i1⟩
  | 51 => ⟨S32x200x1x1, .i1⟩
  | 52 => ⟨S_, .i1⟩
  | 53 => ⟨S32x200x1, .i1⟩
  | 54 => ⟨S32x200x1, .f32⟩
  | 55 => ⟨S_, .f32⟩
  | 56 => ⟨S32x200x1, .f32⟩
  | 57 => ⟨S32x200x1, .f32⟩
  | 58 => ⟨S32x200, .f32⟩
  | 59 => ⟨S32x200, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S1, .f32⟩
  | 69 => ⟨S1, .f32⟩
  | 70 => ⟨S1, .f32⟩
  | 71 => ⟨S1, .f32⟩
  | 72 => ⟨S4, .f32⟩
  | _ => ⟨S32x25200x4, .f32⟩

abbrev hbmTy (i : Nat) : BufTy := match i / 128 with
  | 0 => hbmTy0_0 i
  | 1 => hbmTy0_1 i
  | _ => ⟨S32x25200x4, .f32⟩

abbrev bufTy : (tb : Table) → Fin (tcTables nBuf tb) → BufTy
  | .hbm, ⟨i, _⟩ => hbmTy i
  | _, _ => ⟨S32x25200x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_call0_v0 : Ref sig .tc := ⟨.hbm, 60, rfl⟩
abbrev main_call0_v1 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_call1_v0 : Ref sig .tc := ⟨.hbm, 65, rfl⟩
abbrev main_call1_v1 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_8 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_call2_cst : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_v81 : Ref sig .tc := ⟨.hbm, 119, rfl⟩
abbrev main_cst_14 : Ref sig .tc := ⟨.hbm, 120, rfl⟩
abbrev main_v82 : Ref sig .tc := ⟨.hbm, 121, rfl⟩
abbrev main_cst_15 : Ref sig .tc := ⟨.hbm, 122, rfl⟩
abbrev main_v83 : Ref sig .tc := ⟨.hbm, 123, rfl⟩
abbrev main_cst_16 : Ref sig .tc := ⟨.hbm, 124, rfl⟩
abbrev main_v84 : Ref sig .tc := ⟨.hbm, 125, rfl⟩
abbrev main_call3_cst : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_v85 : Ref sig .tc := ⟨.hbm, 139, rfl⟩
abbrev main_cst_17 : Ref sig .tc := ⟨.hbm, 140, rfl⟩
abbrev main_v86 : Ref sig .tc := ⟨.hbm, 141, rfl⟩
abbrev main_cst_18 : Ref sig .tc := ⟨.hbm, 142, rfl⟩
abbrev main_v87 : Ref sig .tc := ⟨.hbm, 143, rfl⟩
abbrev main_cst_19 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_call4_cst : Ref sig .tc := ⟨.hbm, 148, rfl⟩
abbrev main_call4_v0 : Ref sig .tc := ⟨.hbm, 149, rfl⟩
abbrev main_call4_cst_0 : Ref sig .tc := ⟨.hbm, 150, rfl⟩
abbrev main_call4_v1 : Ref sig .tc := ⟨.hbm, 151, rfl⟩
abbrev main_call4_v2 : Ref sig .tc := ⟨.hbm, 152, rfl⟩
abbrev main_call4_v3 : Ref sig .tc := ⟨.hbm, 153, rfl⟩
abbrev main_call4_v4 : Ref sig .tc := ⟨.hbm, 154, rfl⟩
abbrev main_call4_v5 : Ref sig .tc := ⟨.hbm, 155, rfl⟩
abbrev main_call4_v6 : Ref sig .tc := ⟨.hbm, 156, rfl⟩
abbrev main_call4_cst_1 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_v91 : Ref sig .tc := ⟨.hbm, 162, rfl⟩
abbrev main_v92 : Ref sig .tc := ⟨.hbm, 163, rfl⟩
abbrev main_call5_c : Ref sig .tc := ⟨.hbm, 164, rfl⟩
abbrev main_call5_v0 : Ref sig .tc := ⟨.hbm, 165, rfl⟩
abbrev main_call5_v1 : Ref sig .tc := ⟨.hbm, 166, rfl⟩
abbrev main_call5_c_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_c_1 : Ref sig .tc := ⟨.hbm, 172, rfl⟩
abbrev main_call5_c_2 : Ref sig .tc := ⟨.hbm, 173, rfl⟩
abbrev main_call5_v6 : Ref sig .tc := ⟨.hbm, 174, rfl⟩
abbrev main_call5_v7 : Ref sig .tc := ⟨.hbm, 175, rfl⟩
abbrev main_call5_v8 : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_c_3 : Ref sig .tc := ⟨.hbm, 180, rfl⟩
abbrev main_call5_v12 : Ref sig .tc := ⟨.hbm, 181, rfl⟩
abbrev main_call5_v13 : Ref sig .tc := ⟨.hbm, 182, rfl⟩
abbrev main_call5_cst : Ref sig .tc := ⟨.hbm, 183, rfl⟩
abbrev main_call5_v14 : Ref sig .tc := ⟨.hbm, 184, rfl⟩
abbrev main_v93 : Ref sig .tc := ⟨.hbm, 185, rfl⟩
abbrev main_v94 : Ref sig .tc := ⟨.hbm, 186, rfl⟩
abbrev main_v95 : Ref sig .tc := ⟨.hbm, 187, rfl⟩
abbrev main_cst_20 : Ref sig .tc := ⟨.hbm, 188, rfl⟩
abbrev main_v96 : Ref sig .tc := ⟨.hbm, 189, rfl⟩
abbrev main_cst_21 : Ref sig .tc := ⟨.hbm, 190, rfl⟩
abbrev main_v97 : Ref sig .tc := ⟨.hbm, 191, rfl⟩
abbrev main_cst_22 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩

abbrev nD : Nat := 1
abbrev τ : Topo := Topo.v7x

variable {F : FTy → Type} [FloatOps F]

class Facts₀ : Prop where
  slices_S32x25200x4_S32x200x4_0_0_0 : S32x25200x4.Slices ![0, 0, 0] S32x200x4
  slices_S32x200x4_S32x200x1_0_0_0 : S32x200x4.Slices ![0, 0, 0] S32x200x1
  shapeCasts_S32x200x1_S32x200 : S32x200x1.ShapeCasts S32x200
  slices_S32x200x4_S32x200x1_0_0_1 : S32x200x4.Slices ![0, 0, 1] S32x200x1
  slices_S32x200x4_S32x200x1_0_0_2 : S32x200x4.Slices ![0, 0, 2] S32x200x1
  slices_S32x200x4_S32x200x1_0_0_3 : S32x200x4.Slices ![0, 0, 3] S32x200x1
  bcast_S_S32x200 : S_.BroadcastsInDim S32x200 (![] : Fin 0 → Fin S32x200.rank)
  reducesTo_S32x200_S_d0_1 : S32x200.ReducesTo [0, 1] S_
  h_S_ : 0 < S_.numel
  slices_S32x25200_S32x200_0_0 : S32x25200.Slices ![0, 0] S32x200
  slices_S32x25200_S32x25000_0_200 : S32x25200.Slices ![0, 200] S32x25000
  bcast_S_S32x25000 : S_.BroadcastsInDim S32x25000 (![] : Fin 0 → Fin S32x25000.rank)
  reducesTo_S32x25000_S_d0_1 : S32x25000.ReducesTo [0, 1] S_
  slices_S32x25200x80_S32x200x80_0_0_0 : S32x25200x80.Slices ![0, 0, 0] S32x200x80
  reducesTo_S32x200x80_S32x200_d2 : S32x200x80.ReducesTo [2] S32x200
  bcast_S32x200_S32x200x1_0_1 : S32x200.BroadcastsInDim S32x200x1 (![0, 1] : Fin 2 → Fin S32x200x1.rank)
  bcast_S32x200x1_S32x200x80_0_1_2 : S32x200x1.BroadcastsInDim S32x200x80 (![0, 1, 2] : Fin 3 → Fin S32x200x80.rank)
  bcast_S_S32x200x1 : S_.BroadcastsInDim S32x200x1 (![] : Fin 0 → Fin S32x200x1.rank)
  shapeCasts_S32x200x1_S32x200x1x1 : S32x200x1.ShapeCasts S32x200x1x1
  bcast_S_S32x200x1x1 : S_.BroadcastsInDim S32x200x1x1 (![] : Fin 0 → Fin S32x200x1x1.rank)
  bcast_S1_S1x1x1x1_3 : S1.BroadcastsInDim S1x1x1x1 (![3] : Fin 1 → Fin S1x1x1x1.rank)
  bcast_S1x1x1x1_S32x200x1x1_0_1_2_3 : S1x1x1x1.BroadcastsInDim S32x200x1x1 (![0, 1, 2, 3] : Fin 4 → Fin S32x200x1x1.rank)
  reducesTo_S32x200x1x1_S32x200x1_d3 : S32x200x1x1.ReducesTo [3] S32x200x1
  bcast_S_S1 : S_.BroadcastsInDim S1 (![] : Fin 0 → Fin S1.rank)
  concatenates_S1_S1_S1_S1_S4_d0 : Shape.Concatenates [S1, S1, S1, S1] S4 0
  gather_S32x200x80_S32x200x1x1_S32x200x1_n_2_01_01_2_3_111_wf : GatherDims.WF S32x200x80 S32x200x1x1 S32x200x1 [] [2] [0, 1] [2] [0, 1] 3 ![1, 1, 1]

variable [Facts₀]

def gather_S32x200x80_S32x200x1x1_S32x200x1_n_2_01_01_2_3_111 : GatherDims S32x200x80 S32x200x1x1 S32x200x1 where
  offsetDims := []
  collapsedSliceDims := [2]
  operandBatchingDims := [0, 1]
  startIndicesBatchingDims := [0, 1]
  startIndexMap := [2]
  indexVectorDim := 3
  sliceSizes := ![1, 1, 1]
  wf := gather_S32x200x80_S32x200x1x1_S32x200x1_n_2_01_01_2_3_111_wf

class Facts : Prop extends Facts₀ where

variable [Facts]
-- ==== Proof.BDefs.lean ====
/-
  The pieces of the detection-loss kernel that every later module speaks about.
  One grid point handles eight batch rows.  The body stores a [1, 8, 128] tile that is zero except for
  four lanes of its first row, which hold four partial sums over the eight rows: the GIoU loss of the
  200 matched boxes, the objectness softplus over the first 200 anchors (sign flipped), the objectness
  softplus over the remaining 25000 anchors, and the cross-entropy written as
  (sum of log-sum-exp) - (sum of the one-hot-selected logits).
  Here those four numbers are named as functions of the five input blocks, and the arrays the region
  finds (after the slice and the two transposes the host performs first) are named too.
-/
import proofs.«409640_j51616916963357_4_alg».proof.Proof.Gen.Kernel.Skeleton
import proofs.«409640_j51616916963357_4_alg».proof.Proof.Gen.Kernel.Launch
import proofs.«409640_j51616916963357_4_alg».proof.Proof.Gen.Kernel.Points
import Idealize.ShloMosaic.Lib.Pipeline.FrameBody
import Idealize.ShloMosaic.Lib.Pipeline.FrameSuffix
import Idealize.ShloMosaic.Lib.Ring

noncomputable section

namespace Cert.Kernel.Hand

open Idealize.ShloMosaic Idealize.ShloMosaic.TcCoe
open Idealize.SL Idealize.SL.Sem
open Idealize.SL.RA Idealize.SL.BI
open scoped Idealize.SL.BI
open Idealize.ShloMosaic.Rounds
open Idealize.ShloMosaic.Pipeline (Dat Cfg Window)
open Cert.Kernel Cert.Kernel.Gen

variable {F : FTy → Type} [FloatOps F]

/-- Batch row `8 t + r` of grid point `t`. -/
def row (t : Fin 4) (r : Fin 8) : Fin 32 := ⟨8 * t.val + r.val, by omega⟩
/-- Anchor `j < 200` as an anchor of the full list of 25200. -/
def lo (j : Fin 200) : Fin 25200 := ⟨j.val, by omega⟩
/-- Anchor `200 + n` of the full list, for `n < 25000`. -/
def hi (n : Fin 25000) : Fin 25200 := ⟨200 + n.val, by omega⟩

/-- Sum over the eight rows and 200 boxes of the GIoU loss, from the predicted and the target block (channel first). -/
def pG (x0 x3 : Vec F S8x4x200 .f32) : F .f32 :=
  k0_pay21 (k0_pay8 x0) (k0_pay9 x0) (k0_pay10 x0) (k0_pay11 x0) (k0_pay16 x3) (k0_pay17 x3) (k0_pay18 x3) (k0_pay19 x3) (k0_pay20 x0 x3)

/-- Sum of softplus(-x) over the first 200 anchors of the eight rows. -/
def pPos (x1 : Vec F S8x25200 .f32) : F .f32 :=
  k0_pay26 k0_pay22 (k0_pay23 x1) (Scalar.ofBits .f32 0x00000000#32) k0_pay24

/-- Sum of softplus(x) over the other 25000 anchors of the eight rows. -/
def pNeg (x1 : Vec F S8x25200 .f32) : F .f32 :=
  k0_pay27 k0_pay22 (k0_pay23 x1) (Scalar.ofBits .f32 0x00000000#32) k0_pay24

/-- Sum over the 1600 (row, box) pairs of log-sum-exp of the 80 class logits, minus the sum of the logits
    the labels select. -/
def pCls (x2 : Vec F S8x200x80 .f32) (x4 : Vec F S8x200 .i32) : F .f32 :=
  Scalar.subf
    (extractAt ![0, 0, 0] (shapeCast S1x1x1 (multiReduction .add [1, 2] S1 (shapeCast S1x1600x1 (k0_pay29 x2) Facts₀.shapeCasts_S1600x1_S1x1600x1) 0x00000000#32 Facts₀.reduces_S1x1600x1_S1 (.inl rfl) rfl) Facts₀.shapeCasts_S1_S1x1x1) Facts₀.inpos_S1x1x1_p0_0_0)
    (extractAt ![0, 0, 0] (shapeCast S1x1x1 (k0_pay30 x2 x4) Facts₀.shapeCasts_S1_S1x1x1) Facts₀.inpos_S1x1x1_p0_0_0)

/-- The tile the body stores. -/
def pay (x0 : Vec F S8x4x200 .f32) (x1 : Vec F S8x25200 .f32) (x2 : Vec F S8x200x80 .f32) (x3 : Vec F S8x4x200 .f32) (x4 : Vec F S8x200 .i32) :
    FVec F S1x8x128 .f32 :=
  k0_pay1 (pG x0 x3) (pPos x1) (pNeg x1) (k0_pay29 x2) (k0_pay30 x2 x4)

variable (m : (ℓ : Loc nD τ sig) → Buf (Elt F) ℓ)

/-- What core `c`'s buffers hold when the region is entered: the launch contents after the slice and the two transposes. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves, and the proof data of the one pipeline -/

/-- The whole output tile as a rectangle. -/
abbrev r5 : Rect S1x8x128 := Rect.unit (s := S1x8x128) ![0, 0, 0] S1x8x128.size Facts₀.inb_S1x8x128_S1x8x128_0_0_0

/-- The output window's staging buffer after the body, from the five input blocks: its one store. -/
def outv (x0 : Vec F S8x4x200 .f32) (x1 : Vec F S8x25200 .f32) (x2 : Vec F S8x200x80 .f32) (x3 : Vec F S8x4x200 .f32) (x4 : Vec F S8x200 .i32) :
    Vec F S1x8x128 .f32 :=
  View.canon [⟨r5, pay x0 x1 x2 x3 x4⟩]

/-- The proof data of the pipeline on core `c`: the arrays as the region finds them; after the body at point `t`
    each input's buffer at its block and the output's at `outv` of the five input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outv (iblk m c 0 t) (iblk m c 1 t) (iblk m c 2 t) (iblk m c 3 t) (iblk m c 4 t) := by dsimp only [dats]

end Cert.Kernel.Hand

end
-- ==== Proof.BFrame.lean ====
/-
  The frame of the detection-loss kernel program, at any float instance.
  @main is three host lines (a slice and two transposes), one region over a grid of four points, and thirty-six
  scalar host lines.  The region stages five input windows (fetched at every point) and one output window (written
  back at every point).  Here: @main reduces to the region continued by the later lines; no host line writes an
  argument or an array of the pipeline; each input window's staging buffer holds its block at every point; the body,
  on whole staging buffers, leaves the inputs as they were and the output tile at `outv` of the five input blocks;
  hence the body obligation, the run to the library's frame post, and the frame claim: the five argument arrays end
  unchanged.
-/
import proofs.«409640_j51616916963357_4_alg».proof.Proof.BDefs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the slice and the two transposes before it, the region, the 36 scalar lines after it;
    it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each line after the region writes only its own result buffer, which is no array of the pipeline. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals intro w; fin_cases w <;> exact StableHlo.devRef_ne_of_ne (by decide)
/-- So the lines after the region write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes `main_arg1`: the region finds it as launched. -/
private theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes `main_arg2`: the region finds it as launched. -/
private theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes `main_arg4`: the region finds it as launched. -/
private theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`. -/
theorem tail_keeps_arg0 : ∀ op ∈ List.flatten [(hostOps1 : List (HloOp τ sig (Elt F)))], Proc.devRef .tc main_arg0 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- No host operation after the region writes `main_arg1`. -/
theorem tail_keeps_arg1 : ∀ op ∈ List.flatten [(hostOps1 : List (HloOp τ sig (Elt F)))], Proc.devRef .tc main_arg1 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- No host operation after the region writes `main_arg2`. -/
theorem tail_keeps_arg2 : ∀ op ∈ List.flatten [(hostOps1 : List (HloOp τ sig (Elt F)))], Proc.devRef .tc main_arg2 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- No host operation after the region writes `main_arg3`. -/
theorem tail_keeps_arg3 : ∀ op ∈ List.flatten [(hostOps1 : List (HloOp τ sig (Elt F)))], Proc.devRef .tc main_arg3 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- No host operation after the region writes `main_arg4`. -/
theorem tail_keeps_arg4 : ∀ op ∈ List.flatten [(hostOps1 : List (HloOp τ sig (Elt F)))], Proc.devRef .tc main_arg4 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- `main_arg0` is no window's array and no host operation after the region writes it: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c

/-- `main_arg1` is input window 1's array, never written back, and no host operation after the region writes it:
    it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ tail_keeps_arg1]
  refine (Pipeline.withArrays_arr (cfgs 0).spec launch0.win.arr_inj c (V0 m c) _ 1).trans ?_
  exact ((dats m 0 c).arrAt_in 1 rfl _).trans ((A_eq m c 1).trans (V_main_arg1 m c))

/-- `main_arg2` is input window 2's array, never written back, and no host operation after the region writes it:
    it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ tail_keeps_arg2]
  refine (Pipeline.withArrays_arr (cfgs 0).spec launch0.win.arr_inj c (V0 m c) _ 2).trans ?_
  exact ((dats m 0 c).arrAt_in 2 rfl _).trans ((A_eq m c 2).trans (V_main_arg2 m c))

/-- `main_arg3` is no window's array and no host operation after the region writes it: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ tail_keeps_arg3,
    Pipeline.withArrays_of_ne _ c (V0 m c) _ main_arg3 (by exact (by decide : ∀ w, Pipeline.arrRef spec0 w ≠ main_arg3))]
  exact V_main_arg3 m c

/-- `main_arg4` is input window 4's array, never written back, and no host operation after the region writes it:
    it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ tail_keeps_arg4]
  refine (Pipeline.withArrays_arr (cfgs 0).spec launch0.win.arr_inj c (V0 m c) _ 4).trans ?_
  exact ((dats m 0 c).arrAt_in 4 rfl _).trans ((A_eq m c 4).trans (V_main_arg4 m c))

/-! ## The windows' blocks -/

/-- Input window 0's current staging buffer holds its block at every point, fetched there or not, for any proof
    data whose array is the region-entry contents and whose body leaves the block in place: the window is uncut and
    never idle, and unfetched means the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_0 (c : Dev nD) (t : Fin cfg0.N) (d) : (dats m 0 c).before 0 t d = iblk m c 0 t :=
  before0_0_of m (dats m 0 c) (A_eq m c 0) (after0_0 m c) t d

/-- Input window 1's current staging buffer holds its block at every point, fetched there or not, for any proof
    data whose array is the region-entry contents and whose body leaves the block in place: the window is uncut and
    never idle, and unfetched means the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_1 (c : Dev nD) (t : Fin cfg0.N) (d) : (dats m 0 c).before 1 t d = iblk m c 1 t :=
  before0_1_of m (dats m 0 c) (A_eq m c 1) (after0_1 m c) t d

/-- Input window 2's current staging buffer holds its block at every point, fetched there or not, for any proof
    data whose array is the region-entry contents and whose body leaves the block in place: the window is uncut and
    never idle, and unfetched means the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_2 (c : Dev nD) (t : Fin cfg0.N) (d) : (dats m 0 c).before 2 t d = iblk m c 2 t :=
  before0_2_of m (dats m 0 c) (A_eq m c 2) (after0_2 m c) t d

/-- Input window 3's current staging buffer holds its block at every point, fetched there or not, for any proof
    data whose array is the region-entry contents and whose body leaves the block in place: the window is uncut and
    never idle, and unfetched means the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_3 (c : Dev nD) (t : Fin cfg0.N) (d) : (dats m 0 c).before 3 t d = iblk m c 3 t :=
  before0_3_of m (dats m 0 c) (A_eq m c 3) (after0_3 m c) t d

/-- Input window 4's current staging buffer holds its block at every point, fetched there or not, for any proof
    data whose array is the region-entry contents and whose body leaves the block in place: the window is uncut and
    never idle, and unfetched means the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_4 (c : Dev nD) (t : Fin cfg0.N) (d) : (dats m 0 c).before 4 t d = iblk m c 4 t :=
  before0_4_of m (dats m 0 c) (A_eq m c 4) (after0_4 m c) t d

/-! ## The frame claim's post from the frame run's -/

/-- The frame run's post read at the five argument arrays: `main_arg1`, `main_arg2`, `main_arg4` are the arrays of
    input windows 1, 2, 4, never written back, so they end at the region-entry contents; `main_arg0` and `main_arg3` are
    staged by no window (the region reads their slice and transposes), so they end as the lines after the region leave
    them; and no host operation writes any of the five. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (W_main_arg0 m c),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).2 main_arg3 (Pipeline.mem_restRefs_of main_arg3 (by decide) (by decide))).trans (W_main_arg3 m c),
   ((h c).1 4).trans (((dats m 0 c).arrAt_in 4 rfl _).trans ((A_eq m c 4).trans (V_main_arg4 m c)))⟩
/-! ## The body's accesses -/

/-- The zero offsets of a rank-3 and of a rank-2 whole-buffer rectangle, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The one store is the whole output tile, so it covers it. -/
theorem cover5 (p0 : Vec F S1x8x128 .f32) (y : S1x8x128.Idx) :
    ∃ pc ∈ ([⟨r5, p0⟩] : List (View.Piece (Elt F) S1x8x128 .f32)), y ∈ pc.1.set :=
  ⟨_, List.mem_singleton_self _, View.mem_set_unit_zero hz3 Facts₀.inb_S1x8x128_S1x8x128_0_0_0 y⟩

/-! ## The body's triple -/

set_option maxHeartbeats 1000000 in
/-- The kernel body on whole staging memrefs, the five inputs' at read contents `x0 … x4` and the output's at anything,
    runs to the continuation holding the inputs' as they were and the output's at `outv` of the inputs: five whole-block
    loads, the four partial sums and the lane selects as pure values, one load of the output tile that nothing reads,
    and one store of the whole tile. -/
theorem sound_kernel (c : Dev nD) (E : Set ℕ) (i : grid0.Coords)
    (arg1 : Memref sig .tc .vmem S8x4x200 .f32) (harg1 : arg1.IsWhole) (arg2 : Memref sig .tc .vmem S8x25200 .f32) (harg2 : arg2.IsWhole)
    (arg3 : Memref sig .tc .vmem S8x200x80 .f32) (harg3 : arg3.IsWhole) (arg4 : Memref sig .tc .vmem S8x4x200 .f32) (harg4 : arg4.IsWhole)
    (arg5 : Memref sig .tc .vmem S8x200 .i32) (harg5 : arg5.IsWhole) (arg6 : Memref sig .tc .vmem S1x8x128 .f32) (harg6 : arg6.IsWhole)
    (x0 : Vec F S8x4x200 .f32) (x1 : Vec F S8x25200 .f32) (x2 : Vec F S8x200x80 .f32) (x3 : Vec F S8x4x200 .f32) (x4 : Vec F S8x200 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outv x0 x1 x2 x3 x4)) -∗ K ⟨⟩))
      ⊢ wp frame (wpE (defs₀ (F := F)) Variants.none c none) E
          (cc0__detection_loss_kernel i arg1 harg1 arg2 harg2 arg3 harg3 arg4 harg4 arg5 harg5 arg6 harg6) K := by
  simp only [cc0__detection_loss_kernel_eq_skeleton]; unfold cc0__detection_loss_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover5 _)]
  sl_unfold_run_names
  simp only [View.readAt_eq_ld, View.ld_unit_zero (S := S8x4x200) hz3, View.ld_unit_zero (S := S8x200x80) hz3,
    View.ld_unit_zero (S := S8x25200) hz2, View.ld_unit_zero (S := S8x200) hz2]
  unfold outv pay pG pPos pNeg
  rfl

/-! ## The body obligation, at a generic point -/

/-- What the body is called with at point `t`: the invariant, the core's debt, and the six windows' current staging
    buffers, each whole at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' staging buffers hold their blocks, so the body's triple applies; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data say (an input
    at its region-entry contents, the output overwritten block by block by what the body left) and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.Kernel.Hand

end
-- ==== Proof.KDefs.lean ====
/-
  The pieces of the detection-loss kernel that every later module speaks about.
  One grid point handles eight batch rows.  The body stores a [1, 8, 128] tile that is zero except for
  four lanes of its first row, which hold four partial sums over the eight rows: the GIoU loss of the
  200 matched boxes, the objectness softplus over the first 200 anchors (sign flipped), the objectness
  softplus over the remaining 25000 anchors, and the cross-entropy written as
  (sum of log-sum-exp) - (sum of the one-hot-selected logits).
  Here those four numbers are named as functions of the five input blocks, and the arrays the region
  finds (after the slice and the two transposes the host performs first) are named too.
-/
import proofs.«409640_j51616916963357_4_alg».proof.Proof.Gen.KernelIdeal.Skeleton
import proofs.«409640_j51616916963357_4_alg».proof.Proof.Gen.KernelIdeal.Launch
import proofs.«409640_j51616916963357_4_alg».proof.Proof.Gen.KernelIdeal.Points
import Idealize.ShloMosaic.Lib.Pipeline.FrameBody
import Idealize.ShloMosaic.Lib.Pipeline.FrameSuffix
import Idealize.ShloMosaic.Lib.Ring

noncomputable section

namespace Cert.KernelIdeal.Hand

open Idealize.ShloMosaic Idealize.ShloMosaic.TcCoe
open Idealize.SL Idealize.SL.Sem
open Idealize.SL.RA Idealize.SL.BI
open scoped Idealize.SL.BI
open Idealize.ShloMosaic.Rounds
open Idealize.ShloMosaic.Pipeline (Dat Cfg Window)
open Cert.KernelIdeal Cert.KernelIdeal.Gen

variable {F : FTy → Type} [FloatOps F]

/-- Batch row `8 t + r` of grid point `t`. -/
def row (t : Fin 4) (r : Fin 8) : Fin 32 := ⟨8 * t.val + r.val, by omega⟩
/-- Anchor `j < 200` as an anchor of the full list of 25200. -/
def lo (j : Fin 200) : Fin 25200 := ⟨j.val, by omega⟩
/-- Anchor `200 + n` of the full list, for `n < 25000`. -/
def hi (n : Fin 25000) : Fin 25200 := ⟨200 + n.val, by omega⟩

/-- Sum over the eight rows and 200 boxes of the GIoU loss, from the predicted and the target block (channel first). -/
def pG (x0 x3 : Vec F S8x4x200 .f32) : F .f32 :=
  k0_pay21 (k0_pay8 x0) (k0_pay9 x0) (k0_pay10 x0) (k0_pay11 x0) (k0_pay16 x3) (k0_pay17 x3) (k0_pay18 x3) (k0_pay19 x3) (k0_pay20 x0 x3)

/-- Sum of softplus(-x) over the first 200 anchors of the eight rows. -/
def pPos (x1 : Vec F S8x25200 .f32) : F .f32 :=
  k0_pay26 k0_pay22 (k0_pay23 x1) (Scalar.ofBits .f32 0x00000000#32) k0_pay24

/-- Sum of softplus(x) over the other 25000 anchors of the eight rows. -/
def pNeg (x1 : Vec F S8x25200 .f32) : F .f32 :=
  k0_pay27 k0_pay22 (k0_pay23 x1) (Scalar.ofBits .f32 0x00000000#32) k0_pay24

/-- Sum over the 1600 (row, box) pairs of log-sum-exp of the 80 class logits, minus the sum of the logits
    the labels select. -/
def pCls (x2 : Vec F S8x200x80 .f32) (x4 : Vec F S8x200 .i32) : F .f32 :=
  Scalar.subf
    (extractAt ![0, 0, 0] (shapeCast S1x1x1 (multiReduction .add [1, 2] S1 (shapeCast S1x1600x1 (k0_pay29 x2) Facts₀.shapeCasts_S1600x1_S1x1600x1) 0x00000000#32 Facts₀.reduces_S1x1600x1_S1 (.inl rfl) rfl) Facts₀.shapeCasts_S1_S1x1x1) Facts₀.inpos_S1x1x1_p0_0_0)
    (extractAt ![0, 0, 0] (shapeCast S1x1x1 (k0_pay30 x2 x4) Facts₀.shapeCasts_S1_S1x1x1) Facts₀.inpos_S1x1x1_p0_0_0)

/-- The tile the body stores. -/
def pay (x0 : Vec F S8x4x200 .f32) (x1 : Vec F S8x25200 .f32) (x2 : Vec F S8x200x80 .f32) (x3 : Vec F S8x4x200 .f32) (x4 : Vec F S8x200 .i32) :
    FVec F S1x8x128 .f32 :=
  k0_pay1 (pG x0 x3) (pPos x1) (pNeg x1) (k0_pay29 x2) (k0_pay30 x2 x4)

variable (m : (ℓ : Loc nD τ sig) → Buf (Elt F) ℓ)

/-- What core `c`'s buffers hold when the region is entered: the launch contents after the slice and the two transposes. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves, and the proof data of the one pipeline -/

/-- The whole output tile as a rectangle. -/
abbrev r5 : Rect S1x8x128 := Rect.unit (s := S1x8x128) ![0, 0, 0] S1x8x128.size Facts₀.inb_S1x8x128_S1x8x128_0_0_0

/-- The output window's staging buffer after the body, from the five input blocks: its one store. -/
def outv (x0 : Vec F S8x4x200 .f32) (x1 : Vec F S8x25200 .f32) (x2 : Vec F S8x200x80 .f32) (x3 : Vec F S8x4x200 .f32) (x4 : Vec F S8x200 .i32) :
    Vec F S1x8x128 .f32 :=
  View.canon [⟨r5, pay x0 x1 x2 x3 x4⟩]

/-- The proof data of the pipeline on core `c`: the arrays as the region finds them; after the body at point `t`
    each input's buffer at its block and the output's at `outv` of the five input blocks; the invariant is the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outv (iblk m c 0 t) (iblk m c 1 t) (iblk m c 2 t) (iblk m c 3 t) (iblk m c 4 t) := by dsimp only [dats]

end Cert.KernelIdeal.Hand

end
-- ==== Proof.KFrame.lean ====
/-
  The frame of the detection-loss kernel program, at any float instance.
  @main is three host lines (a slice and two transposes), one region over a grid of four points, and thirty-six
  scalar host lines.  The region stages five input windows (fetched at every point) and one output window (written
  back at every point).  Here: @main reduces to the region continued by the later lines; no host line writes an
  argument or an array of the pipeline; each input window's staging buffer holds its block at every point; the body,
  on whole staging buffers, leaves the inputs as they were and the output tile at `outv` of the five input blocks;
  hence the body obligation, the run to the library's frame post, and the frame claim: the five argument arrays end
  unchanged.
-/
import proofs.«409640_j51616916963357_4_alg».proof.Proof.KDefs
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the slice and the two transposes before it, the region, the 36 scalar lines after it;
    it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each line after the region writes only its own result buffer, which is no array of the pipeline. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals intro w; fin_cases w <;> exact StableHlo.devRef_ne_of_ne (by decide)
/-- So the lines after the region write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes `main_arg1`: the region finds it as launched. -/
private theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes `main_arg2`: the region finds it as launched. -/
private theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation before the region writes `main_arg4`: the region finds it as launched. -/
private theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- No host operation after the region writes `main_arg0`. -/
theorem tail_keeps_arg0 : ∀ op ∈ List.flatten [(hostOps1 : List (HloOp τ sig (Elt F)))], Proc.devRef .tc main_arg0 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- No host operation after the region writes `main_arg1`. -/
theorem tail_keeps_arg1 : ∀ op ∈ List.flatten [(hostOps1 : List (HloOp τ sig (Elt F)))], Proc.devRef .tc main_arg1 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- No host operation after the region writes `main_arg2`. -/
theorem tail_keeps_arg2 : ∀ op ∈ List.flatten [(hostOps1 : List (HloOp τ sig (Elt F)))], Proc.devRef .tc main_arg2 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- No host operation after the region writes `main_arg3`. -/
theorem tail_keeps_arg3 : ∀ op ∈ List.flatten [(hostOps1 : List (HloOp τ sig (Elt F)))], Proc.devRef .tc main_arg3 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- No host operation after the region writes `main_arg4`. -/
theorem tail_keeps_arg4 : ∀ op ∈ List.flatten [(hostOps1 : List (HloOp τ sig (Elt F)))], Proc.devRef .tc main_arg4 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- `main_arg0` is no window's array and no host operation after the region writes it: it ends as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ tail_keeps_arg0,
    Pipeline.withArrays_of_ne _ c (V0 m c) _ main_arg0 (by exact (by decide : ∀ w, Pipeline.arrRef spec0 w ≠ main_arg0))]
  exact V_main_arg0 m c

/-- `main_arg1` is input window 1's array, never written back, and no host operation after the region writes it:
    it ends as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ tail_keeps_arg1]
  refine (Pipeline.withArrays_arr (cfgs 0).spec launch0.win.arr_inj c (V0 m c) _ 1).trans ?_
  exact ((dats m 0 c).arrAt_in 1 rfl _).trans ((A_eq m c 1).trans (V_main_arg1 m c))

/-- `main_arg2` is input window 2's array, never written back, and no host operation after the region writes it:
    it ends as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ tail_keeps_arg2]
  refine (Pipeline.withArrays_arr (cfgs 0).spec launch0.win.arr_inj c (V0 m c) _ 2).trans ?_
  exact ((dats m 0 c).arrAt_in 2 rfl _).trans ((A_eq m c 2).trans (V_main_arg2 m c))

/-- `main_arg3` is no window's array and no host operation after the region writes it: it ends as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ tail_keeps_arg3,
    Pipeline.withArrays_of_ne _ c (V0 m c) _ main_arg3 (by exact (by decide : ∀ w, Pipeline.arrRef spec0 w ≠ main_arg3))]
  exact V_main_arg3 m c

/-- `main_arg4` is input window 4's array, never written back, and no host operation after the region writes it:
    it ends as launched. -/
theorem W_main_arg4 (c : Dev nD) :
    Pipeline.afterTail₀ cfgs (dats m) 0 (V0 m) [hostOps1] c main_arg4 = m ((c : Thread nD τ).loc main_arg4) := by
  unfold Pipeline.afterTail₀
  rw [StableHlo.after_of_forall_not_mem (b := Proc.devRef .tc main_arg4) _ _ tail_keeps_arg4]
  refine (Pipeline.withArrays_arr (cfgs 0).spec launch0.win.arr_inj c (V0 m c) _ 4).trans ?_
  exact ((dats m 0 c).arrAt_in 4 rfl _).trans ((A_eq m c 4).trans (V_main_arg4 m c))

/-! ## The windows' blocks -/

/-- Input window 0's current staging buffer holds its block at every point, fetched there or not, for any proof
    data whose array is the region-entry contents and whose body leaves the block in place: the window is uncut and
    never idle, and unfetched means the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_0 (c : Dev nD) (t : Fin cfg0.N) (d) : (dats m 0 c).before 0 t d = iblk m c 0 t :=
  before0_0_of m (dats m 0 c) (A_eq m c 0) (after0_0 m c) t d

/-- Input window 1's current staging buffer holds its block at every point, fetched there or not, for any proof
    data whose array is the region-entry contents and whose body leaves the block in place: the window is uncut and
    never idle, and unfetched means the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_1 (c : Dev nD) (t : Fin cfg0.N) (d) : (dats m 0 c).before 1 t d = iblk m c 1 t :=
  before0_1_of m (dats m 0 c) (A_eq m c 1) (after0_1 m c) t d

/-- Input window 2's current staging buffer holds its block at every point, fetched there or not, for any proof
    data whose array is the region-entry contents and whose body leaves the block in place: the window is uncut and
    never idle, and unfetched means the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_2 (c : Dev nD) (t : Fin cfg0.N) (d) : (dats m 0 c).before 2 t d = iblk m c 2 t :=
  before0_2_of m (dats m 0 c) (A_eq m c 2) (after0_2 m c) t d

/-- Input window 3's current staging buffer holds its block at every point, fetched there or not, for any proof
    data whose array is the region-entry contents and whose body leaves the block in place: the window is uncut and
    never idle, and unfetched means the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_3 (c : Dev nD) (t : Fin cfg0.N) (d) : (dats m 0 c).before 3 t d = iblk m c 3 t :=
  before0_3_of m (dats m 0 c) (A_eq m c 3) (after0_3 m c) t d

/-- Input window 4's current staging buffer holds its block at every point, fetched there or not, for any proof
    data whose array is the region-entry contents and whose body leaves the block in place: the window is uncut and
    never idle, and unfetched means the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The same of this certificate's proof data. -/
theorem before0_4 (c : Dev nD) (t : Fin cfg0.N) (d) : (dats m 0 c).before 4 t d = iblk m c 4 t :=
  before0_4_of m (dats m 0 c) (A_eq m c 4) (after0_4 m c) t d

/-! ## The frame claim's post from the frame run's -/

/-- The frame run's post read at the five argument arrays: `main_arg1`, `main_arg2`, `main_arg4` are the arrays of
    input windows 1, 2, 4, never written back, so they end at the region-entry contents; `main_arg0` and `main_arg3` are
    staged by no window (the region reads their slice and transposes), so they end as the lines after the region leave
    them; and no host operation writes any of the five. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (W_main_arg0 m c),
   ((h c).1 1).trans (((dats m 0 c).arrAt_in 1 rfl _).trans ((A_eq m c 1).trans (V_main_arg1 m c))),
   ((h c).1 2).trans (((dats m 0 c).arrAt_in 2 rfl _).trans ((A_eq m c 2).trans (V_main_arg2 m c))),
   ((h c).2 main_arg3 (Pipeline.mem_restRefs_of main_arg3 (by decide) (by decide))).trans (W_main_arg3 m c),
   ((h c).1 4).trans (((dats m 0 c).arrAt_in 4 rfl _).trans ((A_eq m c 4).trans (V_main_arg4 m c)))⟩
/-! ## The body's accesses -/

/-- The zero offsets of a rank-3 and of a rank-2 whole-buffer rectangle, as constant functions. -/
theorem hz3 : (![0, 0, 0] : Fin 3 → Nat) = fun _ => 0 := funext fun a => by fin_cases a <;> rfl
theorem hz2 : (![0, 0] : Fin 2 → Nat) = fun _ => 0 := funext fun a => by fin_cases a <;> rfl

/-- The one store is the whole output tile, so it covers it. -/
theorem cover5 (p0 : Vec F S1x8x128 .f32) (y : S1x8x128.Idx) :
    ∃ pc ∈ ([⟨r5, p0⟩] : List (View.Piece (Elt F) S1x8x128 .f32)), y ∈ pc.1.set :=
  ⟨_, List.mem_singleton_self _, View.mem_set_unit_zero hz3 Facts₀.inb_S1x8x128_S1x8x128_0_0_0 y⟩

/-! ## The body's triple -/

set_option maxHeartbeats 1000000 in
/-- The kernel body on whole staging memrefs, the five inputs' at read contents `x0 … x4` and the output's at anything,
    runs to the continuation holding the inputs' as they were and the output's at `outv` of the inputs: five whole-block
    loads, the four partial sums and the lane selects as pure values, one load of the output tile that nothing reads,
    and one store of the whole tile. -/
theorem sound_kernel (c : Dev nD) (E : Set ℕ) (i : grid0.Coords)
    (arg1 : Memref sig .tc .vmem S8x4x200 .f32) (harg1 : arg1.IsWhole) (arg2 : Memref sig .tc .vmem S8x25200 .f32) (harg2 : arg2.IsWhole)
    (arg3 : Memref sig .tc .vmem S8x200x80 .f32) (harg3 : arg3.IsWhole) (arg4 : Memref sig .tc .vmem S8x4x200 .f32) (harg4 : arg4.IsWhole)
    (arg5 : Memref sig .tc .vmem S8x200 .i32) (harg5 : arg5.IsWhole) (arg6 : Memref sig .tc .vmem S1x8x128 .f32) (harg6 : arg6.IsWhole)
    (x0 : Vec F S8x4x200 .f32) (x1 : Vec F S8x25200 .f32) (x2 : Vec F S8x200x80 .f32) (x3 : Vec F S8x4x200 .f32) (x4 : Vec F S8x200 .i32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outv x0 x1 x2 x3 x4)) -∗ K ⟨⟩))
      ⊢ wp frame (wpE (defs₀ (F := F)) Variants.none c none) E
          (cc0__detection_loss_kernel i arg1 harg1 arg2 harg2 arg3 harg3 arg4 harg4 arg5 harg5 arg6 harg6) K := by
  simp only [cc0__detection_loss_kernel_eq_skeleton]; unfold cc0__detection_loss_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover5 _)]
  sl_unfold_run_names
  simp only [View.readAt_eq_ld, View.ld_unit_zero (S := S8x4x200) hz3, View.ld_unit_zero (S := S8x200x80) hz3,
    View.ld_unit_zero (S := S8x25200) hz2, View.ld_unit_zero (S := S8x200) hz2]
  unfold outv pay pG pPos pNeg
  rfl

/-! ## The body obligation, at a generic point -/

/-- What the body is called with at point `t`: the invariant, the core's debt, and the six windows' current staging
    buffers, each whole at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five inputs' staging buffers hold their blocks, so the body's triple applies; the
    invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on the
    TensorCores terminates, and every final state has every array of the pipeline at what the proof data say (an input
    at its region-entry contents, the output overwritten block by block by what the body left) and every other unscoped
    buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs, and its five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => args_kept m r h c) (run_main m ρ)

end Cert.KernelIdeal.Hand

end
-- ==== Proof.KBlk.lean ====
/-
  The five input blocks of grid point `t` (t = 0, 1, 2, 3), each named at its literal shape:
  rows 8t .. 8t+7 of the channel-first predicted boxes, of the objectness logits, of the first 200 anchors'
  class logits, of the channel-first target boxes and of the labels.
-/
import proofs.«409640_j51616916963357_4_alg».proof.Proof.KDefs

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Grid point number `t` as a point of the pipeline's grid. -/
def pt (t : Fin 4) : Fin cfg0.N := Fin.cast N_0.symm t

/-- The predicted boxes' block (channel first) at point `t`. -/
def xb0 (c : Dev nD) (t : Fin 4) : Vec F S8x4x200 .f32 := iblk m c 0 (pt t)
/-- The objectness logits' block at point `t`. -/
def xb1 (c : Dev nD) (t : Fin 4) : Vec F S8x25200 .f32 := iblk m c 1 (pt t)
/-- The class logits' block at point `t`. -/
def xb2 (c : Dev nD) (t : Fin 4) : Vec F S8x200x80 .f32 := iblk m c 2 (pt t)
/-- The target boxes' block (channel first) at point `t`. -/
def xb3 (c : Dev nD) (t : Fin 4) : Vec F S8x4x200 .f32 := iblk m c 3 (pt t)
/-- The labels' block at point `t`. -/
def xb4 (c : Dev nD) (t : Fin 4) : Vec F S8x200 .i32 := iblk m c 4 (pt t)

end Cert.KernelIdeal.Hand

end
-- ==== Proof.Tail.lean ====
/-
  The last lines of both programs are the same arithmetic on four scalars: the GIoU sum, the two objectness
  sums and the cross-entropy sum become
    bbox  = s0 / 6400 * 5
    obj   = s1 / 6400 * 1 + s2 / 800000 * 0.5
    cls   = s3 / 6400 * 1
    total = bbox + obj + cls
  and the result is the vector [total, bbox, obj, cls].  It is written once here, for any float instance.
-/
import Idealize.ShloMosaic.PureOps

noncomputable section

namespace Cert.Spec

open Idealize.ShloMosaic

abbrev S_ : Shape := ⟨0, ![]⟩
abbrev S1 : Shape := ⟨1, ![1]⟩
abbrev S4 : Shape := ⟨1, ![4]⟩

variable {F : FTy → Type} [FloatOps F]

/-- The weighted bounding-box term. -/
def lossBox (s0 : FVec F S_ .f32) : FVec F S_ .f32 :=
  mulf (Host.divf s0 (constant S_ .f32 0x45C80000#32)) (constant S_ .f32 0x40A00000#32)

/-- The weighted objectness term. -/
def lossObj (s1 s2 : FVec F S_ .f32) : FVec F S_ .f32 :=
  addf (mulf (Host.divf s1 (constant S_ .f32 0x45C80000#32)) (constant S_ .f32 0x3F800000#32))
    (mulf (Host.divf s2 (constant S_ .f32 0x49435000#32)) (constant S_ .f32 0x3F000000#32))

/-- The weighted classification term. -/
def lossCls (s3 : FVec F S_ .f32) : FVec F S_ .f32 :=
  mulf (Host.divf s3 (constant S_ .f32 0x45C80000#32)) (constant S_ .f32 0x3F800000#32)

/-- The four results from the four sums. -/
def tailS (hb : S_.BroadcastsInDim S1 (![] : Fin 0 → Fin S1.rank)) (hc : Shape.Concatenates [S1, S1, S1, S1] S4 0)
    (s0 s1 s2 s3 : FVec F S_ .f32) : FVec F S4 .f32 :=
  concatenate S4 0
    [⟨S1, broadcastInDim S1 ![] hb (addf (addf (lossBox s0) (lossObj s1 s2)) (lossCls s3))⟩,
     ⟨S1, broadcastInDim S1 ![] hb (lossBox s0)⟩,
     ⟨S1, broadcastInDim S1 ![] hb (lossObj s1 s2)⟩,
     ⟨S1, broadcastInDim S1 ![] hb (lossCls s3)⟩] hc

end Cert.Spec

end
-- ==== Proof.KTail.lean ====
/-
  What the program leaves in its result buffer.
  Each of the four grid points stores one [1, 8, 128] tile whose row 0 holds, in lanes 0..3, the point's four
  partial sums (GIoU; softplus(-x) over the first 200 anchors; softplus(x) over the other 25000; cross-entropy).
  The four tiles fill the [4, 8, 128] output array: entry (t, r, l) of the array is entry (0, r, l) of point t's tile.
  The host then takes entries (t, 0, j), j = 0..3, sums them over t from the initial value 0, and does the closing
  scalar arithmetic on the four sums.  So the result is that arithmetic applied to
    sum over t of the GIoU sums, of the two objectness sums, and of the cross-entropy sums.
-/
import proofs.«409640_j51616916963357_4_alg».proof.Proof.KBlk
import proofs.«409640_j51616916963357_4_alg».proof.Proof.Tail
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen
open scoped BigOperators

/-! ## The four lanes of the stored tile -/

/-- A select whose condition holds at an index reads its first operand there. -/
theorem sel_pos {α : Type} (c : IVec S8x128 1) (a b : S8x128.Idx → α) (i : S8x128.Idx) (h : c i = 1#1) :
    select c a b i = a i := if_pos h
/-- A select whose condition fails at an index reads its second operand there. -/
theorem sel_neg {α : Type} (c : IVec S8x128 1) (a b : S8x128.Idx → α) (i : S8x128.Idx) (h : ¬ c i = 1#1) :
    select c a b i = b i := if_neg h

/-- Row 0, lane 0 of the tile is the GIoU sum: there "row = 0 and lane = 0" holds. -/
theorem pay_lane0 (x0 : Vec Ideal S8x4x200 .f32) (x1 : Vec Ideal S8x25200 .f32) (x2 : Vec Ideal S8x200x80 .f32) (x3 : Vec Ideal S8x4x200 .f32) (x4 : Vec Ideal S8x200 .i32) :
    pay x0 x1 x2 x3 x4 (ix3 0 0 0) = pG x0 x3 := by
  unfold pay k0_pay1
  refine (shapeCast_addUnit_apply ![8, 128] _ _ (ix3 0 0 0)).trans ?_
  exact sel_pos _ _ _ _ (by decide)

/-- Row 0, lane 1 is the objectness sum over the first 200 anchors: "lane = 0" fails, "lane = 1" holds. -/
theorem pay_lane1 (x0 : Vec Ideal S8x4x200 .f32) (x1 : Vec Ideal S8x25200 .f32) (x2 : Vec Ideal S8x200x80 .f32) (x3 : Vec Ideal S8x4x200 .f32) (x4 : Vec Ideal S8x200 .i32) :
    pay x0 x1 x2 x3 x4 (ix3 0 0 1) = pPos x1 := by
  unfold pay k0_pay1
  refine (shapeCast_addUnit_apply ![8, 128] _ _ (ix3 0 0 1)).trans ?_
  refine (sel_neg _ _ _ _ (by decide)).trans ?_
  exact sel_pos _ _ _ _ (by decide)

/-- Row 0, lane 2 is the objectness sum over the other 25000 anchors. -/
theorem pay_lane2 (x0 : Vec Ideal S8x4x200 .f32) (x1 : Vec Ideal S8x25200 .f32) (x2 : Vec Ideal S8x200x80 .f32) (x3 : Vec Ideal S8x4x200 .f32) (x4 : Vec Ideal S8x200 .i32) :
    pay x0 x1 x2 x3 x4 (ix3 0 0 2) = pNeg x1 := by
  unfold pay k0_pay1
  refine (shapeCast_addUnit_apply ![8, 128] _ _ (ix3 0 0 2)).trans ?_
  refine (sel_neg _ _ _ _ (by decide)).trans ?_
  refine (sel_neg _ _ _ _ (by decide)).trans ?_
  exact sel_pos _ _ _ _ (by decide)

/-- Row 0, lane 3 is the cross-entropy sum: (sum of log-sum-exp) - (sum of the selected logits). -/
theorem pay_lane3 (x0 : Vec Ideal S8x4x200 .f32) (x1 : Vec Ideal S8x25200 .f32) (x2 : Vec Ideal S8x200x80 .f32) (x3 : Vec Ideal S8x4x200 .f32) (x4 : Vec Ideal S8x200 .i32) :
    pay x0 x1 x2 x3 x4 (ix3 0 0 3) = pCls x2 x4 := by
  unfold pay k0_pay1 pCls
  refine (shapeCast_addUnit_apply ![8, 128] _ _ (ix3 0 0 3)).trans ?_
  refine (sel_neg _ _ _ _ (by decide)).trans ?_
  refine (sel_neg _ _ _ _ (by decide)).trans ?_
  refine (sel_neg _ _ _ _ (by decide)).trans ?_
  exact sel_pos _ _ _ _ (by decide)

/-! ## The host's operations after the region -/

/-- The host's sum over the four tiles of row 0, lanes 0..3 of each: a vector of four. -/
def laneSums (X : FVec Ideal S4x8x128 .f32) : FVec Ideal S4 .f32 :=
  Host.reduceAdd (shapeCast S4x4 (extractStridedSlice S4x1x4 ![0, 0, 0] X Facts₀.slices_S4x8x128_S4x1x4_0_0_0) Facts₀.shapeCasts_S4x1x4_S4x4)
    (constant (F := Ideal) S_ .f32 0x00000000#32) Facts₀.reducesTo_S4x4_S4_d0 Facts₀.h_S_

/-- Entry 0 of that vector, as a scalar. -/
def lane0 (X : FVec Ideal S4x8x128 .f32) : FVec Ideal S_ .f32 :=
  shapeCast S_ (extractStridedSlice S1 ![0] (laneSums X) Facts₀.slices_S4_S1_0) Facts₀.shapeCasts_S1_S_
/-- Entry 1. -/
def lane1 (X : FVec Ideal S4x8x128 .f32) : FVec Ideal S_ .f32 :=
  shapeCast S_ (extractStridedSlice S1 ![1] (laneSums X) Facts₀.slices_S4_S1_1) Facts₀.shapeCasts_S1_S_
/-- Entry 2. -/
def lane2 (X : FVec Ideal S4x8x128 .f32) : FVec Ideal S_ .f32 :=
  shapeCast S_ (extractStridedSlice S1 ![2] (laneSums X) Facts₀.slices_S4_S1_2) Facts₀.shapeCasts_S1_S_
/-- Entry 3. -/
def lane3 (X : FVec Ideal S4x8x128 .f32) : FVec Ideal S_ .f32 :=
  shapeCast S_ (extractStridedSlice S1 ![3] (laneSums X) Facts₀.slices_S4_S1_3) Facts₀.shapeCasts_S1_S_

/-- The result buffer after the host's last operations, whatever the buffers held before them: the closing
    scalar arithmetic of the four entries of the lane sums of the output array. -/
theorem tail_read (W : Valuation τ sig (Elt Ideal)) :
    StableHlo.after hostOps1 W (Proc.devRef .tc main_v30)
      = Cert.Spec.tailS (F := Ideal) Facts₀.bcast_S_S1 Facts₀.concatenates_S1_S1_S1_S1_S4_d0
          (lane0 (W (Proc.devRef .tc main_v3))) (lane1 (W (Proc.devRef .tc main_v3)))
          (lane2 (W (Proc.devRef .tc main_v3))) (lane3 (W (Proc.devRef .tc main_v3))) := by
  after_results
  unfold Cert.Spec.tailS Cert.Spec.lossBox Cert.Spec.lossObj Cert.Spec.lossCls lane0 lane1 lane2 lane3 laneSums
  rfl

theorem redS44 : S4x4.Reduces [0] S4 := by decide

/-- Entry `j` of the lane sums is 0 + the sum over the four tiles `t` of entry (t, 0, j) of the array. -/
theorem laneSums_apply (X : FVec Ideal S4x8x128 .f32) (j : Fin 4) (j' : Fin 128) (hj : j'.val = j.val) :
    laneSums X (ix1 j) = ∑ t : Fin 4, X (ix3 t 0 j') := by
  unfold laneSums
  refine (Ideal.hostReduceAdd_single Facts₀.reducesTo_S4x4_S4_d0 redS44 _ _ (ix1 j)).trans ?_
  have h0 : (constant (F := Ideal) S_ .f32 0x00000000#32 (Shape.Idx.first Facts₀.h_S_) : EReal) = 0 := Ideal.ofBits_zero_f32
  rw [h0, zero_add]
  refine Finset.sum_congr rfl fun t _ => ?_
  refine (shapeCast_apply _ _ _ (ix3 (t : Fin 4) (0 : Fin 1) j : S4x1x4.Idx) ?_).trans ?_
  · rw [Shape.rowMajor_val_three, Shape.rowMajor_val_two]
    show (t.val * 1 + 0) * 4 + j.val = t.val * 4 + j.val
    omega
  · refine extractStridedSlice_apply _ X _ _ (ix3 (t : Fin 4) (0 : Fin 8) j' : S4x8x128.Idx) fun a => ?_
    match a with
    | ⟨0, _⟩ => show t.val = 0 + t.val; omega
    | ⟨1, _⟩ => rfl
    | ⟨2, _⟩ => show j'.val = 0 + j.val; omega

/-- A one-entry slice at offset `j` of the lane sums, reshaped to a scalar, is entry `j`. -/
theorem lane_apply (X : FVec Ideal S4x8x128 .f32) (j : Fin 4) (j' : Fin 128) (hj : j'.val = j.val)
    (hs : S4.Slices ![j.val] S1) (i : S_.Idx) :
    shapeCast S_ (extractStridedSlice S1 ![j.val] (laneSums X) hs) Facts₀.shapeCasts_S1_S_ i = ∑ t : Fin 4, X (ix3 t 0 j') := by
  refine (shapeCast_apply _ _ i (ix1 (0 : Fin 1) : S1.Idx) ?_).trans ?_
  · rw [Shape.rowMajor_val_one]
    exact (Shape.rowMajorPi_zero _ i).symm
  · refine (extractStridedSlice_apply _ _ hs _ (ix1 j : S4.Idx) fun a => ?_).trans (laneSums_apply X j j' hj)
    match a with
    | ⟨0, _⟩ => show j.val = j.val + 0; omega

theorem lane0_apply (X : FVec Ideal S4x8x128 .f32) : lane0 X = fun _ => ∑ t : Fin 4, X (ix3 t 0 0) :=
  funext fun i => lane_apply X 0 0 rfl _ i
theorem lane1_apply (X : FVec Ideal S4x8x128 .f32) : lane1 X = fun _ => ∑ t : Fin 4, X (ix3 t 0 1) :=
  funext fun i => lane_apply X 1 1 rfl _ i
theorem lane2_apply (X : FVec Ideal S4x8x128 .f32) : lane2 X = fun _ => ∑ t : Fin 4, X (ix3 t 0 2) :=
  funext fun i => lane_apply X 2 2 rfl _ i
theorem lane3_apply (X : FVec Ideal S4x8x128 .f32) : lane3 X = fun _ => ∑ t : Fin 4, X (ix3 t 0 3) :=
  funext fun i => lane_apply X 3 3 rfl _ i

/-! ## From the four stored tiles to the output array -/

variable (m : (ℓ : Loc nD τ sig) → Buf (Elt Ideal) ℓ)

theorem zero3 : (![0, 0, 0] : Fin 3 → Nat) = fun _ => 0 := funext fun a => by fin_cases a <;> rfl

/-- The tile grid point `t` stores, from its five input blocks. -/
def payAt (c : Dev nD) (t : Fin 4) : FVec Ideal S1x8x128 .f32 :=
  pay (xb0 m c t) (xb1 m c t) (xb2 m c t) (xb3 m c t) (xb4 m c t)

/-- The whole [4, 8, 128] output array: its tile `t` is what point `t` stores. -/
def G5 (c : Dev nD) : S4x8x128.Idx → EReal := fun i => payAt m c (i 0) (ix3 0 (i 1) (i 2))

/-- Entry (r, l) of point `t`'s tile is entry (t, r, l) of the array. -/
theorem payAt_read (c : Dev nD) (t : Fin 4) (j : S1x8x128.Idx) (k : S4x8x128.Idx)
    (h0 : (k 0).val = t.val) (h1 : (k 1).val = (j 1).val) (h2 : (k 2).val = (j 2).val) :
    payAt m c t j = G5 m c k := by
  unfold G5
  have e0 : k 0 = t := Fin.ext h0
  rw [e0]
  refine congrArg (payAt m c t) (funext fun a => Fin.ext ?_)
  match a with
  | ⟨0, _⟩ => show (j 0).val = 0; have := (j 0).isLt; simp at this; omega
  | ⟨1, _⟩ => exact h1.symm
  | ⟨2, _⟩ => exact h2.symm

/-- The output's block index at point `t` is (t, 0, 0). -/
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- What point `t` writes back is tile `t` of `G5`. -/
theorem flushed5_eq (c : Dev nD) (t : Fin cfg0.N) :
    (dats m 0 c).flushed 5 t = ((cfg0.win 5).blk t).view.read (Elt Ideal) (G5 m c) := by
  obtain ⟨t', rfl⟩ : ∃ t' : Fin 4, t = pt t' := ⟨Fin.cast N_0 t, Fin.ext rfl⟩
  show (cfg0.win 5).cut (grid0.coords (pt t')) ((dats m 0 c).after 5 (pt t')) = _
  rw [after0_5]
  unfold outv
  rw [View.canon_unit_zero zero3]
  obtain ⟨e0, e1, e2⟩ := idx5 (pt t')
  funext j
  rw [View.read_apply]
  refine payAt_read m c t' j _ ?_ ?_ ?_
  · show win0_5.index (pt t') (0 : Fin 3) * 1 + 1 * (j 0).val = t'.val
    have hj : (j 0).val < 1 := (j 0).isLt
    have hp : (pt t').val = t'.val := rfl
    omega
  · show win0_5.index (pt t') (1 : Fin 3) * 8 + 1 * (j 1).val = (j 1).val
    omega
  · show win0_5.index (pt t') (2 : Fin 3) * 128 + 1 * (j 2).val = (j 2).val
    omega

/-- An index of the array is in point `t`'s tile iff each coordinate is in the tile's range on its axis. -/
theorem mem_blk5 (t : Fin cfg0.N) (i : S4x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v3).slice (win0_5.rect t)).set ↔ _
  rw [View.set_slice_whole, Rect.mem_set_unit]
  exact Iff.rfl

/-- The array after the last point: index (t, r, l) lies in point `t`'s tile, so the array is `G5` everywhere. -/
theorem final5 (c : Dev nD) : (dats m 0 c).arrAt 5 cfg0.N = G5 m c :=
  (dats m 0 c).arrAt_eq_of_cover 5 (G5 m c) (fun t _ => flushed5_eq m c t) fun i => by
    refine ⟨pt (i 0), flush0_5 _, ?_⟩
    rw [mem_blk5]
    obtain ⟨e0, e1, e2⟩ := idx5 (pt (i 0))
    have hp : (pt (i 0)).val = (i 0).val := rfl
    have h1 : (i 1).val < 8 := (i 1).isLt
    have h2 : (i 2).val < 128 := (i 2).isLt
    intro a
    match a with
    | ⟨0, _⟩ => show win0_5.index (pt (i 0)) (0 : Fin 3) * 1 ≤ (i 0).val ∧ (i 0).val < win0_5.index (pt (i 0)) (0 : Fin 3) * 1 + 1; omega
    | ⟨1, _⟩ => show win0_5.index (pt (i 0)) (1 : Fin 3) * 8 ≤ (i 1).val ∧ (i 1).val < win0_5.index (pt (i 0)) (1 : Fin 3) * 8 + 8; omega
    | ⟨2, _⟩ => show win0_5.index (pt (i 0)) (2 : Fin 3) * 128 ≤ (i 2).val ∧ (i 2).val < win0_5.index (pt (i 0)) (2 : Fin 3) * 128 + 128; omega

/-- Row 0, lanes 0..3 of tile `t` of the array are point `t`'s four partial sums. -/
theorem G5_lane0 (c : Dev nD) (t : Fin 4) : G5 m c (ix3 t 0 0) = pG (xb0 m c t) (xb3 m c t) :=
  pay_lane0 (xb0 m c t) (xb1 m c t) (xb2 m c t) (xb3 m c t) (xb4 m c t)
theorem G5_lane1 (c : Dev nD) (t : Fin 4) : G5 m c (ix3 t 0 1) = pPos (xb1 m c t) :=
  pay_lane1 (xb0 m c t) (xb1 m c t) (xb2 m c t) (xb3 m c t) (xb4 m c t)
theorem G5_lane2 (c : Dev nD) (t : Fin 4) : G5 m c (ix3 t 0 2) = pNeg (xb1 m c t) :=
  pay_lane2 (xb0 m c t) (xb1 m c t) (xb2 m c t) (xb3 m c t) (xb4 m c t)
theorem G5_lane3 (c : Dev nD) (t : Fin 4) : G5 m c (ix3 t 0 3) = pCls (xb2 m c t) (xb4 m c t) :=
  pay_lane3 (xb0 m c t) (xb1 m c t) (xb2 m c t) (xb3 m c t) (xb4 m c t)

/-! ## The result -/

/-- The result buffer after the whole program: the closing scalar arithmetic of the four partial sums, each
    summed over the four grid points. -/
theorem kernel_result (c : Dev nD) :
    Pipeline.afterTail₀ cfgs (dats m) 0 (V0 m) [hostOps1] c main_v30
      = Cert.Spec.tailS (F := Ideal) Facts₀.bcast_S_S1 Facts₀.concatenates_S1_S1_S1_S1_S4_d0
          (fun _ => ∑ t : Fin 4, pG (xb0 m c t) (xb3 m c t)) (fun _ => ∑ t : Fin 4, pPos (xb1 m c t))
          (fun _ => ∑ t : Fin 4, pNeg (xb1 m c t)) (fun _ => ∑ t : Fin 4, pCls (xb2 m c t) (xb4 m c t)) := by
  unfold Pipeline.afterTail₀
  show StableHlo.after hostOps1 _ (Proc.devRef .tc main_v30) = _
  refine (tail_read _).trans ?_
  have hX : (Pipeline.withArrays (cfgs 0).spec c (V0 m c) (fun w => (dats m 0 c).arrAt w (cfgs 0).N) (Proc.devRef .tc main_v3)
      : FVec Ideal S4x8x128 .f32) = G5 m c :=
    (Pipeline.withArrays_arr spec0 launch0.win.arr_inj c _ _ 5).trans (final5 m c)
  rw [hX, lane0_apply, lane1_apply, lane2_apply, lane3_apply]
  simp only [G5_lane0, G5_lane1, G5_lane2, G5_lane3]

end Cert.KernelIdeal.Hand

end
-- ==== Proof.KBlocks.lean ====
/-
  Each input block of a grid point, read at coordinates, is an entry of the corresponding argument array.
  Grid point t takes batch rows 8t .. 8t+7: a block's coordinate on an axis is (block index) × (block size) + the
  coordinate inside the block, and the block index of point t is (t, 0, 0) or (t, 0). The objectness logits, the class
  logits and the labels are read off the arguments as launched. The predicted boxes reach the region as the transpose
  (anchor and channel exchanged) of the first 200 anchors of the argument; the target boxes as the transpose of the
  argument.
-/
import proofs.«409640_j51616916963357_4_alg».proof.Proof.KBlk
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Idealize.ShloMosaic Idealize.ShloMosaic.TcCoe
open Idealize.SL Idealize.SL.Sem
open Idealize.ShloMosaic.ValueIdx
open Cert.KernelIdeal Cert.KernelIdeal.Gen

variable {F : FTy → Type} [FloatOps F]
variable (m : (ℓ : Loc nD τ sig) → Buf (Elt F) ℓ)
/-! ## The block index of each window at each point -/

/-- At point `t` every input window's block index is `t` on the batch axis and `0` on the others. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

/-! ## The arrays the region finds -/

/-- The slice and the two transposes write other arrays: the objectness logits are as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The class logits are as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The labels are as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-- The predicted boxes as the region finds them: the first 200 anchors of the argument, anchor and channel exchanged. -/
theorem V_main_v1 (c : Dev nD) : (V m c main_v1 : S32x4x200.Idx → Elt F .f32) =
    transpose S32x4x200 [0, 2, 1] (extractStridedSlice S32x200x4 ![0, 0, 0] (m ((c : Thread nD τ).loc main_arg0)) slices_S32x25200x4_S32x200x4_0_0_0) transposes_S32x200x4_S32x4x200_0_2_1 := by
  dsimp only [V, V0]
  simp only [hostOps0, List.flatten_cons, List.flatten_nil, List.append_nil]
  after_results

/-- The target boxes as the region finds them: the argument, box and channel exchanged. -/
theorem V_main_v2 (c : Dev nD) : (V m c main_v2 : S32x4x200.Idx → Elt F .f32) =
    transpose S32x4x200 [0, 2, 1] (m ((c : Thread nD τ).loc main_arg3)) transposes_S32x200x4_S32x4x200_0_2_1 := by
  dsimp only [V, V0]
  simp only [hostOps0, List.flatten_cons, List.flatten_nil, List.append_nil]
  after_results

/-! ## The two layout operations at an index -/

/-- The transpose at (row, channel, box) is the operand at (row, box, channel). -/
theorem tr_apply {α : Type} (A : S32x200x4.Idx → α) (a : Fin 32) (k : Fin 4) (j : Fin 200) :
    transpose S32x4x200 [0, 2, 1] A transposes_S32x200x4_S32x4x200_0_2_1 (ix3 a k j) = A (ix3 a j k) :=
  transpose_apply [0, 2, 1] A transposes_S32x200x4_S32x4x200_0_2_1 (ix3 a k j) (ix3 a j k) (fun b => match b with
    | ⟨0, _⟩ => rfl
    | ⟨1, _⟩ => rfl
    | ⟨2, _⟩ => rfl)

/-- The slice of the first 200 anchors at (row, j, channel) is the operand at (row, j, channel), j read among all 25200. -/
theorem sl_apply {α : Type} (A : S32x25200x4.Idx → α) (a : Fin 32) (j : Fin 200) (k : Fin 4) :
    extractStridedSlice S32x200x4 ![0, 0, 0] A slices_S32x25200x4_S32x200x4_0_0_0 (ix3 a j k) = A (ix3 a (lo j) k) :=
  extractStridedSlice_apply ![0, 0, 0] A slices_S32x25200x4_S32x200x4_0_0_0 (ix3 a j k) (ix3 a (lo j) k) (fun b => match b with
    | ⟨0, _⟩ => by show a.val = 0 + a.val; omega
    | ⟨1, _⟩ => by show j.val = 0 + j.val; omega
    | ⟨2, _⟩ => by show k.val = 0 + k.val; omega)

/-! ## The five blocks at coordinates -/

/-- The predicted boxes' block at (r, channel k, box j) is the argument at (row 8t + r, anchor j, channel k). -/
theorem xb0_apply (c : Dev nD) (t : Fin 4) (r : Fin 8) (k : Fin 4) (j : Fin 200) :
    xb0 m c t (ix3 r k j) = m ((c : Thread nD τ).loc main_arg0) (ix3 (row t r) (lo j) k) := by
  show V m c main_v1 (((cfg0.win 0).blk (pt t)).view.emb (ix3 r k j)) = _
  have hemb : ((cfg0.win 0).blk (pt t)).view.emb (ix3 r k j) = (ix3 (row t r) k j : S32x4x200.Idx) := by
    obtain ⟨e0, e1, e2, _⟩ := idx_facts (pt t)
    funext a; apply Fin.ext
    match a with
    | ⟨0, _⟩ => show win0_0.index (pt t) (0 : Fin 3) * 8 + 1 * r.val = 8 * t.val + r.val; rw [e0]; show t.val * 8 + 1 * r.val = _; omega
    | ⟨1, _⟩ => show win0_0.index (pt t) (1 : Fin 3) * 4 + 1 * k.val = k.val; rw [e1]; omega
    | ⟨2, _⟩ => show win0_0.index (pt t) (2 : Fin 3) * 200 + 1 * j.val = j.val; rw [e2]; omega
  rw [hemb, V_main_v1, tr_apply, sl_apply]

/-- The objectness logits' block at (r, anchor n) is the argument at (row 8t + r, anchor n). -/
theorem xb1_apply (c : Dev nD) (t : Fin 4) (r : Fin 8) (n : Fin 25200) :
    xb1 m c t (ix2 r n) = m ((c : Thread nD τ).loc main_arg1) (ix2 (row t r) n) := by
  show V m c main_arg1 (((cfg0.win 1).blk (pt t)).view.emb (ix2 r n)) = _
  rw [V_main_arg1]
  refine congrArg _ ?_
  obtain ⟨_, _, _, e0, e1, _⟩ := idx_facts (pt t)
  funext a; apply Fin.ext
  match a with
  | ⟨0, _⟩ => show win0_1.index (pt t) (0 : Fin 2) * 8 + 1 * r.val = 8 * t.val + r.val; rw [e0]; show t.val * 8 + 1 * r.val = _; omega
  | ⟨1, _⟩ => show win0_1.index (pt t) (1 : Fin 2) * 25200 + 1 * n.val = n.val; rw [e1]; omega

/-- The class logits' block at (r, box j, class k) is the argument at (row 8t + r, anchor j, class k). -/
theorem xb2_apply (c : Dev nD) (t : Fin 4) (r : Fin 8) (j : Fin 200) (k : Fin 80) :
    xb2 m c t (ix3 r j k) = m ((c : Thread nD τ).loc main_arg2) (ix3 (row t r) (lo j) k) := by
  show V m c main_arg2 (((cfg0.win 2).blk (pt t)).view.emb (ix3 r j k)) = _
  rw [V_main_arg2]
  refine congrArg _ ?_
  obtain ⟨_, _, _, _, _, e0, e1, e2, _⟩ := idx_facts (pt t)
  funext a; apply Fin.ext
  match a with
  | ⟨0, _⟩ => show win0_2.index (pt t) (0 : Fin 3) * 8 + 1 * r.val = 8 * t.val + r.val; rw [e0]; show t.val * 8 + 1 * r.val = _; omega
  | ⟨1, _⟩ => show win0_2.index (pt t) (1 : Fin 3) * 200 + 1 * j.val = j.val; rw [e1]; omega
  | ⟨2, _⟩ => show win0_2.index (pt t) (2 : Fin 3) * 80 + 1 * k.val = k.val; rw [e2]; omega

/-- The target boxes' block at (r, channel k, box j) is the argument at (row 8t + r, box j, channel k). -/
theorem xb3_apply (c : Dev nD) (t : Fin 4) (r : Fin 8) (k : Fin 4) (j : Fin 200) :
    xb3 m c t (ix3 r k j) = m ((c : Thread nD τ).loc main_arg3) (ix3 (row t r) j k) := by
  show V m c main_v2 (((cfg0.win 3).blk (pt t)).view.emb (ix3 r k j)) = _
  have hemb : ((cfg0.win 3).blk (pt t)).view.emb (ix3 r k j) = (ix3 (row t r) k j : S32x4x200.Idx) := by
    obtain ⟨_, _, _, _, _, _, _, _, e0, e1, e2, _⟩ := idx_facts (pt t)
    funext a; apply Fin.ext
    match a with
    | ⟨0, _⟩ => show win0_3.index (pt t) (0 : Fin 3) * 8 + 1 * r.val = 8 * t.val + r.val; rw [e0]; show t.val * 8 + 1 * r.val = _; omega
    | ⟨1, _⟩ => show win0_3.index (pt t) (1 : Fin 3) * 4 + 1 * k.val = k.val; rw [e1]; omega
    | ⟨2, _⟩ => show win0_3.index (pt t) (2 : Fin 3) * 200 + 1 * j.val = j.val; rw [e2]; omega
  rw [hemb, V_main_v2, tr_apply]

/-- The labels' block at (r, box j) is the argument at (row 8t + r, box j). -/
theorem xb4_apply (c : Dev nD) (t : Fin 4) (r : Fin 8) (j : Fin 200) :
    xb4 m c t (ix2 r j) = m ((c : Thread nD τ).loc main_arg4) (ix2 (row t r) j) := by
  show V m c main_arg4 (((cfg0.win 4).blk (pt t)).view.emb (ix2 r j)) = _
  rw [V_main_arg4]
  refine congrArg _ ?_
  obtain ⟨_, _, _, _, _, _, _, _, _, _, _, e0, e1⟩ := idx_facts (pt t)
  funext a; apply Fin.ext
  match a with
  | ⟨0, _⟩ => show win0_4.index (pt t) (0 : Fin 2) * 8 + 1 * r.val = 8 * t.val + r.val; rw [e0]; show t.val * 8 + 1 * r.val = _; omega
  | ⟨1, _⟩ => show win0_4.index (pt t) (1 : Fin 2) * 200 + 1 * j.val = j.val; rw [e1]; omega

end Cert.KernelIdeal.Hand

end
-- ==== Proof.LibSums.lean ====
/- General lemmas on finite sums and on the extended reals, used by the value proofs of the detection loss: a sum over a
   rank-1 or rank-3 index set as the iterated sum over the coordinates; a sum over `Fin (a * b)` as a double sum and over `Fin (m + n)` as
   the sum of its two ranges, with the instances this certificate's extents need (32 = 4 · 8, 1600 = 8 · 200,
   25200 = 200 + 25000); sums of real numbers inside the extended reals; and a few constants and corner values of
   the ideal operations (one half against two, zero, a comparison of a value with itself). -/
import Idealize.ShloMosaic.Lib.ValueIdx
import Idealize.ShloMosaic.PureOps.Ideal
import Idealize.ShloMosaic.PureOps.Ideal.Laws
import Mathlib.Algebra.BigOperators.Fin
import Mathlib.Data.EReal.Basic
import Mathlib.Logic.Equiv.Fin.Basic

noncomputable section

open scoped BigOperators

namespace Cert.LibSums

open Idealize.ShloMosaic Idealize.ShloMosaic.ValueIdx

/-! ## Sums over index sets, by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Sums over `Fin (a * b)` and `Fin (m + n)` -/

/-- The position `b · i + j` of the `j`-th element of the `i`-th block of length `b`, among `a` blocks, is below `a · b`. -/
theorem mul_add_lt {a b : Nat} (i : Fin a) (j : Fin b) : b * i.val + j.val < a * b :=
  calc b * i.val + j.val < b * i.val + b := Nat.add_lt_add_left j.isLt _
    _ = b * (i.val + 1) := (Nat.mul_succ _ _).symm
    _ ≤ b * a := Nat.mul_le_mul_left _ i.isLt
    _ = a * b := Nat.mul_comm _ _

/-- A sum over `a · b` consecutive positions is the sum over the `a` blocks of the sums over each block's `b` positions:
    position `b · i + j` is the `j`-th of block `i`. -/
theorem sum_fin_mul {M : Type*} [AddCommMonoid M] (a b : Nat) (f : Fin (a * b) → M) :
    ∑ q, f q = ∑ i : Fin a, ∑ j : Fin b, f ⟨b * i.val + j.val, mul_add_lt i j⟩ := by
  rw [← Equiv.sum_comp (finProdFinEquiv (m := a) (n := b)) f, Fintype.sum_prod_type]
  refine Finset.sum_congr rfl fun i _ => Finset.sum_congr rfl fun j _ => congrArg f (Fin.ext ?_)
  simp [finProdFinEquiv, Nat.add_comm]

/-- A sum over `m + n` consecutive positions is the sum over the first `m` plus the sum over the last `n`. -/
theorem sum_fin_add {M : Type*} [AddCommMonoid M] (m n : Nat) (f : Fin (m + n) → M) :
    ∑ q, f q = (∑ j : Fin m, f ⟨j.val, Nat.lt_add_right n j.isLt⟩)
      + ∑ k : Fin n, f ⟨m + k.val, Nat.add_lt_add_left k.isLt m⟩ :=
  Fin.sum_univ_add f

/-- Thirty-two rows are four blocks of eight: row `8 t + r` is the `r`-th of block `t`. -/
theorem sum_fin32 {M : Type*} [AddCommMonoid M] (f : Fin 32 → M) :
    ∑ b, f b = ∑ t : Fin 4, ∑ r : Fin 8, f ⟨8 * t.val + r.val, by omega⟩ :=
  sum_fin_mul 4 8 f

/-- Sixteen hundred positions are eight blocks of two hundred: position `200 r + j` is the `j`-th of block `r`. -/
theorem sum_fin1600 {M : Type*} [AddCommMonoid M] (f : Fin 1600 → M) :
    ∑ q, f q = ∑ r : Fin 8, ∑ j : Fin 200, f ⟨200 * r.val + j.val, by omega⟩ :=
  sum_fin_mul 8 200 f

/-- 25200 positions are the first 200 followed by the other 25000. -/
theorem sum_fin25200 {M : Type*} [AddCommMonoid M] (f : Fin 25200 → M) :
    ∑ n, f n = (∑ j : Fin 200, f ⟨j.val, by omega⟩) + ∑ k : Fin 25000, f ⟨200 + k.val, by omega⟩ :=
  sum_fin_add 200 25000 f

/-! ## Sums of reals inside the extended reals -/

/-- The inclusion of the reals in the extended reals carries a finite sum to the sum (it is additive). -/
theorem ereal_coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A difference of two finite sums of REAL terms, taken in the extended reals, is the sum of the differences:
    both sums are real, where subtraction distributes. -/
theorem ereal_sum_sub_sum {ι : Type*} (s : Finset ι) (f g : ι → ℝ) :
    (∑ i ∈ s, (f i : EReal)) - (∑ i ∈ s, (g i : EReal)) = ∑ i ∈ s, ((f i : EReal) - (g i : EReal)) := by
  rw [ereal_coe_sum, ereal_coe_sum, ← EReal.coe_sub, ← Finset.sum_sub_distrib, ← ereal_coe_sum]
  exact Finset.sum_congr rfl fun i _ => EReal.coe_sub _ _

/-! ## Constants and corner values of the ideal operations -/

/-- The pattern `0x3F000000` denotes one half. -/
theorem ofBits_half : Ideal.ofBits .f32 0x3F000000#32 = (((1 / 2 : ℝ)) : EReal) := by
  simp [Ideal.ofBits, Ideal.ieee, -EReal.coe_mul]; norm_num

/-- The pattern `0x40000000` denotes two. -/
theorem ofBits_two : Ideal.ofBits .f32 0x40000000#32 = ((2 : ℝ) : EReal) := by
  simp [Ideal.ofBits, Ideal.ieee, -EReal.coe_mul]; norm_num

/-- Multiplying by one half is dividing by two, on every extended real (the infinities included: two is a nonzero
    real, so the quotient is the product with its reciprocal). -/
theorem mul_half_eq_div_two (x : EReal) :
    x * Ideal.ofBits .f32 0x3F000000#32 = Ideal.div x (Ideal.ofBits .f32 0x40000000#32) := by
  rw [ofBits_half, ofBits_two, Ideal.div_coe (two_ne_zero) x]

/-- Zero minus `x` is `-x` on the extended reals. -/
theorem zero_sub' (x : EReal) : (0 : EReal) - x = -x := zero_sub x

/-- The all-zero pattern denotes zero. -/
theorem ofBits_zero : Ideal.ofBits .f32 0x00000000#32 = 0 := Ideal.ofBits_zero_f32

/-- The integer zero converts to the real zero. -/
theorem sitofp_zero : (FloatOps.sitofp (F := Ideal) .f32 (0#32 : BitVec 32)) = (0 : EReal) := by
  show (((0#32 : BitVec 32).toInt : ℝ) : EReal) = 0
  simp

/-- "Ordered and not equal" of a value with itself is false. -/
theorem cmp_one_self (x : EReal) : Ideal.cmp .one x x = 0#1 := by
  simp [Ideal.cmp]

/-- "Unordered or not equal" of a value with itself is false: the ideal values are all ordered, so the predicate
    answers as "not equal". -/
theorem cmp_une_self (x : EReal) : Ideal.cmp .une x x = 0#1 := by
  simp [Ideal.cmp]

end Cert.LibSums

end
-- ==== Proof.KGiou.lean ====
/-
  The GIoU sums agree.  For one pair of boxes, each given by centre, width and height, the GIoU loss is a fixed
  function of the eight numbers: the corners are centre ∓ half the extent; the overlap is the product of the clipped
  differences of the inner edges; the union is the two areas minus the overlap; the enclosing box spans the outer edges;
  the loss is 1 - (overlap / (union + ε) - (enclosure - union) / (enclosure + ε)).
  The kernel's partial sum of a grid point is the double sum of that loss over the point's eight rows and the 200 boxes,
  with the half extent written as the extent times one half; the reference's sum is the double sum over all 32 rows and
  the 200 boxes, with the half extent written as the extent over two.  One half times x is x over two on every extended
  real, and the 32 rows are four blocks of eight, so the four partial sums add up to the reference's sum.
-/
import proofs.«409640_j51616916963357_4_alg».proof.Proof.KDefs
import proofs.«409640_j51616916963357_4_alg».proof.Proof.ReadP
import proofs.«409640_j51616916963357_4_alg».proof.Proof.LibSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen
open Cert.LibSums

/-- The GIoU loss of a predicted and a target box from their corners (left, top, right, bottom of each);
    `z` is the zero against which the overlap's width and height are clipped, `m` the larger of the two left edges. -/
def giouOf (z px1 py1 px2 py2 tx1 ty1 tx2 ty2 m : EReal) : EReal :=
  Ideal.ofBits .f32 0x3F800000#32 -
    (Ideal.div (max z (min px2 tx2 - m) * max z (min py2 ty2 - max py1 ty1))
        ((px2 - px1) * (py2 - py1) + (tx2 - tx1) * (ty2 - ty1)
            - max z (min px2 tx2 - m) * max z (min py2 ty2 - max py1 ty1) + Ideal.ofBits .f32 0x33D6BF95#32)
      - Ideal.div
          ((max px2 tx2 - min px1 tx1) * (max py2 ty2 - min py1 ty1)
            - ((px2 - px1) * (py2 - py1) + (tx2 - tx1) * (ty2 - ty1)
                - max z (min px2 tx2 - m) * max z (min py2 ty2 - max py1 ty1)))
          ((max px2 tx2 - min px1 tx1) * (max py2 ty2 - min py1 ty1) + Ideal.ofBits .f32 0x33D6BF95#32))

/-- The same loss from the centre, width and height of each box: the corners are centre ∓ half the extent. -/
def giouBox (z cx cy w h tcx tcy tw th : EReal) : EReal :=
  giouOf z
    (cx - Ideal.div w (Ideal.ofBits .f32 0x40000000#32)) (cy - Ideal.div h (Ideal.ofBits .f32 0x40000000#32))
    (cx + Ideal.div w (Ideal.ofBits .f32 0x40000000#32)) (cy + Ideal.div h (Ideal.ofBits .f32 0x40000000#32))
    (tcx - Ideal.div tw (Ideal.ofBits .f32 0x40000000#32)) (tcy - Ideal.div th (Ideal.ofBits .f32 0x40000000#32))
    (tcx + Ideal.div tw (Ideal.ofBits .f32 0x40000000#32)) (tcy + Ideal.div th (Ideal.ofBits .f32 0x40000000#32))
    (max (cx - Ideal.div w (Ideal.ofBits .f32 0x40000000#32)) (tcx - Ideal.div tw (Ideal.ofBits .f32 0x40000000#32)))

/-- The zero the overlaps are clipped at: the integer zero converted. -/
def zClip : EReal := FloatOps.sitofp (F := Ideal) .f32 (0#32 : BitVec 32)

/-! ## The kernel's side -/

/-- Channel `k` of an [8, 4, 200] block, cut out and its unit axis dropped, reads at (r, j) the block at (r, k, j). -/
theorem chan_apply (o : Nat) (v : Vec Ideal S8x4x200 .f32) (hs : S8x4x200.Slices ![0, o, 0] S8x1x200)
    (k : Fin 4) (hk : k.val = o) (r : Fin 8) (j : Fin 200) :
    shapeCast S8x200 (extractStridedSlice S8x1x200 ![0, o, 0] (shapeCast S8x4x200 v Facts₀.shapeCasts_S8x4x200_S8x4x200) hs)
        Facts₀.shapeCasts_S8x1x200_S8x200 (ix2 r j) = v (ix3 r k j) := by
  refine (shapeCast_apply _ Facts₀.shapeCasts_S8x1x200_S8x200 (ix2 r j) (ix3 r (0 : Fin 1) j) (by
    rw [Shape.rowMajor_val_three, Shape.rowMajor_val_two]
    show (r.val * 1 + 0) * 200 + j.val = r.val * 200 + j.val
    omega)).trans ?_
  refine (slice3_axis1_apply o _ hs r (0 : Fin 1) j k (by rw [hk]; rfl)).trans ?_
  rw [shapeCast_self]

theorem pay4_apply (v : Vec Ideal S8x4x200 .f32) (r : Fin 8) (j : Fin 200) : k0_pay4 v (ix2 r j) = v (ix3 r 0 j) :=
  chan_apply 0 v _ 0 rfl r j
theorem pay5_apply (v : Vec Ideal S8x4x200 .f32) (r : Fin 8) (j : Fin 200) : k0_pay5 v (ix2 r j) = v (ix3 r 1 j) :=
  chan_apply 1 v _ 1 rfl r j
theorem pay6_apply (v : Vec Ideal S8x4x200 .f32) (r : Fin 8) (j : Fin 200) : k0_pay6 v (ix2 r j) = v (ix3 r 2 j) :=
  chan_apply 2 v _ 2 rfl r j
theorem pay7_apply (v : Vec Ideal S8x4x200 .f32) (r : Fin 8) (j : Fin 200) : k0_pay7 v (ix2 r j) = v (ix3 r 3 j) :=
  chan_apply 3 v _ 3 rfl r j
theorem pay12_apply (v : Vec Ideal S8x4x200 .f32) (r : Fin 8) (j : Fin 200) : k0_pay12 v (ix2 r j) = v (ix3 r 0 j) :=
  chan_apply 0 v _ 0 rfl r j
theorem pay13_apply (v : Vec Ideal S8x4x200 .f32) (r : Fin 8) (j : Fin 200) : k0_pay13 v (ix2 r j) = v (ix3 r 1 j) :=
  chan_apply 1 v _ 1 rfl r j
theorem pay14_apply (v : Vec Ideal S8x4x200 .f32) (r : Fin 8) (j : Fin 200) : k0_pay14 v (ix2 r j) = v (ix3 r 2 j) :=
  chan_apply 2 v _ 2 rfl r j
theorem pay15_apply (v : Vec Ideal S8x4x200 .f32) (r : Fin 8) (j : Fin 200) : k0_pay15 v (ix2 r j) = v (ix3 r 3 j) :=
  chan_apply 3 v _ 3 rfl r j

/-- One half, as the kernel writes it. -/
abbrev halfK : EReal := Ideal.ofBits .f32 0x3F000000#32

theorem pay8_apply (v : Vec Ideal S8x4x200 .f32) (r : Fin 8) (j : Fin 200) :
    k0_pay8 v (ix2 r j) = v (ix3 r 0 j) - v (ix3 r 2 j) * halfK := by
  show k0_pay4 v (ix2 r j) - k0_pay6 v (ix2 r j) * halfK = _
  rw [pay4_apply, pay6_apply]
theorem pay9_apply (v : Vec Ideal S8x4x200 .f32) (r : Fin 8) (j : Fin 200) :
    k0_pay9 v (ix2 r j) = v (ix3 r 1 j) - v (ix3 r 3 j) * halfK := by
  show k0_pay5 v (ix2 r j) - k0_pay7 v (ix2 r j) * halfK = _
  rw [pay5_apply, pay7_apply]
theorem pay10_apply (v : Vec Ideal S8x4x200 .f32) (r : Fin 8) (j : Fin 200) :
    k0_pay10 v (ix2 r j) = v (ix3 r 0 j) + v (ix3 r 2 j) * halfK := by
  show k0_pay4 v (ix2 r j) + k0_pay6 v (ix2 r j) * halfK = _
  rw [pay4_apply, pay6_apply]
theorem pay11_apply (v : Vec Ideal S8x4x200 .f32) (r : Fin 8) (j : Fin 200) :
    k0_pay11 v (ix2 r j) = v (ix3 r 1 j) + v (ix3 r 3 j) * halfK := by
  show k0_pay5 v (ix2 r j) + k0_pay7 v (ix2 r j) * halfK = _
  rw [pay5_apply, pay7_apply]
theorem pay16_apply (v : Vec Ideal S8x4x200 .f32) (r : Fin 8) (j : Fin 200) :
    k0_pay16 v (ix2 r j) = v (ix3 r 0 j) - v (ix3 r 2 j) * halfK := by
  show k0_pay12 v (ix2 r j) - k0_pay14 v (ix2 r j) * halfK = _
  rw [pay12_apply, pay14_apply]
theorem pay17_apply (v : Vec Ideal S8x4x200 .f32) (r : Fin 8) (j : Fin 200) :
    k0_pay17 v (ix2 r j) = v (ix3 r 1 j) - v (ix3 r 3 j) * halfK := by
  show k0_pay13 v (ix2 r j) - k0_pay15 v (ix2 r j) * halfK = _
  rw [pay13_apply, pay15_apply]
theorem pay18_apply (v : Vec Ideal S8x4x200 .f32) (r : Fin 8) (j : Fin 200) :
    k0_pay18 v (ix2 r j) = v (ix3 r 0 j) + v (ix3 r 2 j) * halfK := by
  show k0_pay12 v (ix2 r j) + k0_pay14 v (ix2 r j) * halfK = _
  rw [pay12_apply, pay14_apply]
theorem pay19_apply (v : Vec Ideal S8x4x200 .f32) (r : Fin 8) (j : Fin 200) :
    k0_pay19 v (ix2 r j) = v (ix3 r 1 j) + v (ix3 r 3 j) * halfK := by
  show k0_pay13 v (ix2 r j) + k0_pay15 v (ix2 r j) * halfK = _
  rw [pay13_apply, pay15_apply]
theorem pay20_apply (v w : Vec Ideal S8x4x200 .f32) (r : Fin 8) (j : Fin 200) :
    k0_pay20 v w (ix2 r j) = max (k0_pay8 v (ix2 r j)) (k0_pay16 w (ix2 r j)) := rfl

/-- The sum of an [8, 200] vector taken as the kernel takes it: a unit axis in front, both other axes summed into the
    one entry, that entry read out. It is the double sum over rows and boxes. -/
theorem extract_total (v : FVec Ideal S8x200 .f32) :
    extractAt ![0, 0, 0]
        (shapeCast S1x1x1
          (multiReduction (F := Ideal) .add [1, 2] S1 (shapeCast S1x8x200 v Facts₀.shapeCasts_S8x200_S1x8x200) 0x00000000#32
            Facts₀.reduces_S1x8x200_S1 (.inl rfl) rfl)
          Facts₀.shapeCasts_S1_S1x1x1)
        Facts₀.inpos_S1x1x1_p0_0_0
      = ∑ r : Fin 8, ∑ j : Fin 200, v (ix2 r j) := by
  unfold extractAt shapeCast
  refine (Ideal.multiReduction_add_total (shapeCast S1x8x200 v Facts₀.shapeCasts_S8x200_S1x8x200) 0x00000000#32
    Facts₀.reduces_S1x8x200_S1 (fun b => by match b with | ⟨0, _⟩ => rfl) (.inl rfl) rfl _).trans ?_
  rw [sum_idx3, Fin.sum_univ_one]
  refine Finset.sum_congr rfl fun r _ => Finset.sum_congr rfl fun j _ => ?_
  exact shapeCast_ab_1ab_apply v Facts₀.shapeCasts_S8x200_S1x8x200 0 r j

/-- The GIoU partial sum from the nine corner vectors: the double sum of the loss of each pair of boxes. -/
theorem pay21_eq (v14 v17 v20 v23 v34 v37 v40 v43 v44 : FVec Ideal S8x200 .f32) :
    k0_pay21 v14 v17 v20 v23 v34 v37 v40 v43 v44
      = ∑ r : Fin 8, ∑ j : Fin 200,
          giouOf zClip (v14 (ix2 r j)) (v17 (ix2 r j)) (v20 (ix2 r j)) (v23 (ix2 r j))
            (v34 (ix2 r j)) (v37 (ix2 r j)) (v40 (ix2 r j)) (v43 (ix2 r j)) (v44 (ix2 r j)) := by
  unfold k0_pay21
  refine (extract_total _).trans ?_
  exact Finset.sum_congr rfl fun r _ => Finset.sum_congr rfl fun j _ => rfl

/-- The kernel's GIoU partial sum of a point, from the predicted and the target block: the double sum over the eight rows
    and 200 boxes of the loss of the two boxes read channel by channel. One half times an extent is the extent over two. -/
theorem pG_eq (x0 x3 : Vec Ideal S8x4x200 .f32) :
    pG (F := Ideal) x0 x3
      = ∑ r : Fin 8, ∑ j : Fin 200,
          giouBox zClip (x0 (ix3 r 0 j)) (x0 (ix3 r 1 j)) (x0 (ix3 r 2 j)) (x0 (ix3 r 3 j))
            (x3 (ix3 r 0 j)) (x3 (ix3 r 1 j)) (x3 (ix3 r 2 j)) (x3 (ix3 r 3 j)) := by
  unfold pG
  rw [pay21_eq]
  refine Finset.sum_congr rfl fun r _ => Finset.sum_congr rfl fun j _ => ?_
  rw [pay20_apply, pay8_apply, pay9_apply, pay10_apply, pay11_apply, pay16_apply, pay17_apply, pay18_apply, pay19_apply]
  simp only [halfK, mul_half_eq_div_two]
  rfl

/-! ## The reference's side -/

section Reference
open Cert.ReferenceIdeal.Read

/-! Where each channel of a box is read: box (b, j) of the first 200 anchors, channel k. -/

theorem e00 (b : Fin 32) (j : Fin 200) : idx_main_v0 (idx_main_v1 (idx_main_v2 (ix2 b j))) = ix3 b (lo j) 0 := by
  funext a
  match a with
  | ⟨0, _⟩ => exact Fin.ext (by show (b.val * 200 + j.val) / 200 = b.val; omega)
  | ⟨1, _⟩ => exact Fin.ext (by show (b.val * 200 + j.val) / 1 % 200 = j.val; omega)
  | ⟨2, _⟩ => rfl
theorem e01 (b : Fin 32) (j : Fin 200) : idx_main_v0 (idx_main_v3 (idx_main_v4 (ix2 b j))) = ix3 b (lo j) 1 := by
  funext a
  match a with
  | ⟨0, _⟩ => exact Fin.ext (by show (b.val * 200 + j.val) / 200 = b.val; omega)
  | ⟨1, _⟩ => exact Fin.ext (by show (b.val * 200 + j.val) / 1 % 200 = j.val; omega)
  | ⟨2, _⟩ => rfl
theorem e02 (b : Fin 32) (j : Fin 200) : idx_main_v0 (idx_main_v5 (idx_main_v6 (ix2 b j))) = ix3 b (lo j) 2 := by
  funext a
  match a with
  | ⟨0, _⟩ => exact Fin.ext (by show (b.val * 200 + j.val) / 200 = b.val; omega)
  | ⟨1, _⟩ => exact Fin.ext (by show (b.val * 200 + j.val) / 1 % 200 = j.val; omega)
  | ⟨2, _⟩ => rfl
theorem e03 (b : Fin 32) (j : Fin 200) : idx_main_v0 (idx_main_v7 (idx_main_v8 (ix2 b j))) = ix3 b (lo j) 3 := by
  funext a
  match a with
  | ⟨0, _⟩ => exact Fin.ext (by show (b.val * 200 + j.val) / 200 = b.val; omega)
  | ⟨1, _⟩ => exact Fin.ext (by show (b.val * 200 + j.val) / 1 % 200 = j.val; omega)
  | ⟨2, _⟩ => rfl
theorem e30 (b : Fin 32) (j : Fin 200) : idx_main_v21 (idx_main_v22 (ix2 b j)) = ix3 b j 0 := by
  funext a
  match a with
  | ⟨0, _⟩ => exact Fin.ext (by show (b.val * 200 + j.val) / 200 = b.val; omega)
  | ⟨1, _⟩ => exact Fin.ext (by show (b.val * 200 + j.val) / 1 % 200 = j.val; omega)
  | ⟨2, _⟩ => rfl
theorem e31 (b : Fin 32) (j : Fin 200) : idx_main_v23 (idx_main_v24 (ix2 b j)) = ix3 b j 1 := by
  funext a
  match a with
  | ⟨0, _⟩ => exact Fin.ext (by show (b.val * 200 + j.val) / 200 = b.val; omega)
  | ⟨1, _⟩ => exact Fin.ext (by show (b.val * 200 + j.val) / 1 % 200 = j.val; omega)
  | ⟨2, _⟩ => rfl
theorem e32 (b : Fin 32) (j : Fin 200) : idx_main_v25 (idx_main_v26 (ix2 b j)) = ix3 b j 2 := by
  funext a
  match a with
  | ⟨0, _⟩ => exact Fin.ext (by show (b.val * 200 + j.val) / 200 = b.val; omega)
  | ⟨1, _⟩ => exact Fin.ext (by show (b.val * 200 + j.val) / 1 % 200 = j.val; omega)
  | ⟨2, _⟩ => rfl
theorem e33 (b : Fin 32) (j : Fin 200) : idx_main_v27 (idx_main_v28 (ix2 b j)) = ix3 b j 3 := by
  funext a
  match a with
  | ⟨0, _⟩ => exact Fin.ext (by show (b.val * 200 + j.val) / 200 = b.val; omega)
  | ⟨1, _⟩ => exact Fin.ext (by show (b.val * 200 + j.val) / 1 % 200 = j.val; omega)
  | ⟨2, _⟩ => rfl

/-! The four channels of the predicted box and of the target box. -/

theorem ref_p0 (a0 : FVec Ideal S32x25200x4 .f32) (b : Fin 32) (j : Fin 200) : val_main_v2 (F := Ideal) a0 (ix2 b j) = a0 (ix3 b (lo j) 0) := by
  rw [val_main_v2_apply, val_main_v1_apply, val_main_v0_apply, e00]
theorem ref_p1 (a0 : FVec Ideal S32x25200x4 .f32) (b : Fin 32) (j : Fin 200) : val_main_v4 (F := Ideal) a0 (ix2 b j) = a0 (ix3 b (lo j) 1) := by
  rw [val_main_v4_apply, val_main_v3_apply, val_main_v0_apply, e01]
theorem ref_p2 (a0 : FVec Ideal S32x25200x4 .f32) (b : Fin 32) (j : Fin 200) : val_main_v6 (F := Ideal) a0 (ix2 b j) = a0 (ix3 b (lo j) 2) := by
  rw [val_main_v6_apply, val_main_v5_apply, val_main_v0_apply, e02]
theorem ref_p3 (a0 : FVec Ideal S32x25200x4 .f32) (b : Fin 32) (j : Fin 200) : val_main_v8 (F := Ideal) a0 (ix2 b j) = a0 (ix3 b (lo j) 3) := by
  rw [val_main_v8_apply, val_main_v7_apply, val_main_v0_apply, e03]
theorem ref_t0 (a3 : FVec Ideal S32x200x4 .f32) (b : Fin 32) (j : Fin 200) : val_main_v22 (F := Ideal) a3 (ix2 b j) = a3 (ix3 b j 0) := by
  rw [val_main_v22_apply, val_main_v21_apply, e30]
theorem ref_t1 (a3 : FVec Ideal S32x200x4 .f32) (b : Fin 32) (j : Fin 200) : val_main_v24 (F := Ideal) a3 (ix2 b j) = a3 (ix3 b j 1) := by
  rw [val_main_v24_apply, val_main_v23_apply, e31]
theorem ref_t2 (a3 : FVec Ideal S32x200x4 .f32) (b : Fin 32) (j : Fin 200) : val_main_v26 (F := Ideal) a3 (ix2 b j) = a3 (ix3 b j 2) := by
  rw [val_main_v26_apply, val_main_v25_apply, e32]
theorem ref_t3 (a3 : FVec Ideal S32x200x4 .f32) (b : Fin 32) (j : Fin 200) : val_main_v28 (F := Ideal) a3 (ix2 b j) = a3 (ix3 b j 3) := by
  rw [val_main_v28_apply, val_main_v27_apply, e33]

/-- Two, as the reference writes it. -/
abbrev twoR : EReal := Ideal.ofBits .f32 0x40000000#32

/-! The eight corners: centre ∓ extent over two. -/

theorem ref_c11 (a0 : FVec Ideal S32x25200x4 .f32) (b : Fin 32) (j : Fin 200) :
    val_main_v11 (F := Ideal) a0 (ix2 b j) = a0 (ix3 b (lo j) 0) - Ideal.div (a0 (ix3 b (lo j) 2)) twoR := by
  rw [val_main_v11_apply, val_main_v10_apply, val_main_v9_apply, val_main_cst_apply, ref_p0, ref_p2] <;> rfl
theorem ref_c14 (a0 : FVec Ideal S32x25200x4 .f32) (b : Fin 32) (j : Fin 200) :
    val_main_v14 (F := Ideal) a0 (ix2 b j) = a0 (ix3 b (lo j) 1) - Ideal.div (a0 (ix3 b (lo j) 3)) twoR := by
  rw [val_main_v14_apply, val_main_v13_apply, val_main_v12_apply, val_main_cst_0_apply, ref_p1, ref_p3] <;> rfl
theorem ref_c17 (a0 : FVec Ideal S32x25200x4 .f32) (b : Fin 32) (j : Fin 200) :
    val_main_v17 (F := Ideal) a0 (ix2 b j) = a0 (ix3 b (lo j) 0) + Ideal.div (a0 (ix3 b (lo j) 2)) twoR := by
  rw [val_main_v17_apply, val_main_v16_apply, val_main_v15_apply, val_main_cst_1_apply, ref_p0, ref_p2] <;> rfl
theorem ref_c20 (a0 : FVec Ideal S32x25200x4 .f32) (b : Fin 32) (j : Fin 200) :
    val_main_v20 (F := Ideal) a0 (ix2 b j) = a0 (ix3 b (lo j) 1) + Ideal.div (a0 (ix3 b (lo j) 3)) twoR := by
  rw [val_main_v20_apply, val_main_v19_apply, val_main_v18_apply, val_main_cst_2_apply, ref_p1, ref_p3] <;> rfl
theorem ref_c31 (a3 : FVec Ideal S32x200x4 .f32) (b : Fin 32) (j : Fin 200) :
    val_main_v31 (F := Ideal) a3 (ix2 b j) = a3 (ix3 b j 0) - Ideal.div (a3 (ix3 b j 2)) twoR := by
  rw [val_main_v31_apply, val_main_v30_apply, val_main_v29_apply, val_main_cst_3_apply, ref_t0, ref_t2] <;> rfl
theorem ref_c34 (a3 : FVec Ideal S32x200x4 .f32) (b : Fin 32) (j : Fin 200) :
    val_main_v34 (F := Ideal) a3 (ix2 b j) = a3 (ix3 b j 1) - Ideal.div (a3 (ix3 b j 3)) twoR := by
  rw [val_main_v34_apply, val_main_v33_apply, val_main_v32_apply, val_main_cst_4_apply, ref_t1, ref_t3] <;> rfl
theorem ref_c37 (a3 : FVec Ideal S32x200x4 .f32) (b : Fin 32) (j : Fin 200) :
    val_main_v37 (F := Ideal) a3 (ix2 b j) = a3 (ix3 b j 0) + Ideal.div (a3 (ix3 b j 2)) twoR := by
  rw [val_main_v37_apply, val_main_v36_apply, val_main_v35_apply, val_main_cst_5_apply, ref_t0, ref_t2] <;> rfl
theorem ref_c40 (a3 : FVec Ideal S32x200x4 .f32) (b : Fin 32) (j : Fin 200) :
    val_main_v40 (F := Ideal) a3 (ix2 b j) = a3 (ix3 b j 1) + Ideal.div (a3 (ix3 b j 3)) twoR := by
  rw [val_main_v40_apply, val_main_v39_apply, val_main_v38_apply, val_main_cst_6_apply, ref_t1, ref_t3] <;> rfl

/-- The reference's loss of box (b, j): the GIoU loss of the predicted and the target box read channel by channel. -/
theorem ref_v74 (a0 : FVec Ideal S32x25200x4 .f32) (a3 : FVec Ideal S32x200x4 .f32) (b : Fin 32) (j : Fin 200) :
    val_main_v74 (F := Ideal) a0 a3 (ix2 b j)
      = giouBox zClip (a0 (ix3 b (lo j) 0)) (a0 (ix3 b (lo j) 1)) (a0 (ix3 b (lo j) 2)) (a0 (ix3 b (lo j) 3))
          (a3 (ix3 b j 0)) (a3 (ix3 b j 1)) (a3 (ix3 b j 2)) (a3 (ix3 b j 3)) := by
  simp only [val_main_v74_apply, val_main_v73_apply, val_main_cst_10_apply, val_main_v72_apply, val_main_v71_apply,
    val_main_v70_apply, val_main_v69_apply, val_main_cst_9_apply, val_main_v68_apply, val_main_v67_apply,
    val_main_v66_apply, val_main_v65_apply, val_main_v64_apply, val_main_v63_apply, val_main_v62_apply,
    val_main_v61_apply, val_main_v60_apply, val_main_v59_apply, val_main_v58_apply, val_main_cst_8_apply,
    val_main_v57_apply, val_main_v56_apply, val_main_v55_apply, val_main_v54_apply, val_main_v53_apply,
    val_main_v52_apply, val_main_v51_apply, val_main_v50_apply, val_main_v49_apply, val_main_v48_apply,
    val_main_call1_v1_apply, val_main_call1_v0_apply, val_main_c_7_apply, val_main_v47_apply, val_main_v46_apply,
    val_main_call0_v1_apply, val_main_call0_v0_apply, val_main_c_apply, val_main_v45_apply, val_main_v44_apply,
    val_main_v43_apply, val_main_v42_apply, val_main_v41_apply,
    ref_c11, ref_c14, ref_c17, ref_c20, ref_c31, ref_c34, ref_c37, ref_c40]
  rfl

/-- The reference's GIoU sum: over the 32 rows and the 200 boxes, the loss of each pair of boxes. -/
theorem ref_sum (a0 : FVec Ideal S32x25200x4 .f32) (a3 : FVec Ideal S32x200x4 .f32) :
    val_main_v75 (F := Ideal) a0 a3 ix0
      = ∑ b : Fin 32, ∑ j : Fin 200,
          giouBox zClip (a0 (ix3 b (lo j) 0)) (a0 (ix3 b (lo j) 1)) (a0 (ix3 b (lo j) 2)) (a0 (ix3 b (lo j) 3))
            (a3 (ix3 b j 0)) (a3 (ix3 b j 1)) (a3 (ix3 b j 2)) (a3 (ix3 b j 3)) := by
  rw [val_main_v75_apply, val_main_cst_11_apply]
  rw [show (FloatOps.ofBits (F := Ideal) .f32 0x00000000#32 : EReal) = 0 from Ideal.ofBits_zero_f32, zero_add, sum_idx2]
  exact Finset.sum_congr rfl fun b _ => Finset.sum_congr rfl fun j _ => ref_v74 a0 a3 b j

end Reference

/-! ## The two sums agree -/

/-- Summed over the four points, the kernel's GIoU partial sums are the reference's GIoU sum: the 32 rows are four
    blocks of eight, and block `t`'s row `r` is row `8 t + r`. -/
theorem giou_sum (a0 : FVec Ideal S32x25200x4 .f32) (a3 : FVec Ideal S32x200x4 .f32) (x0 x3 : Fin 4 → Vec Ideal S8x4x200 .f32)
    (h0 : ∀ (t : Fin 4) (r : Fin 8) (k : Fin 4) (j : Fin 200), x0 t (ix3 r k j) = a0 (ix3 (row t r) (lo j) k))
    (h3 : ∀ (t : Fin 4) (r : Fin 8) (k : Fin 4) (j : Fin 200), x3 t (ix3 r k j) = a3 (ix3 (row t r) j k)) :
    ∑ t : Fin 4, pG (F := Ideal) (x0 t) (x3 t) = Cert.ReferenceIdeal.Read.val_main_v75 (F := Ideal) a0 a3 ix0 := by
  refine Eq.trans ?_ (ref_sum a0 a3).symm
  rw [sum_fin32]
  refine Finset.sum_congr rfl fun t _ => ?_
  rw [pG_eq]
  refine Finset.sum_congr rfl fun r _ => Finset.sum_congr rfl fun j _ => ?_
  rw [h0, h0, h0, h0, h3, h3, h3, h3]
  rfl

end Cert.KernelIdeal.Hand

end
-- ==== Proof.KObj.lean ====
/-
  The two objectness sums agree.  Each grid point sums, over its eight batch rows and all 25200 anchors, a masked
  softplus: the mask "anchor index < 200" keeps softplus(-x) on the first 200 anchors (zero elsewhere) for the first
  sum, and keeps softplus(x) on the other 25000 anchors (zero on the first 200) for the second.  The reference sums
  softplus(-x) over 32 rows x 200 anchors and softplus(x) over 32 rows x 25000 anchors.  Both sides compute softplus
  at one element as  max z 0 + log (1 + exp (-|z - 0|))  with |d| = max d (-d); the guard "d differs from d" is
  false on the extended reals, so the guarded branch is never taken.  The masked sums drop their zero terms
  (25200 = 200 + 25000), the points' rows are rows 8t .. 8t+7 of the batch, and 32 rows are four blocks of eight:
  only regrouping of a finite sum in a commutative monoid is used.
-/
import proofs.«409640_j51616916963357_4_alg».proof.Proof.KDefs
import proofs.«409640_j51616916963357_4_alg».proof.Proof.ReadP
import proofs.«409640_j51616916963357_4_alg».proof.Proof.LibSums
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Mathlib.Algebra.BigOperators.Fin
import Mathlib.Data.EReal.Basic

noncomputable section

open scoped BigOperators

namespace Cert.KernelIdeal.Hand

open Idealize.ShloMosaic Idealize.ShloMosaic.ValueIdx
open Cert.KernelIdeal Cert.KernelIdeal.Gen
open Cert.ReferenceIdeal.Read

namespace Obj

/-- The softplus both programs compute at one element: `max z 0 + log (1 + exp (-|z - 0|))`, with `|d| = max d (-d)`. -/
def sp (z : EReal) : EReal := max z 0 + Ideal.log1p (Ideal.exp (-(max (z - 0) (-(z - 0)))))

/-- The softplus payload at one element, with the constant zero and the zero splat it is given. -/
theorem pay25_apply (v : FVec Ideal S8x25200 .f32) (i : S8x25200.Idx) :
    k0_pay25 (F := Ideal) v (Scalar.ofBits .f32 0x00000000#32) k0_pay24 i = sp (v i) := by
  unfold k0_pay25 k0_pay24
  show Scalar.select (Ideal.cmp .one (v i - Ideal.ofBits .f32 0x00000000#32) (v i - Ideal.ofBits .f32 0x00000000#32))
      (v i + Ideal.ofBits .f32 0x00000000#32)
      (max (v i) (Ideal.ofBits .f32 0x00000000#32) + Ideal.log1p (Ideal.exp (Ideal.ofBits .f32 0x00000000#32
        - max (v i - Ideal.ofBits .f32 0x00000000#32) (-(v i - Ideal.ofBits .f32 0x00000000#32))))) = _
  rw [Ideal.ofBits_zero_f32, Cert.LibSums.cmp_one_self, select_zero, zero_sub]
  rfl

/-- A natural below 25200, as a 32-bit word, is signed-less-than 200 exactly when it is below 200. -/
theorem slt_small (n : Nat) (h : n < 25200) :
    IntOp.cmpi .slt (BitVec.ofNat 32 n) 200#32 = if n < 200 then 1#1 else 0#1 := by
  have hn : (BitVec.ofNat 32 n).toNat = n := by
    rw [BitVec.toNat_ofNat]; exact Nat.mod_eq_of_lt (by omega)
  have ha : (BitVec.ofNat 32 n).toNat < 2 ^ 31 := by rw [hn]; omega
  have hb : (200#32 : BitVec 32).toNat < 2 ^ 31 := by decide
  have key := StableHlo.Predicate.slt_iff_toNat ha hb
  rw [hn] at key
  have h200 : (200#32 : BitVec 32).toNat = 200 := by decide
  rw [h200] at key
  by_cases hlt : n < 200
  · rw [if_pos hlt]; exact key.mpr hlt
  · rw [if_neg hlt]; exact eq_zero_of_ne_one (fun hc => hlt (key.mp hc))

/-- The mask at (row, anchor): whether the anchor index is below 200. -/
theorem mask_apply (r : Fin 8) (n : Fin 25200) :
    k0_pay22 (ix2 r n) = if n.val < 200 then 1#1 else 0#1 := by
  unfold k0_pay22
  show IntOp.cmpi .slt (iota .tc S8x25200 32 [1] iota_S8x25200_d1_w32 (ix2 r n)) 200#32 = _
  rw [iota_single_apply]
  exact slt_small n.val n.isLt

/-- The sign-adjusted logit at (row, anchor): negated on the first 200 anchors, unchanged on the rest. -/
theorem pay23_apply (x1 : Vec Ideal S8x25200 .f32) (r : Fin 8) (n : Fin 25200) :
    k0_pay23 (F := Ideal) x1 (ix2 r n) = if n.val < 200 then -(x1 (ix2 r n)) else x1 (ix2 r n) := by
  unfold k0_pay23
  show Scalar.select (k0_pay22 (ix2 r n)) (Ideal.ofBits .f32 0x00000000#32 - x1 (ix2 r n)) (x1 (ix2 r n)) = _
  rw [mask_apply, Ideal.ofBits_zero_f32, zero_sub]
  by_cases hlt : n.val < 200
  · rw [if_pos hlt, if_pos hlt, select_one]
  · rw [if_neg hlt, if_neg hlt, select_zero]

/-- The total of a [1, 8, 25200] vector made from an [8, 25200] one by adding a unit axis, as the double sum over rows and anchors. -/
theorem total_cast (w : FVec Ideal S8x25200 .f32) :
    extractAt ![0, 0, 0] (shapeCast S1x1x1 (multiReduction (F := Ideal) .add [1, 2] S1 (shapeCast S1x8x25200 w shapeCasts_S8x25200_S1x8x25200) 0x00000000#32 reduces_S1x8x25200_S1 (.inl rfl) rfl) shapeCasts_S1_S1x1x1) inpos_S1x1x1_p0_0_0
      = ∑ r : Fin 8, ∑ n : Fin 25200, w (ix2 r n) := by
  refine (Ideal.multiReduction_add_total (shapeCast S1x8x25200 w shapeCasts_S8x25200_S1x8x25200) 0x00000000#32 reduces_S1x8x25200_S1 (fun b => ?_) (.inl rfl) rfl _).trans ?_
  · match b with | ⟨0, _⟩ => rfl
  · rw [Cert.LibSums.sum_idx3, Fin.sum_univ_one]
    refine Finset.sum_congr rfl fun r _ => Finset.sum_congr rfl fun n _ => ?_
    refine (shapeCast_addUnit_apply ![8, 25200] w shapeCasts_S8x25200_S1x8x25200 (ix3 0 r n)).trans ?_
    exact congrArg w (funext fun a => match a with | ⟨0, _⟩ => rfl | ⟨1, _⟩ => rfl)

/-- A point's first sum: over rows and anchors, softplus(-x) where the anchor index is below 200 and zero elsewhere. -/
theorem pPos_eq (x1 : Vec Ideal S8x25200 .f32) :
    pPos (F := Ideal) x1 = ∑ r : Fin 8, ∑ n : Fin 25200, (if n.val < 200 then sp (-(x1 (ix2 r n))) else 0) := by
  unfold pPos k0_pay26
  refine (total_cast _).trans ?_
  refine Finset.sum_congr rfl fun r _ => Finset.sum_congr rfl fun n _ => ?_
  show Scalar.select (k0_pay22 (ix2 r n)) (k0_pay25 (F := Ideal) (k0_pay23 x1) (Scalar.ofBits .f32 0x00000000#32) k0_pay24 (ix2 r n)) (Ideal.ofBits .f32 0x00000000#32) = _
  rw [mask_apply, pay25_apply, pay23_apply, Ideal.ofBits_zero_f32]
  by_cases hlt : n.val < 200
  · simp only [if_pos hlt, select_one]
  · simp only [if_neg hlt, select_zero]

/-- A point's second sum: over rows and anchors, zero where the anchor index is below 200 and softplus(x) elsewhere. -/
theorem pNeg_eq (x1 : Vec Ideal S8x25200 .f32) :
    pNeg (F := Ideal) x1 = ∑ r : Fin 8, ∑ n : Fin 25200, (if n.val < 200 then 0 else sp (x1 (ix2 r n))) := by
  unfold pNeg k0_pay27
  refine (total_cast _).trans ?_
  refine Finset.sum_congr rfl fun r _ => Finset.sum_congr rfl fun n _ => ?_
  show Scalar.select (k0_pay22 (ix2 r n)) (Ideal.ofBits .f32 0x00000000#32) (k0_pay25 (F := Ideal) (k0_pay23 x1) (Scalar.ofBits .f32 0x00000000#32) k0_pay24 (ix2 r n)) = _
  rw [mask_apply, pay25_apply, pay23_apply, Ideal.ofBits_zero_f32]
  by_cases hlt : n.val < 200
  · simp only [if_pos hlt, select_one]
  · simp only [if_neg hlt, select_zero]

/-- The reference's softplus of the negated first 200 logits, at one element. -/
theorem v81_apply (a1 : FVec Ideal S32x25200 .f32) (b : Fin 32) (j : Fin 200) :
    Cert.ReferenceIdeal.Read.val_main_v81 (F := Ideal) a1 (ix2 b j) = sp (-(a1 (ix2 b (lo j)))) := by
  have hidx : Cert.ReferenceIdeal.Read.idx_main_v78 (ix2 b j) = ix2 b (lo j) :=
    funext fun a => Fin.ext (by match a with | ⟨0, _⟩ => rfl | ⟨1, _⟩ => rfl)
  simp only [val_main_v81_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply, val_main_v80_apply, val_main_v78_apply, hidx]
  simp only [Ideal.hostNegf_def, Ideal.negf_def, Ideal.hostAbsf_def, Ideal.absf_def, Ideal.cmpf_def, Ideal.subf_def,
    Ideal.addf_def, Ideal.maximumf_def, Ideal.hostUnary_exp_def, Ideal.hostUnary_log1p_def, Ideal.ofBits_def,
    Ideal.ofBits_zero_f32, Cert.LibSums.cmp_une_self, select_zero]
  rfl

/-- The reference's softplus of the other 25000 logits, at one element. -/
theorem v85_apply (a1 : FVec Ideal S32x25200 .f32) (b : Fin 32) (k : Fin 25000) :
    Cert.ReferenceIdeal.Read.val_main_v85 (F := Ideal) a1 (ix2 b k) = sp (a1 (ix2 b (hi k))) := by
  have hidx : Cert.ReferenceIdeal.Read.idx_main_v79 (ix2 b k) = ix2 b (hi k) :=
    funext fun a => Fin.ext (by match a with | ⟨0, _⟩ => rfl | ⟨1, _⟩ => rfl)
  simp only [val_main_v85_apply, val_main_call3_v4_apply, val_main_call3_v6_apply, val_main_call3_v11_apply,
    val_main_call3_v1_apply, val_main_call3_v10_apply, val_main_call3_v9_apply, val_main_call3_v8_apply,
    val_main_call3_v7_apply, val_main_call3_v3_apply, val_main_call3_v0_apply, val_main_call3_v2_apply,
    val_main_call3_v5_apply, val_main_call3_cst_apply, val_main_v79_apply, hidx]
  simp only [Ideal.hostNegf_def, Ideal.negf_def, Ideal.hostAbsf_def, Ideal.absf_def, Ideal.cmpf_def, Ideal.subf_def,
    Ideal.addf_def, Ideal.maximumf_def, Ideal.hostUnary_exp_def, Ideal.hostUnary_log1p_def, Ideal.ofBits_def,
    Ideal.ofBits_zero_f32, Cert.LibSums.cmp_une_self, select_zero]
  rfl

/-- The reference's first objectness total, as the double sum over the 32 rows and the first 200 anchors. -/
theorem v82_eq (a1 : FVec Ideal S32x25200 .f32) :
    Cert.ReferenceIdeal.Read.val_main_v82 (F := Ideal) a1 ix0 = ∑ b : Fin 32, ∑ j : Fin 200, sp (-(a1 (ix2 b (lo j)))) := by
  rw [val_main_v82_apply, val_main_cst_14_apply, Ideal.ofBits_def, Ideal.ofBits_zero_f32, zero_add, sum_idx2]
  exact Finset.sum_congr rfl fun b _ => Finset.sum_congr rfl fun j _ => v81_apply a1 b j

/-- The reference's second objectness total, as the double sum over the 32 rows and the other 25000 anchors. -/
theorem v86_eq (a1 : FVec Ideal S32x25200 .f32) :
    Cert.ReferenceIdeal.Read.val_main_v86 (F := Ideal) a1 ix0 = ∑ b : Fin 32, ∑ k : Fin 25000, sp (a1 (ix2 b (hi k))) := by
  rw [val_main_v86_apply, val_main_cst_17_apply, Ideal.ofBits_def, Ideal.ofBits_zero_f32, zero_add, sum_idx2]
  exact Finset.sum_congr rfl fun b _ => Finset.sum_congr rfl fun k _ => v85_apply a1 b k

end Obj

open Obj

/-- The four grid points' sums of softplus(-x) over the first 200 anchors add up to the reference's total over all 32 rows:
    each point's masked sum over 25200 anchors keeps the first 200 terms and adds zeros for the rest, its eight rows are
    rows 8t..8t+7 of the batch, and 32 rows are four blocks of eight. -/
theorem pos_sum (a1 : FVec Ideal S32x25200 .f32) (x1 : Fin 4 → Vec Ideal S8x25200 .f32)
    (h1 : ∀ (t : Fin 4) (r : Fin 8) (n : Fin 25200), x1 t (ix2 r n) = a1 (ix2 (row t r) n)) :
    ∑ t : Fin 4, pPos (F := Ideal) (x1 t) = Cert.ReferenceIdeal.Read.val_main_v82 (F := Ideal) a1 ix0 := by
  rw [v82_eq, Cert.LibSums.sum_fin32]
  refine Finset.sum_congr rfl fun t _ => ?_
  rw [pPos_eq]
  refine Finset.sum_congr rfl fun r _ => ?_
  rw [Cert.LibSums.sum_fin25200]
  refine (congrArg₂ (· + ·) (Finset.sum_congr rfl fun j _ => ?_) (Finset.sum_eq_zero fun k _ => ?_)).trans (add_zero _)
  · show (if j.val < 200 then _ else _) = _
    rw [if_pos j.isLt, h1]
    rfl
  · show (if 200 + k.val < 200 then _ else _) = _
    rw [if_neg (by omega)]

/-- Likewise for softplus(x) over the other 25000 anchors: the masked sum adds zeros for the first 200 and keeps the rest. -/
theorem neg_sum (a1 : FVec Ideal S32x25200 .f32) (x1 : Fin 4 → Vec Ideal S8x25200 .f32)
    (h1 : ∀ (t : Fin 4) (r : Fin 8) (n : Fin 25200), x1 t (ix2 r n) = a1 (ix2 (row t r) n)) :
    ∑ t : Fin 4, pNeg (F := Ideal) (x1 t) = Cert.ReferenceIdeal.Read.val_main_v86 (F := Ideal) a1 ix0 := by
  rw [v86_eq, Cert.LibSums.sum_fin32]
  refine Finset.sum_congr rfl fun t _ => ?_
  rw [pNeg_eq]
  refine Finset.sum_congr rfl fun r _ => ?_
  rw [Cert.LibSums.sum_fin25200]
  refine (congrArg₂ (· + ·) (Finset.sum_eq_zero fun j _ => ?_) (Finset.sum_congr rfl fun k _ => ?_)).trans (zero_add _)
  · show (if j.val < 200 then _ else _) = _
    rw [if_pos j.isLt]
  · show (if 200 + k.val < 200 then _ else _) = _
    rw [if_neg (by omega), h1]
    rfl

end Cert.KernelIdeal.Hand
end
-- ==== Proof.LibRow.lean ====
/- One row of a cross-entropy, analysed on the extended reals: the logits of a row are REAL numbers `v k`, the row's
   maximum `M` is taken as a fold of `max` from `-∞`, the shifted exponentials `exp (v k - M)` are summed, the
   logarithm of that sum is taken, and the logit of the labelled class is picked out by a one-hot weight. Each of these
   is the inclusion of the corresponding real quantity: the maximum is real because the row is nonempty, the sum of
   exponentials is a positive real, so its logarithm is the real logarithm, and the two ways of assembling the row's
   loss, `(log S + M) - v L` and `-((v L - M) - log S)`, are the same real number `log s + M - v L`. -/
import Idealize.ShloMosaic.PureOps.Ideal
import Mathlib.Data.Finset.Fold
import Mathlib.Data.Finset.Lattice.Fold
import Mathlib.Data.EReal.Operations
import Mathlib.Algebra.BigOperators.Group.Finset.Basic
import Mathlib.Analysis.SpecialFunctions.Log.Basic

noncomputable section

open scoped BigOperators

namespace Cert.LibRow

open Idealize.ShloMosaic

/-! ## The row maximum -/

/-- The pattern `0xFF800000` denotes `-∞`, the least extended real. -/
theorem ofBits_neg_inf : Ideal.ofBits .f32 0xFF800000#32 = (⊥ : EReal) := by
  simp [Ideal.ofBits, Ideal.ieee]

/-- The maximum of `-∞` and `x` is `x`. -/
theorem max_bot_left (x : EReal) : max (⊥ : EReal) x = x := max_eq_right bot_le

/-- The maximum of the pattern `0xFF800000` (that is `-∞`) and `x` is `x`. -/
theorem max_neg_inf_left (x : EReal) : max (Ideal.ofBits .f32 0xFF800000#32 : EReal) x = x := by
  rw [ofBits_neg_inf]; exact max_bot_left x

/-- The fold of `max` from `-∞` over a nonempty finite family of REAL numbers is the (real) maximum of the family:
    it is below every upper bound of the family, and it is above the member where the maximum is attained. -/
theorem fold_max_coe {ι : Type*} [Fintype ι] [Nonempty ι] (v : ι → ℝ) :
    (Finset.univ : Finset ι).fold max (⊥ : EReal) (fun k => ((v k : ℝ) : EReal))
      = ((Finset.univ.sup' Finset.univ_nonempty v : ℝ) : EReal) := by
  apply le_antisymm
  · rw [Finset.fold_max_le]
    exact ⟨bot_le, fun k hk => EReal.coe_le_coe_iff.2 (Finset.le_sup' v hk)⟩
  · obtain ⟨k, hk, hM⟩ := Finset.exists_mem_eq_sup' Finset.univ_nonempty v
    rw [Finset.le_fold_max]
    exact Or.inr ⟨k, hk, by rw [hM]⟩

/-- The same with the fold started at the pattern `0xFF800000`, which denotes `-∞`. -/
theorem fold_max_coe_neg_inf {ι : Type*} [Fintype ι] [Nonempty ι] (v : ι → ℝ) :
    (Finset.univ : Finset ι).fold max (Ideal.ofBits .f32 0xFF800000#32 : EReal) (fun k => ((v k : ℝ) : EReal))
      = ((Finset.univ.sup' Finset.univ_nonempty v : ℝ) : EReal) := by
  rw [ofBits_neg_inf]; exact fold_max_coe v

/-- The same for a family of extended reals known to be the real family `v`. -/
theorem fold_max_eq_coe {ι : Type*} [Fintype ι] [Nonempty ι] (v : ι → ℝ) (f : ι → EReal)
    (hf : ∀ k, f k = ((v k : ℝ) : EReal)) :
    (Finset.univ : Finset ι).fold max (Ideal.ofBits .f32 0xFF800000#32 : EReal) f
      = ((Finset.univ.sup' Finset.univ_nonempty v : ℝ) : EReal) := by
  have : f = fun k => ((v k : ℝ) : EReal) := funext hf
  rw [this]; exact fold_max_coe_neg_inf v

/-- Every member of the family is at most the maximum. -/
theorem le_rowMax {ι : Type*} [Fintype ι] [Nonempty ι] (v : ι → ℝ) (k : ι) :
    v k ≤ Finset.univ.sup' Finset.univ_nonempty v := Finset.le_sup' v (Finset.mem_univ k)

/-! ## The sum of the shifted exponentials -/

/-- The inclusion of the reals in the extended reals carries a finite sum to the sum. -/
theorem coe_sum_real {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The sum of the exponentials of the shifted REAL logits is the inclusion of the real sum of real exponentials (the
    shift `M` is any real number): each difference of two reals is real, and the exponential of a real is the real one. -/
theorem sumexp_coe {ι : Type*} [Fintype ι] (v : ι → ℝ) (M : ℝ) :
    ∑ k, Ideal.exp (((v k : ℝ) : EReal) - ((M : ℝ) : EReal)) = ((∑ k, Real.exp (v k - M) : ℝ) : EReal) := by
  rw [← coe_sum_real]
  exact Finset.sum_congr rfl fun k _ => by rw [← EReal.coe_sub, Ideal.exp_coe]

/-- Over a nonempty family that real sum is positive: every exponential is. -/
theorem sumexp_pos {ι : Type*} [Fintype ι] [Nonempty ι] (v : ι → ℝ) (M : ℝ) :
    0 < ∑ k, Real.exp (v k - M) :=
  Finset.sum_pos (fun k _ => Real.exp_pos _) Finset.univ_nonempty

/-! ## Its logarithm -/

/-- The logarithm of a positive real, taken on the extended reals, is the real logarithm. -/
theorem log_coe_pos {s : ℝ} (hs : 0 < s) : Ideal.log ((s : ℝ) : EReal) = ((Real.log s : ℝ) : EReal) := by
  rw [Ideal.log_coe, if_neg (not_le.2 hs)]

/-- The logarithm of the sum of the shifted exponentials is the inclusion of the real logarithm of the real sum. -/
theorem log_sumexp_coe {ι : Type*} [Fintype ι] [Nonempty ι] (v : ι → ℝ) (M : ℝ) :
    Ideal.log (∑ k, Ideal.exp (((v k : ℝ) : EReal) - ((M : ℝ) : EReal)))
      = ((Real.log (∑ k, Real.exp (v k - M)) : ℝ) : EReal) := by
  rw [sumexp_coe, log_coe_pos (sumexp_pos v M)]

/-! ## The labelled logit, picked by a one-hot weight -/

/-- A sum weighted by the indicator of one index `L` is the term at `L`: every other term is `0 · x = 0`. -/
theorem onehot_sum {ι : Type*} [Fintype ι] [DecidableEq ι] (v : ι → ℝ) (L : ι) (w : ι → EReal)
    (hw : ∀ k, w k = if k = L then 1 else 0) :
    ∑ k, w k * ((v k : ℝ) : EReal) = ((v L : ℝ) : EReal) := by
  rw [Finset.sum_eq_single L]
  · rw [hw L, if_pos rfl, one_mul]
  · intro k _ hk
    rw [hw k, if_neg hk, zero_mul]
  · intro h; exact absurd (Finset.mem_univ L) h

/-- The same with the weight written on the right. -/
theorem onehot_sum' {ι : Type*} [Fintype ι] [DecidableEq ι] (v : ι → ℝ) (L : ι) (w : ι → EReal)
    (hw : ∀ k, w k = if k = L then 1 else 0) :
    ∑ k, ((v k : ℝ) : EReal) * w k = ((v L : ℝ) : EReal) := by
  rw [← onehot_sum v L w hw]
  exact Finset.sum_congr rfl fun k _ => mul_comm _ _

/-! ## The row's loss, assembled two ways -/

/-- For reals `s > 0`, `M`, `x`: `(log s + M) - x` computed on the extended reals is the real `log s + M - x`. -/
theorem kernel_row_real {s : ℝ} (hs : 0 < s) (M x : ℝ) :
    (Ideal.log ((s : ℝ) : EReal) + ((M : ℝ) : EReal)) - ((x : ℝ) : EReal)
      = ((Real.log s + M - x : ℝ) : EReal) := by
  rw [log_coe_pos hs, ← EReal.coe_add, ← EReal.coe_sub]

/-- For reals `s > 0`, `M`, `x`: `-((x - M) - log s)` computed on the extended reals is the real `log s + M - x`. -/
theorem ref_row_real {s : ℝ} (hs : 0 < s) (M x : ℝ) :
    -((((x : ℝ) : EReal) - ((M : ℝ) : EReal)) - Ideal.log ((s : ℝ) : EReal))
      = ((Real.log s + M - x : ℝ) : EReal) := by
  rw [log_coe_pos hs, ← EReal.coe_sub, ← EReal.coe_sub, ← EReal.coe_neg]
  congr 1; ring

/-- The row's loss as "log of the sum of shifted exponentials, plus the shift, minus the labelled logit". -/
theorem kernel_row {ι : Type*} [Fintype ι] [Nonempty ι] (v : ι → ℝ) (M : ℝ) (L : ι) :
    (Ideal.log (∑ k, Ideal.exp (((v k : ℝ) : EReal) - ((M : ℝ) : EReal))) + ((M : ℝ) : EReal)) - ((v L : ℝ) : EReal)
      = ((Real.log (∑ k, Real.exp (v k - M)) + M - v L : ℝ) : EReal) := by
  rw [sumexp_coe]; exact kernel_row_real (sumexp_pos v M) M (v L)

/-- The row's loss as "minus the shifted labelled logit less the log of the sum of shifted exponentials". -/
theorem ref_row {ι : Type*} [Fintype ι] [Nonempty ι] (v : ι → ℝ) (M : ℝ) (L : ι) :
    -((((v L : ℝ) : EReal) - ((M : ℝ) : EReal)) - Ideal.log (∑ k, Ideal.exp (((v k : ℝ) : EReal) - ((M : ℝ) : EReal))))
      = ((Real.log (∑ k, Real.exp (v k - M)) + M - v L : ℝ) : EReal) := by
  rw [sumexp_coe]; exact ref_row_real (sumexp_pos v M) M (v L)

/-- The two assemblies agree. -/
theorem kernel_row_eq_ref_row {ι : Type*} [Fintype ι] [Nonempty ι] (v : ι → ℝ) (M : ℝ) (L : ι) :
    (Ideal.log (∑ k, Ideal.exp (((v k : ℝ) : EReal) - ((M : ℝ) : EReal))) + ((M : ℝ) : EReal)) - ((v L : ℝ) : EReal)
      = -((((v L : ℝ) : EReal) - ((M : ℝ) : EReal))
          - Ideal.log (∑ k, Ideal.exp (((v k : ℝ) : EReal) - ((M : ℝ) : EReal)))) :=
  (kernel_row v M L).trans (ref_row v M L).symm

end Cert.LibRow

end
-- ==== Proof.KClsRef.lean ====
/-
  The reference's cross-entropy, read entry by entry.  For box (b, j) the reference takes the log-softmax of the
  80 class logits v: with M the largest logit (a reduction by maximum started at -∞, then once more the maximum
  with -∞), the shifted logits v k - M, the sum S of their exponentials and its logarithm, the entry at class k is
  (v k - M) - log S.  The label L of the box, a word in [0, 80), is turned into a start index (a negative label would
  be wrapped by 80, which does not happen), tested to lie in [0, 79] (it does, so the guarded value is kept), and the
  gather reads the log-softmax at class L.  The per-box loss is minus that entry, which on finite logits is the real
  number  log (∑ k, exp (v k - M)) + M - v L,  and the reference's total is the sum of these over the 32 rows and the
  200 boxes.
-/
import proofs.«409640_j51616916963357_4_alg».proof.Proof.KDefs
import proofs.«409640_j51616916963357_4_alg».proof.Proof.ReadP
import proofs.«409640_j51616916963357_4_alg».proof.Proof.LibSums
import proofs.«409640_j51616916963357_4_alg».proof.Proof.LibRow
import Idealize.ShloMosaic.Lib.ValueIdx
import Idealize.ShloMosaic.Lib.Pipeline.Value
import Idealize.ShloMosaic.Lib.ValueLayout
import Idealize.ShloMosaic.Lib.ReduceAll
import Idealize.ShloMosaic.Lib.StableHlo.Predicate
import Idealize.ShloMosaic.PureOps.Ideal.Laws
import Mathlib.Data.Finset.Fold

noncomputable section

open scoped BigOperators

namespace Cert.KernelIdeal.Hand

open Idealize.ShloMosaic Idealize.ShloMosaic.ValueIdx
open Cert.ReferenceIdeal.Read
open Cert.LibRow

/-- The 80 class logits of box (b, j) as reals. -/
def rowV (a2 : FVec Ideal S32x25200x80 .f32) (b : Fin 32) (j : Fin 200) : Fin 80 → ℝ := fun k => (a2 (ix3 b (lo j) k)).toReal
/-- The label of box (b, j) as a class index (class 0 if the word is out of range, which the precondition excludes). -/
def rowL (a4 : S32x200.Idx → BitVec 32) (b : Fin 32) (j : Fin 200) : Fin 80 := if h : 0 ≤ (a4 (ix2 b j)).toInt ∧ (a4 (ix2 b j)).toInt < 80 then ⟨(a4 (ix2 b j)).toInt.toNat, by omega⟩ else 0
/-- The negated log-probability of the label: log ∑ₖ exp (vₖ - M) + M - v_L with M the largest logit. -/
def rowTerm (a2 : FVec Ideal S32x25200x80 .f32) (a4 : S32x200.Idx → BitVec 32) (b : Fin 32) (j : Fin 200) : ℝ :=
  Real.log (∑ k, Real.exp (rowV a2 b j k - Finset.univ.sup' Finset.univ_nonempty (rowV a2 b j))) + Finset.univ.sup' Finset.univ_nonempty (rowV a2 b j) - rowV a2 b j (rowL a4 b j)

/-! ## A fold of bits -/

/-- A fold of "and" from 1 over bits that are all 1 is 1. -/
theorem ref_fold_andi_one {ι : Type} (s : Finset ι) (f : ι → BitVec 1) (hf : ∀ k, f k = 1#1) :
    s.fold IntOp.andi 1#1 f = 1#1 := by
  classical
  induction s using Finset.induction_on with
  | empty => rfl
  | insert a s ha ih => rw [Finset.fold_insert ha, ih, hf a]; rfl

section Ref
variable (a2 : FVec Ideal S32x25200x80 .f32) (a4 : S32x200.Idx → BitVec 32)
  (hfin : ∀ (b : Fin 32) (j : Fin 200) (k : Fin 80), ∃ v : ℝ, a2 (ix3 b (lo j) k) = (v : EReal))
  (hlab : ∀ (b : Fin 32) (j : Fin 200), 0 ≤ (a4 (ix2 b j)).toInt ∧ (a4 (ix2 b j)).toInt < 80)

/-- The largest of the 80 logits of box (b, j). -/
abbrev refRowM (b : Fin 32) (j : Fin 200) : ℝ := Finset.univ.sup' Finset.univ_nonempty (rowV a2 b j)

/-- The sum over the classes of the exponentials of the logits less the largest. -/
abbrev refRowS (b : Fin 32) (j : Fin 200) : EReal :=
  ∑ k, Ideal.exp (((rowV a2 b j k : ℝ) : EReal) - ((refRowM a2 b j : ℝ) : EReal))

include hfin in
/-- A finite logit is the inclusion of its real value. -/
theorem ref_logit_coe (b : Fin 32) (j : Fin 200) (k : Fin 80) : a2 (ix3 b (lo j) k) = ((rowV a2 b j k : ℝ) : EReal) := by
  obtain ⟨v, hv⟩ := hfin b j k
  rw [rowV, hv, EReal.toReal_coe]

/-! ## The log-softmax of the 80 logits of a box -/

/-- The sliced logits at (b, j, k) are the input's at (b, j, k), the anchor read in the full list. -/
theorem ref_v90_at (b : Fin 32) (j : Fin 200) (k : Fin 80) :
    val_main_v90 (F := Ideal) a2 (ix3 b j k) = a2 (ix3 b (lo j) k) := by
  rw [val_main_v90_apply]
  congr 1
  funext a
  match a with
  | ⟨0, _⟩ => rfl
  | ⟨1, _⟩ => rfl
  | ⟨2, _⟩ => rfl

include hfin in
/-- The reduction by maximum over the classes, started at -∞, is the largest logit. -/
theorem ref_call4_v0_at (b : Fin 32) (j : Fin 200) :
    val_main_call4_v0 (F := Ideal) a2 (ix2 b j) = ((refRowM a2 b j : ℝ) : EReal) := by
  unfold val_main_call4_v0
  have h : Cert.ReferenceIdeal.S32x200x80.Reduces [2] Cert.ReferenceIdeal.S32x200 := by decide
  refine (Host.reduce_eq_fold_single FloatOps.maximumf _ _ _ h _ _).trans ?_
  refine fold_max_eq_coe (ι := Fin 80) (rowV a2 b j) _ (fun k => ?_)
  show val_main_v90 (F := Ideal) a2 (h.lift (ix2 b j) k) = _
  have e : h.lift (ix2 b j) k = ix3 b j k := by
    funext c; apply Fin.ext
    match c with
    | ⟨0, _⟩ => rfl
    | ⟨1, _⟩ => rfl
    | ⟨2, _⟩ => rfl
  rw [e, ref_v90_at, ref_logit_coe a2 hfin]

include hfin in
/-- The maximum of -∞ and that reduction is still the largest logit. -/
theorem ref_call4_v2_at (b : Fin 32) (j : Fin 200) :
    val_main_call4_v2 (F := Ideal) a2 (ix2 b j) = ((refRowM a2 b j : ℝ) : EReal) := by
  rw [val_main_call4_v2_apply, val_main_call4_v1_apply, val_main_call4_cst_0_apply, ref_call4_v0_at a2 hfin]
  exact max_neg_inf_left _

include hfin in
/-- Broadcast over the classes it is the largest logit at every class. -/
theorem ref_call4_v4_at (b : Fin 32) (j : Fin 200) (k : Fin 80) :
    val_main_call4_v4 (F := Ideal) a2 (ix3 b j k) = ((refRowM a2 b j : ℝ) : EReal) := by
  rw [val_main_call4_v4_apply, val_main_call4_v3_apply]
  have e : idx_main_call4_v3 (idx_main_call4_v4 (ix3 b j k)) = ix2 b j := by
    funext c
    match c with
    | ⟨0, _⟩ => rfl
    | ⟨1, _⟩ => rfl
  rw [e, ref_call4_v2_at a2 hfin]

include hfin in
/-- The shifted logit. -/
theorem ref_call4_v5_at (b : Fin 32) (j : Fin 200) (k : Fin 80) :
    val_main_call4_v5 (F := Ideal) a2 (ix3 b j k) = ((rowV a2 b j k : ℝ) : EReal) - ((refRowM a2 b j : ℝ) : EReal) := by
  rw [val_main_call4_v5_apply, ref_v90_at, ref_logit_coe a2 hfin, ref_call4_v4_at a2 hfin]
  rfl

include hfin in
/-- The sum over the classes of the exponentials of the shifted logits. -/
theorem ref_call4_v7_at (b : Fin 32) (j : Fin 200) :
    val_main_call4_v7 (F := Ideal) a2 (ix2 b j) = refRowS a2 b j := by
  rw [val_main_call4_v7_apply, val_main_call4_cst_1_apply, Ideal.ofBits_def, Ideal.ofBits_zero_f32, zero_add]
  refine Finset.sum_congr rfl fun k _ => ?_
  have e : idx_main_call4_v7 (ix2 b j) k = ix3 b j k := by
    funext c
    match c with
    | ⟨0, _⟩ => rfl
    | ⟨1, _⟩ => rfl
    | ⟨2, _⟩ => rfl
  rw [e, val_main_call4_v6_apply, ref_call4_v5_at a2 hfin]
  rfl

include hfin in
/-- The log-softmax at class k: the shifted logit less the logarithm of the sum. -/
theorem ref_v91_at (b : Fin 32) (j : Fin 200) (k : Fin 80) :
    val_main_v91 (F := Ideal) a2 (ix3 b j k)
      = (((rowV a2 b j k : ℝ) : EReal) - ((refRowM a2 b j : ℝ) : EReal)) - Ideal.log (refRowS a2 b j) := by
  rw [val_main_v91_apply, ref_call4_v5_at a2 hfin, val_main_call4_v10_apply, val_main_call4_v9_apply, val_main_call4_v8_apply]
  have e : idx_main_call4_v8 (idx_main_call4_v10 (ix3 b j k)) = ix2 b j := by
    funext c
    match c with
    | ⟨0, _⟩ => rfl
    | ⟨1, _⟩ => rfl
  rw [e, ref_call4_v7_at a2 hfin]
  rfl

/-! ## The label as a start index -/

/-- The label of box (b, j), broadcast to a trailing unit axis. -/
theorem ref_v92_at (b : Fin 32) (j : Fin 200) : val_main_v92 (F := Ideal) a4 (ix3 b j 0) = a4 (ix2 b j) := by
  rw [val_main_v92_apply]
  congr 1
  funext c
  match c with
  | ⟨0, _⟩ => rfl
  | ⟨1, _⟩ => rfl

include hlab in
/-- A label in [0, 80) is not below zero, so the wrapped index is the label itself. -/
theorem ref_call5_v4_at (b : Fin 32) (j : Fin 200) : val_main_call5_v4 (F := Ideal) a4 (ix3 b j 0) = a4 (ix2 b j) := by
  rw [val_main_call5_v4_apply, val_main_call5_v1_apply, ref_v92_at, val_main_call5_v0_apply, val_main_call5_c_apply]
  have h0 := (hlab b j).1
  have hc : IntOp.cmpi .slt (a4 (ix2 b j)) 0#32 = 0#1 := by
    simp only [IntOp.cmpi, BitVec.slt]
    have : ¬ ((a4 (ix2 b j)).toInt < 0) := by omega
    simp [this]
  rw [hc, select_zero]

include hlab in
/-- The start index at (b, j, 0, 0) is the label. -/
theorem ref_call5_v5_at (b : Fin 32) (j : Fin 200) : val_main_call5_v5 (F := Ideal) a4 (ix4 b j 0 0) = a4 (ix2 b j) := by
  rw [val_main_call5_v5_apply]
  have e : idx_main_call5_v5 (ix4 b j (0 : Fin 1) (0 : Fin 1)) = ix3 b j 0 := by
    funext c
    match c with
    | ⟨0, _⟩ => exact Fin.ext (by show (((b.val * 200 + j.val) * 1 + 0) * 1 + 0) / 200 = b.val; have := j.isLt; omega)
    | ⟨1, _⟩ => exact Fin.ext (by show (((b.val * 200 + j.val) * 1 + 0) * 1 + 0) / 1 % 200 = j.val; have := j.isLt; omega)
    | ⟨2, _⟩ => rfl
  rw [e, ref_call5_v4_at a4 hlab]

include hlab in
/-- A label in [0, 80) passes the range test "0 ≤ index ≤ 79". -/
theorem ref_call5_v11_at (b : Fin 32) (j : Fin 200) : val_main_call5_v11 (F := Ideal) a4 (ix4 b j 0 0) = 1#1 := by
  rw [val_main_call5_v11_apply, val_main_call5_v7_apply, val_main_call5_v10_apply, ref_call5_v5_at a4 hlab,
    val_main_call5_v6_apply, val_main_call5_c_2_apply, val_main_call5_v9_apply, val_main_call5_v8_apply,
    val_main_call5_c_1_apply]
  obtain ⟨h0, h1⟩ := hlab b j
  have c1 : IntOp.cmpi .sge (a4 (ix2 b j)) 0#32 = 1#1 := by
    simp only [IntOp.cmpi, BitVec.sle]
    simp [h0]
  have c2 : IntOp.cmpi .sle (a4 (ix2 b j)) 79#32 = 1#1 := by
    simp only [IntOp.cmpi, BitVec.sle]
    have : (a4 (ix2 b j)).toInt ≤ 79 := by omega
    simp [this]
  rw [c1, c2]; rfl

include hlab in
/-- The "and" over the one index component is 1. -/
theorem ref_call5_v12_at (b : Fin 32) (j : Fin 200) : val_main_call5_v12 (F := Ideal) a4 (ix3 b j 0) = 1#1 := by
  unfold val_main_call5_v12
  have h : Cert.ReferenceIdeal.S32x200x1x1.Reduces [3] Cert.ReferenceIdeal.S32x200x1 := by decide
  refine (Host.reduce_eq_fold_single IntOp.andi _ _ _ h _ _).trans ?_
  refine ref_fold_andi_one _ _ (fun k => ?_)
  show val_main_call5_v11 (F := Ideal) a4 (h.lift (ix3 b j 0) k) = 1#1
  have e : h.lift (ix3 b j (0 : Fin 1)) k = ix4 b j 0 0 := by
    funext c; apply Fin.ext
    match c with
    | ⟨0, _⟩ => rfl
    | ⟨1, _⟩ => rfl
    | ⟨2, _⟩ => rfl
    | ⟨3, _⟩ => show k.val = 0; have hk : k.val < 1 := k.isLt; omega
  rw [e, ref_call5_v11_at a4 hlab]

end Ref

/-! ## The gather of the labelled class -/

section Gather
open Cert.ReferenceIdeal in
/-- The gather's dimension numbers: batch axes 0 and 1 on both sides, the class axis collapsed and indexed. -/
abbrev refGather := gather_S32x200x80_S32x200x1x1_S32x200x1_n_2_01_01_2_3_111

/-- The gather at (b, j, 0) reads its operand at (b, j, c), c the start index at (b, j, 0, 0) read signed and clamped
    into [0, 79]. -/
theorem ref_gather_at {α : Type} (x : Cert.ReferenceIdeal.S32x200x80.Idx → α) (idx : IVec Cert.ReferenceIdeal.S32x200x1x1 32)
    (b : Fin 32) (j : Fin 200) :
    Host.gather refGather x idx (ix3 b j (0 : Fin 1))
      = x (ix3 b j ⟨min (idx (ix4 b j 0 0)).toInt.toNat 79, by omega⟩) := by
  unfold Host.gather
  congr 1
  have hsi : refGather.siIdx (ix3 b j (0 : Fin 1)) ⟨0, by decide⟩ = ix4 b j 0 0 := by
    funext c
    match c with
    | ⟨0, _⟩ => rfl
    | ⟨1, _⟩ => rfl
    | ⟨2, _⟩ => rfl
    | ⟨3, _⟩ => rfl
  funext a
  apply Fin.ext
  match a with
  | ⟨0, _⟩ =>
    have e : (refGather.operandIdx (ix3 b j (0 : Fin 1)) idx ⟨0, by decide⟩).val = 0 + b.val + 0 := rfl
    show (refGather.operandIdx (ix3 b j (0 : Fin 1)) idx ⟨0, by decide⟩).val = b.val
    omega
  | ⟨1, _⟩ =>
    have e : (refGather.operandIdx (ix3 b j (0 : Fin 1)) idx ⟨1, by decide⟩).val = 0 + j.val + 0 := rfl
    show (refGather.operandIdx (ix3 b j (0 : Fin 1)) idx ⟨1, by decide⟩).val = j.val
    omega
  | ⟨2, _⟩ =>
    have e : (refGather.operandIdx (ix3 b j (0 : Fin 1)) idx ⟨2, by decide⟩).val
        = min (idx (refGather.siIdx (ix3 b j (0 : Fin 1)) ⟨0, by decide⟩)).toInt.toNat 79 := rfl
    show (refGather.operandIdx (ix3 b j (0 : Fin 1)) idx ⟨2, by decide⟩).val = min (idx (ix4 b j 0 0)).toInt.toNat 79
    rw [e, hsi]
end Gather

section Ref2
variable (a2 : FVec Ideal S32x25200x80 .f32) (a4 : S32x200.Idx → BitVec 32)
  (hfin : ∀ (b : Fin 32) (j : Fin 200) (k : Fin 80), ∃ v : ℝ, a2 (ix3 b (lo j) k) = (v : EReal))
  (hlab : ∀ (b : Fin 32) (j : Fin 200), 0 ≤ (a4 (ix2 b j)).toInt ∧ (a4 (ix2 b j)).toInt < 80)

include hlab in
/-- With the label in [0, 80) the gather reads the log-softmax at the label's class. -/
theorem ref_call5_v13_at (b : Fin 32) (j : Fin 200) :
    val_main_call5_v13 (F := Ideal) a2 a4 (ix3 b j 0) = val_main_v91 (F := Ideal) a2 (ix3 b j (rowL a4 b j)) := by
  unfold val_main_call5_v13
  refine (ref_gather_at _ _ b j).trans ?_
  congr 2
  apply Fin.ext
  show min ((val_main_call5_v5 (F := Ideal) a4 (ix4 b j 0 0)).toInt.toNat) 79 = (rowL a4 b j).val
  rw [ref_call5_v5_at a4 hlab, rowL, dif_pos (hlab b j)]
  have := hlab b j
  show min (a4 (ix2 b j)).toInt.toNat 79 = (a4 (ix2 b j)).toInt.toNat
  omega

include hfin hlab in
/-- One entry of the reference's per-box loss: minus the log-softmax at the label, which is the real number
    log ∑ₖ exp (vₖ - M) + M - v_L. -/
theorem ref_cls_entry (b : Fin 32) (j : Fin 200) :
    val_main_v95 (F := Ideal) a2 a4 (ix2 b j) = ((rowTerm a2 a4 b j : ℝ) : EReal) := by
  rw [val_main_v95_apply, val_main_v94_apply]
  have e : idx_main_v94 (ix2 b j) = ix3 b j 0 := by
    funext c
    match c with
    | ⟨0, _⟩ => exact Fin.ext (by show (b.val * 200 + j.val) / 200 = b.val; have := j.isLt; omega)
    | ⟨1, _⟩ => exact Fin.ext (by show (b.val * 200 + j.val) / 1 % 200 = j.val; have := j.isLt; omega)
    | ⟨2, _⟩ => rfl
  rw [e, val_main_v93_apply, ref_call5_v12_at a4 hlab, select_one, ref_call5_v13_at a2 a4 hlab, ref_v91_at a2 hfin]
  exact ref_row (rowV a2 b j) (refRowM a2 b j) (rowL a4 b j)

include hfin hlab in
/-- The reference's cross-entropy sum: the sum over the 32 rows and 200 boxes of the per-box loss. -/
theorem ref_cls_total :
    val_main_v96 (F := Ideal) a2 a4 ix0 = ∑ b : Fin 32, ∑ j : Fin 200, ((rowTerm a2 a4 b j : ℝ) : EReal) := by
  rw [val_main_v96_apply, val_main_cst_20_apply, Ideal.ofBits_def, Ideal.ofBits_zero_f32, zero_add, sum_idx2]
  exact Finset.sum_congr rfl fun b _ => Finset.sum_congr rfl fun j _ => ref_cls_entry a2 a4 hfin hlab b j

end Ref2

end Cert.KernelIdeal.Hand

end
-- ==== Proof.KCls.lean ====
/-
  The cross-entropy sums agree, kernel side.  One grid point holds the 80 class logits of 200 boxes for each of
  eight batch rows, reshaped to 1600 rows of 80 lanes, and the 1600 labels as a column.  Per row the kernel takes
  the maximum M of the 80 logits (from minus infinity), then log (∑ₖ exp (xₖ - M)) + M; it sums these over the
  1600 rows.  Separately it sums, over all rows and lanes at once, the one-hot weight (lane = label) times the
  logit, which per row is the labelled logit.  The point's number is the first sum less the second.
  With every logit a real and every label in [0, 80), each row's two quantities are reals, so the difference of
  the two sums is the sum over rows of log (∑ₖ exp (vₖ - M)) + M - v_L; the 1600 rows are 8 × 200 boxes, and the
  four points' 4 × 8 batch rows are the 32 batch rows.  The reference's total is the same double sum, which gives
  the equality of the two programs' cross-entropy sums.
-/
import proofs.«409640_j51616916963357_4_alg».proof.Proof.KDefs
import proofs.«409640_j51616916963357_4_alg».proof.Proof.LibSums
import proofs.«409640_j51616916963357_4_alg».proof.Proof.LibRow
import proofs.«409640_j51616916963357_4_alg».proof.Proof.KClsRef
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

open scoped BigOperators

namespace Cert.KernelIdeal.Hand

open Idealize.ShloMosaic Idealize.ShloMosaic.ValueIdx
open Cert.KernelIdeal Cert.KernelIdeal.Gen

/-- Row `200 r + j` of the block reshaped to 1600 rows is box `j` of batch row `r`. -/
theorem pay28_apply (x : Vec Ideal S8x200x80 .f32) (r : Fin 8) (j : Fin 200) (k : Fin 80) :
    k0_pay28 (F := Ideal) x (ix2 (⟨200 * r.val + j.val, by omega⟩ : Fin 1600) k) = x (ix3 r j k) := by
  unfold k0_pay28
  exact shapeCast_apply x Facts₀.shapeCasts_S8x200x80_S1600x80 _ (ix3 r j k)
    (by rw [Shape.rowMajor_val_three, Shape.rowMajor_val_two]
        show (r.val * 200 + j.val) * 80 + k.val = (200 * r.val + j.val) * 80 + k.val
        omega)

/-- A vector of 1600 entries kept as a column reads its entry. -/
theorem col_apply {α : Type} (v : S1600.Idx → α) (q : Fin 1600) :
    shapeCast S1600x1 v Facts₀.shapeCasts_S1600_S1600x1 (ix2 q (0 : Fin 1)) = v (ix1 q) :=
  shapeCast_apply v Facts₀.shapeCasts_S1600_S1600x1 _ (ix1 q)
    (by rw [Shape.rowMajor_val_one, Shape.rowMajor_val_two]
        show q.val = q.val * 1 + 0
        omega)

/-- A column laid along the 80 lanes reads the column's entry of the row. -/
theorem lanes_apply {α : Type} (v : S1600x1.Idx → α) (q : Fin 1600) (k : Fin 80) :
    broadcastTo S1600x80 v Facts₀.broadcasts_S1600x1_S1600x80 (ix2 q k) = v (ix2 q (0 : Fin 1)) :=
  broadcastTo_apply v Facts₀.broadcasts_S1600x1_S1600x80 _ (ix2 q (0 : Fin 1)) (fun a => match a with
    | ⟨0, _⟩ => by show q.val = if (1600 : Nat) = 1 then 0 else q.val; rw [if_neg (by decide)]
    | ⟨1, _⟩ => by show 0 = if (1 : Nat) = 1 then 0 else k.val; rw [if_pos rfl])

/-- The index over row `q` with lane `k` inserted is `(q, k)`. -/
theorem lift_row (h : S1600x80.Reduces [1] S1600) (q : Fin 1600) (k : Fin 80) :
    h.lift (ix1 q) k = ix2 q k := by
  funext a
  match a with
  | ⟨0, _⟩ => rfl
  | ⟨1, _⟩ => rfl

/-- The sum over the 80 lanes of a row. -/
theorem rowsum_apply (src : FVec Ideal S1600x80 .f32) (hφ : FKind.Formats .f32)
    (hacc : (0x00000000#32 : BitVec 32) = FKind.add.neutral .f32 hφ) (q : Fin 1600) :
    multiReduction .add [1] S1600 src 0x00000000#32 Facts₀.reduces_S1600x80_S1600 hφ hacc (ix1 q)
      = ∑ k : Fin 80, src (ix2 q k) := by
  rw [Ideal.multiReduction_add_single]
  exact Finset.sum_congr rfl fun k _ => congrArg src (lift_row _ q k)

/-- The maximum over the 80 lanes of a row, from minus infinity. -/
theorem rowmax_apply (src : FVec Ideal S1600x80 .f32) (hφ : FKind.Formats .f32)
    (hacc : (0xFF800000#32 : BitVec 32) = FKind.maximumf.neutral .f32 hφ) (q : Fin 1600) :
    multiReduction .maximumf [1] S1600 src 0xFF800000#32 Facts₀.reduces_S1600x80_S1600 hφ hacc (ix1 q)
      = (Finset.univ : Finset (Fin 80)).fold max (Ideal.ofBits .f32 0xFF800000#32) (fun k => src (ix2 q k)) := by
  rw [Ideal.multiReduction_maximumf_single]
  refine congrArg (Finset.fold max _ · _) (funext fun k => ?_)
  exact congrArg src (lift_row _ q k)

/-- The maximum of row `q`'s 80 logits. -/
def kmax (x : Vec Ideal S8x200x80 .f32) (q : Fin 1600) : EReal :=
  (Finset.univ : Finset (Fin 80)).fold max (Ideal.ofBits .f32 0xFF800000#32) (fun k => k0_pay28 (F := Ideal) x (ix2 q k))

/-- Row `q`'s log-sum-exp: the logarithm of the sum of the exponentials of the logits less their maximum, plus the maximum. -/
theorem pay29_apply (x : Vec Ideal S8x200x80 .f32) (q : Fin 1600) :
    k0_pay29 (F := Ideal) x (ix2 q (0 : Fin 1))
      = Ideal.log (∑ k : Fin 80, Ideal.exp (k0_pay28 (F := Ideal) x (ix2 q k) - kmax x q)) + kmax x q := by
  unfold k0_pay29
  have hM : multiReduction .maximumf [1] S1600 (k0_pay28 (F := Ideal) x) 0xFF800000#32 Facts₀.reduces_S1600x80_S1600 (.inl rfl) rfl (ix1 q)
      = kmax x q := rowmax_apply _ _ _ q
  show Ideal.log (shapeCast S1600x1 _ _ (ix2 q (0 : Fin 1))) + shapeCast S1600x1 _ _ (ix2 q (0 : Fin 1)) = _
  refine congrArg₂ (fun a b => Ideal.log a + b) ?_ ((col_apply _ q).trans hM)
  refine (col_apply _ q).trans ((rowsum_apply _ _ _ q).trans (Finset.sum_congr rfl fun k _ => ?_))
  show Ideal.exp (k0_pay28 x (ix2 q k) - broadcastTo S1600x80 _ _ (ix2 q k)) = _
  refine congrArg (fun m => Ideal.exp (_ - m)) ?_
  exact (lanes_apply _ q k).trans ((col_apply _ q).trans hM)

/-! ## The selected logits -/

/-- The labels of the block as a column of 1600 words: row `200 r + j` holds the label of box `j` of batch row `r`. -/
theorem labcol_apply (lab : Vec Ideal S8x200 .i32) (r : Fin 8) (j : Fin 200) :
    shapeCast S1600x1 lab Facts₀.shapeCasts_S8x200_S1600x1 (ix2 (⟨200 * r.val + j.val, by omega⟩ : Fin 1600) (0 : Fin 1)) = lab (ix2 r j) :=
  shapeCast_apply lab Facts₀.shapeCasts_S8x200_S1600x1 _ (ix2 r j)
    (by rw [Shape.rowMajor_val_two, Shape.rowMajor_val_two]
        show r.val * 200 + j.val = (200 * r.val + j.val) * 1 + 0
        omega)

/-- The one-hot weight of lane `k` against the label word `w`: the comparison, widened and converted. -/
def hot (w : BitVec 32) (k : Fin 80) : EReal :=
  FloatOps.sitofp (F := Ideal) .f32 ((IntOp.cmpi .eq (BitVec.ofNat 32 k.val) w).setWidth 32)

/-- The sum over all rows and lanes of the one-hot weight times the logit. -/
theorem pay30_apply (x : Vec Ideal S8x200x80 .f32) (lab : Vec Ideal S8x200 .i32) :
    k0_pay30 (F := Ideal) x lab (ix1 (0 : Fin 1))
      = ∑ q : Fin 1600, ∑ k : Fin 80,
          hot (shapeCast S1600x1 lab Facts₀.shapeCasts_S8x200_S1600x1 (ix2 q (0 : Fin 1))) k * k0_pay28 (F := Ideal) x (ix2 q k) := by
  unfold k0_pay30
  refine (Ideal.multiReduction_add_total _ _ Facts₀.reduces_S1x1600x80_S1 (fun b => by
    match b with | ⟨0, _⟩ => rfl) _ _ _).trans ?_
  refine (Cert.LibSums.sum_idx3 _).trans ?_
  rw [Fin.sum_univ_one]
  refine Finset.sum_congr rfl fun q _ => Finset.sum_congr rfl fun k _ => ?_
  refine (shapeCast_apply _ Facts₀.shapeCasts_S1600x80_S1x1600x80 _ (ix2 q k)
    (by rw [Shape.rowMajor_val_two, Shape.rowMajor_val_three]
        show q.val * 80 + k.val = ((0 : Nat) * 1600 + q.val) * 80 + k.val
        omega)).trans ?_
  show FloatOps.sitofp (F := Ideal) .f32 ((IntOp.cmpi .eq (iota .tc S1600x80 32 [1] _ (ix2 q k)) (broadcastTo S1600x80 _ _ (ix2 q k))).setWidth 32) * _ = _
  refine congrArg (· * _) ?_
  unfold hot
  refine congrArg₂ (fun a b => FloatOps.sitofp (F := Ideal) .f32 ((IntOp.cmpi .eq a b).setWidth 32)) ?_ ?_
  · exact iota_single_apply .tc S1600x80 32 1 _ (ix2 q k)
  · refine (lanes_apply _ q k).trans ?_
    exact congrFun (shapeCast_self _ _) _

/-! ## The block's partial sum -/

/-- The one entry of a one-entry vector, through the cast to three unit axes. -/
theorem one_apply {α : Type} (v : S1.Idx → α) :
    extractAt ![0, 0, 0] (shapeCast S1x1x1 v Facts₀.shapeCasts_S1_S1x1x1) Facts₀.inpos_S1x1x1_p0_0_0 = v (ix1 (0 : Fin 1)) := by
  unfold extractAt
  exact shapeCast_apply v Facts₀.shapeCasts_S1_S1x1x1 _ (ix1 (0 : Fin 1))
    (by rw [Shape.rowMajor_val_one, Shape.rowMajor_val_three]; rfl)

/-- The cross-entropy partial sum of a block: the rows' log-sum-exps summed, less the selected logits summed. -/
theorem pCls_eq (x : Vec Ideal S8x200x80 .f32) (lab : Vec Ideal S8x200 .i32) :
    pCls (F := Ideal) x lab
      = (∑ q : Fin 1600, k0_pay29 (F := Ideal) x (ix2 q (0 : Fin 1)))
        - ∑ q : Fin 1600, ∑ k : Fin 80,
            hot (shapeCast S1600x1 lab Facts₀.shapeCasts_S8x200_S1600x1 (ix2 q (0 : Fin 1))) k * k0_pay28 (F := Ideal) x (ix2 q k) := by
  unfold pCls
  show (extractAt (s := S1x1x1) ![0, 0, 0] _ _ : EReal) - extractAt (s := S1x1x1) ![0, 0, 0] _ _ = _
  refine congrArg₂ (fun a b : EReal => a - b) ?_ ?_
  · refine (one_apply _).trans ?_
    refine (Ideal.multiReduction_add_total _ _ Facts₀.reduces_S1x1600x1_S1 (fun b => by
      match b with | ⟨0, _⟩ => rfl) _ _ _).trans ?_
    refine (Cert.LibSums.sum_idx3 _).trans ?_
    refine (Fin.sum_univ_one _).trans ?_
    refine Finset.sum_congr rfl fun q _ => ?_
    refine (Fin.sum_univ_one _).trans ?_
    exact shapeCast_apply _ Facts₀.shapeCasts_S1600x1_S1x1600x1 _ (ix2 q (0 : Fin 1))
      (by rw [Shape.rowMajor_val_two, Shape.rowMajor_val_three]
          show q.val * 1 + 0 = ((0 : Nat) * 1600 + q.val) * 1 + 0
          omega)
  · exact (one_apply _).trans (pay30_apply x lab)

/-! ## Words -/

/-- A word whose signed value lies in [0, 80) is the word of that value. -/
theorem word_of_label (w : BitVec 32) (h0 : 0 ≤ w.toInt) (h1 : w.toInt < 80) : w = BitVec.ofNat 32 w.toInt.toNat := by
  apply BitVec.eq_of_toNat_eq
  rw [BitVec.toNat_ofNat]
  have hc := BitVec.toInt_eq_toNat_cond w
  have hlt := w.isLt
  split at hc <;> omega

/-- The one-hot weight against the word of class `L` is one at lane `L` and zero at the others. -/
theorem hot_eq (k L : Fin 80) : hot (BitVec.ofNat 32 L.val) k = if k = L then 1 else 0 := by
  unfold hot
  by_cases h : k = L
  · subst h
    rw [if_pos rfl, Idealize.ShloMosaic.StableHlo.Predicate.cmpi_eq_iff.mpr rfl]
    show (((((1#1 : BitVec 1).setWidth 32).toInt : ℝ)) : EReal) = 1
    rw [show ((1#1 : BitVec 1).setWidth 32).toInt = 1 from by decide]
    simp
  · rw [if_neg h]
    have hne : IntOp.cmpi .eq (BitVec.ofNat 32 k.val) (BitVec.ofNat 32 L.val) = 0#1 :=
      eq_zero_of_ne_one fun h1 => h (Fin.ext (by
        have e := congrArg BitVec.toNat (Idealize.ShloMosaic.StableHlo.Predicate.cmpi_eq_iff.mp h1)
        rw [BitVec.toNat_ofNat, BitVec.toNat_ofNat] at e
        have := k.isLt; have := L.isLt
        omega))
    rw [hne]
    show (((((0#1 : BitVec 1).setWidth 32).toInt : ℝ)) : EReal) = 0
    rw [show ((0#1 : BitVec 1).setWidth 32).toInt = 0 from by decide]
    simp

/-! ## One block: its rows are the boxes of eight batch rows -/

section Block
variable (a2 : FVec Ideal S32x25200x80 .f32) (a4 : S32x200.Idx → BitVec 32) (t : Fin 4)
  (x : Vec Ideal S8x200x80 .f32) (lab : Vec Ideal S8x200 .i32)
  (hx : ∀ (r : Fin 8) (j : Fin 200) (k : Fin 80), x (ix3 r j k) = ((rowV a2 (row t r) j k : ℝ) : EReal))
  (hl : ∀ (r : Fin 8) (j : Fin 200), lab (ix2 r j) = BitVec.ofNat 32 (rowL a4 (row t r) j).val)

include hx in
/-- A logit of row `200 r + j` is the real logit of box `j` of batch row `8 t + r`. -/
theorem row_logit (r : Fin 8) (j : Fin 200) (k : Fin 80) :
    k0_pay28 (F := Ideal) x (ix2 (⟨200 * r.val + j.val, by omega⟩ : Fin 1600) k) = ((rowV a2 (row t r) j k : ℝ) : EReal) :=
  (pay28_apply x r j k).trans (hx r j k)

include hx in
/-- The row's maximum is the largest real logit. -/
theorem row_kmax (r : Fin 8) (j : Fin 200) :
    kmax x (⟨200 * r.val + j.val, by omega⟩ : Fin 1600)
      = ((Finset.univ.sup' Finset.univ_nonempty (rowV a2 (row t r) j) : ℝ) : EReal) :=
  Cert.LibRow.fold_max_eq_coe (rowV a2 (row t r) j) _ (fun k => row_logit a2 t x hx r j k)

include hx in
/-- The row's log-sum-exp is a real: the logarithm of the sum of the shifted exponentials, plus the shift. -/
theorem row_lse (r : Fin 8) (j : Fin 200) :
    k0_pay29 (F := Ideal) x (ix2 (⟨200 * r.val + j.val, by omega⟩ : Fin 1600) (0 : Fin 1))
      = ((Real.log (∑ k, Real.exp (rowV a2 (row t r) j k - Finset.univ.sup' Finset.univ_nonempty (rowV a2 (row t r) j)))
          + Finset.univ.sup' Finset.univ_nonempty (rowV a2 (row t r) j) : ℝ) : EReal) := by
  rw [pay29_apply, row_kmax a2 t x hx r j, EReal.coe_add, ← Cert.LibRow.log_sumexp_coe]
  refine congrArg (fun s => Ideal.log s + _) (Finset.sum_congr rfl fun k _ => ?_)
  rw [row_logit a2 t x hx r j k]

include hx hl in
/-- The one-hot weights pick the labelled logit of the row. -/
theorem row_sel (r : Fin 8) (j : Fin 200) :
    ∑ k : Fin 80, hot (shapeCast S1600x1 lab Facts₀.shapeCasts_S8x200_S1600x1 (ix2 (⟨200 * r.val + j.val, by omega⟩ : Fin 1600) (0 : Fin 1))) k
        * k0_pay28 (F := Ideal) x (ix2 (⟨200 * r.val + j.val, by omega⟩ : Fin 1600) k)
      = ((rowV a2 (row t r) j (rowL a4 (row t r) j) : ℝ) : EReal) := by
  rw [labcol_apply, hl r j]
  refine (Finset.sum_congr rfl fun k _ => by rw [row_logit a2 t x hx r j k]).trans ?_
  exact Cert.LibRow.onehot_sum (rowV a2 (row t r) j) (rowL a4 (row t r) j)
    (fun k => hot (BitVec.ofNat 32 (rowL a4 (row t r) j).val) k) (fun k => hot_eq k _)

/-- A difference of two double sums of reals, taken in the extended reals, is the double sum of the differences. -/
theorem sub2 (f g : Fin 8 → Fin 200 → ℝ) :
    (∑ r, ∑ j, ((f r j : ℝ) : EReal)) - (∑ r, ∑ j, ((g r j : ℝ) : EReal)) = ∑ r, ∑ j, ((f r j - g r j : ℝ) : EReal) := by
  have e : ∀ h : Fin 8 → Fin 200 → ℝ, (∑ r, ∑ j, ((h r j : ℝ) : EReal)) = ((∑ r, ∑ j, h r j : ℝ) : EReal) := fun h => by
    rw [← Cert.LibSums.ereal_coe_sum]
    exact Finset.sum_congr rfl fun r _ => Cert.LibSums.ereal_coe_sum _ _
  rw [e f, e g, e (fun r j => f r j - g r j), ← EReal.coe_sub]
  congr 1
  simp only [Finset.sum_sub_distrib]

include hx hl in
/-- The block's partial sum is the sum of its boxes' losses. -/
theorem tile_cls : pCls (F := Ideal) x lab = ∑ r : Fin 8, ∑ j : Fin 200, ((rowTerm a2 a4 (row t r) j : ℝ) : EReal) := by
  refine (pCls_eq x lab).trans ?_
  refine (congrArg₂ (fun a b : EReal => a - b)
    ((Cert.LibSums.sum_fin1600 _).trans (Finset.sum_congr rfl fun r _ => Finset.sum_congr rfl fun j _ => row_lse a2 t x hx r j))
    ((Cert.LibSums.sum_fin1600 _).trans (Finset.sum_congr rfl fun r _ => Finset.sum_congr rfl fun j _ => row_sel a2 a4 t x lab hx hl r j))).trans ?_
  exact sub2 _ _

end Block

/-! ## The four blocks -/

/-- The kernel's cross-entropy partial sums, added over the four grid points, are the sum over all 32 × 200 boxes of the
    box's loss. -/
theorem ker_cls_total (a2 : FVec Ideal S32x25200x80 .f32) (a4 : S32x200.Idx → BitVec 32)
    (x2 : Fin 4 → Vec Ideal S8x200x80 .f32) (x4 : Fin 4 → Vec Ideal S8x200 .i32)
    (h2 : ∀ (t : Fin 4) (r : Fin 8) (j : Fin 200) (k : Fin 80), x2 t (ix3 r j k) = a2 (ix3 (row t r) (lo j) k))
    (h4 : ∀ (t : Fin 4) (r : Fin 8) (j : Fin 200), x4 t (ix2 r j) = a4 (ix2 (row t r) j))
    (hfin : ∀ (b : Fin 32) (j : Fin 200) (k : Fin 80), ∃ v : ℝ, a2 (ix3 b (lo j) k) = (v : EReal))
    (hlab : ∀ (b : Fin 32) (j : Fin 200), 0 ≤ (a4 (ix2 b j)).toInt ∧ (a4 (ix2 b j)).toInt < 80) :
    ∑ t : Fin 4, pCls (F := Ideal) (x2 t) (x4 t) = ∑ b : Fin 32, ∑ j : Fin 200, ((rowTerm a2 a4 b j : ℝ) : EReal) := by
  refine (Finset.sum_congr rfl fun t _ => tile_cls a2 a4 t (x2 t) (x4 t) (fun r j k => ?_) (fun r j => ?_)).trans ?_
  · rw [h2 t r j k]
    obtain ⟨v, hv⟩ := hfin (row t r) j k
    unfold rowV
    rw [hv, EReal.toReal_coe]
  · rw [h4 t r j]
    have hw := hlab (row t r) j
    unfold rowL
    rw [dif_pos hw]
    exact word_of_label _ hw.1 hw.2
  · exact (Cert.LibSums.sum_fin32 (fun b => ∑ j : Fin 200, ((rowTerm a2 a4 b j : ℝ) : EReal))).symm

/-- The kernel's cross-entropy partial sums, added over the four grid points, are the reference's cross-entropy sum. -/
theorem cls_sum (a2 : FVec Ideal S32x25200x80 .f32) (a4 : S32x200.Idx → BitVec 32)
    (x2 : Fin 4 → Vec Ideal S8x200x80 .f32) (x4 : Fin 4 → Vec Ideal S8x200 .i32)
    (h2 : ∀ (t : Fin 4) (r : Fin 8) (j : Fin 200) (k : Fin 80), x2 t (ix3 r j k) = a2 (ix3 (row t r) (lo j) k))
    (h4 : ∀ (t : Fin 4) (r : Fin 8) (j : Fin 200), x4 t (ix2 r j) = a4 (ix2 (row t r) j))
    (hfin : ∀ (b : Fin 32) (j : Fin 200) (k : Fin 80), ∃ v : ℝ, a2 (ix3 b (lo j) k) = (v : EReal))
    (hlab : ∀ (b : Fin 32) (j : Fin 200), 0 ≤ (a4 (ix2 b j)).toInt ∧ (a4 (ix2 b j)).toInt < 80) :
    ∑ t : Fin 4, pCls (F := Ideal) (x2 t) (x4 t) = Cert.ReferenceIdeal.Read.val_main_v96 (F := Ideal) a2 a4 ix0 :=
  (ker_cls_total a2 a4 x2 x4 h2 h4 hfin hlab).trans (ref_cls_total a2 a4 hfin hlab).symm

end Cert.KernelIdeal.Hand
end
-- ==== Proof.PreFacts.lean ====
/-
  The precondition of the detection loss, read back at one element.
  The printed predicate is the conjunction of five "all" reductions: four say that every entry of a float
  array has absolute value below +infinity, the fifth that every label word lies in [0, 80) signed.
  A conjunction of bits that is 1 has every conjunct 1; an "all" that is 1 has every element 1;
  |x| < +infinity in the extended reals says x is neither infinity, hence a real;
  a signed comparison bit that is 1 is the inequality of the signed values.
-/
import proofs.«409640_j51616916963357_4_alg».proof.Defs
import proofs.«409640_j51616916963357_4_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.KernelIdeal.Hand

open Idealize.ShloMosaic
open Cert.Pre_finite_inputs

/-- The rank-0 shape has one index. -/
instance subsingleton_S_Idx : Subsingleton S_.Idx := ⟨fun a b => funext fun d => d.elim0⟩

/-- The f32 word 0x7F800000 is +infinity. -/
theorem ofBits_inf_f32 : Ideal.ofBits .f32 0x7F800000#32 = (⊤ : EReal) := by
  simp [Ideal.ofBits, Ideal.ieee]

/-- |x| < +infinity says x is a real: max x (-x) < ⊤ excludes x = ⊤ and x = ⊥. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ v : ℝ, x = (v : EReal) := by
  rw [Ideal.hostAbsf_def, Ideal.absf_def, Ideal.ofBits_def, ofBits_inf_f32, Ideal.cmpf_def] at h
  induction x using EReal.rec with
  | bot => exact absurd h (by simp [Ideal.cmp])
  | top => exact absurd h (by simp [Ideal.cmp])
  | coe v => exact ⟨v, rfl⟩

/-- A word w with (w ≥ 0) ∧ (w < 80) signed, both as comparison bits, has signed value in [0, 80). -/
theorem range_of_bits (w : BitVec 32)
    (h : IntOp.andi (IntOp.cmpi .sge w 0#32) (IntOp.cmpi .slt w 80#32) = 1#1) : 0 ≤ w.toInt ∧ w.toInt < 80 := by
  obtain ⟨h0, h1⟩ := IntOp.andi_eq_one.1 h
  have g0 := IntOp.cmpi_sge.1 h0
  have g1 := IntOp.cmpi_slt.1 h1
  have z0 : (0#32 : BitVec 32).toInt = 0 := by decide
  have z1 : (80#32 : BitVec 32).toInt = 80 := by decide
  rw [z0] at g0
  rw [z1] at g1
  exact ⟨g0, g1⟩

variable [Cert.Pre_finite_inputs.Facts]

/-- The five conjuncts of the predicate, each read at an arbitrary element of its array. -/
theorem pre_split (a0 : FVec Ideal S32x25200x4 .f32) (a1 : FVec Ideal S32x25200 .f32) (a2 : FVec Ideal S32x25200x80 .f32)
    (a3 : FVec Ideal S32x200x4 .f32) (a4 : S32x200.Idx → BitVec 32)
    (h : Cert.Pre_finite_inputs.fn (F := Ideal) a0 a1 a2 a3 a4 = fun _ => 1#1) :
    (∀ i, ∃ v : ℝ, a0 i = (v : EReal)) ∧ (∀ i, ∃ v : ℝ, a1 i = (v : EReal)) ∧ (∀ i, ∃ v : ℝ, a2 i = (v : EReal))
      ∧ (∀ i, ∃ v : ℝ, a3 i = (v : EReal)) ∧ (∀ i, 0 ≤ (a4 i).toInt ∧ (a4 i).toInt < 80) := by
  have e := congrFun h ValueIdx.ix0
  dsimp only [Cert.Pre_finite_inputs.fn, Cert.Pre_finite_inputs.fn_part1] at e
  change IntOp.andi _ _ = 1#1 at e
  obtain ⟨e, h4⟩ := IntOp.andi_eq_one.1 e
  change IntOp.andi _ _ = 1#1 at e
  obtain ⟨e, h3⟩ := IntOp.andi_eq_one.1 e
  change IntOp.andi _ _ = 1#1 at e
  obtain ⟨e, h2⟩ := IntOp.andi_eq_one.1 e
  change IntOp.andi _ _ = 1#1 at e
  obtain ⟨h0, h1⟩ := IntOp.andi_eq_one.1 e
  refine ⟨fun i => ?_, fun i => ?_, fun i => ?_, fun i => ?_, fun i => ?_⟩
  · exact real_of_abs_lt_inf (a0 i) (Host.reduce_andi_all _ _ _ _ _ h0 i)
  · exact real_of_abs_lt_inf (a1 i) (Host.reduce_andi_all _ _ _ _ _ h1 i)
  · exact real_of_abs_lt_inf (a2 i) (Host.reduce_andi_all _ _ _ _ _ h2 i)
  · exact real_of_abs_lt_inf (a3 i) (Host.reduce_andi_all _ _ _ _ _ h3 i)
  · exact range_of_bits (a4 i) (Host.reduce_andi_all _ _ _ _ _ h4 i)

/-- Every class logit is a real. -/
theorem pre_cls_finite (a0 : FVec Ideal S32x25200x4 .f32) (a1 : FVec Ideal S32x25200 .f32) (a2 : FVec Ideal S32x25200x80 .f32)
    (a3 : FVec Ideal S32x200x4 .f32) (a4 : S32x200.Idx → BitVec 32)
    (h : Cert.Pre_finite_inputs.fn (F := Ideal) a0 a1 a2 a3 a4 = fun _ => 1#1) (i : S32x25200x80.Idx) :
    ∃ v : ℝ, a2 i = (v : EReal) :=
  (pre_split a0 a1 a2 a3 a4 h).2.2.1 i

/-- Every label word lies in [0, 80) signed. -/
theorem pre_label_range (a0 : FVec Ideal S32x25200x4 .f32) (a1 : FVec Ideal S32x25200 .f32) (a2 : FVec Ideal S32x25200x80 .f32)
    (a3 : FVec Ideal S32x200x4 .f32) (a4 : S32x200.Idx → BitVec 32)
    (h : Cert.Pre_finite_inputs.fn (F := Ideal) a0 a1 a2 a3 a4 = fun _ => 1#1) (i : S32x200.Idx) :
    0 ≤ (a4 i).toInt ∧ (a4 i).toInt < 80 :=
  (pre_split a0 a1 a2 a3 a4 h).2.2.2.2 i

/-- Every predicted box coordinate is a real. -/
theorem pre_bbox_finite (a0 : FVec Ideal S32x25200x4 .f32) (a1 : FVec Ideal S32x25200 .f32) (a2 : FVec Ideal S32x25200x80 .f32)
    (a3 : FVec Ideal S32x200x4 .f32) (a4 : S32x200.Idx → BitVec 32)
    (h : Cert.Pre_finite_inputs.fn (F := Ideal) a0 a1 a2 a3 a4 = fun _ => 1#1) (i : S32x25200x4.Idx) :
    ∃ v : ℝ, a0 i = (v : EReal) :=
  (pre_split a0 a1 a2 a3 a4 h).1 i

/-- Every objectness logit is a real. -/
theorem pre_obj_finite (a0 : FVec Ideal S32x25200x4 .f32) (a1 : FVec Ideal S32x25200 .f32) (a2 : FVec Ideal S32x25200x80 .f32)
    (a3 : FVec Ideal S32x200x4 .f32) (a4 : S32x200.Idx → BitVec 32)
    (h : Cert.Pre_finite_inputs.fn (F := Ideal) a0 a1 a2 a3 a4 = fun _ => 1#1) (i : S32x25200.Idx) :
    ∃ v : ℝ, a1 i = (v : EReal) :=
  (pre_split a0 a1 a2 a3 a4 h).2.1 i

/-- Every ground-truth box coordinate is a real. -/
theorem pre_gt_finite (a0 : FVec Ideal S32x25200x4 .f32) (a1 : FVec Ideal S32x25200 .f32) (a2 : FVec Ideal S32x25200x80 .f32)
    (a3 : FVec Ideal S32x200x4 .f32) (a4 : S32x200.Idx → BitVec 32)
    (h : Cert.Pre_finite_inputs.fn (F := Ideal) a0 a1 a2 a3 a4 = fun _ => 1#1) (i : S32x200x4.Idx) :
    ∃ v : ℝ, a3 i = (v : EReal) :=
  (pre_split a0 a1 a2 a3 a4 h).2.2.2.1 i

end Cert.KernelIdeal.Hand

end
-- ==== Proof.RefTail.lean ====
/-
  The reference's result as the shared closing arithmetic of its four sums: the GIoU sum over the 32 x 200 matched
  boxes, the two objectness sums and the negated log-probability sum.
-/
import proofs.«409640_j51616916963357_4_alg».proof.Proof.ReadP
import proofs.«409640_j51616916963357_4_alg».proof.Proof.Tail

noncomputable section

namespace Cert.ReferenceIdeal.RefTail

open Cert.ReferenceIdeal Cert.ReferenceIdeal.Gen Cert.ReferenceIdeal.Read Idealize.ShloMosaic

variable {F : FTy → Type} [FloatOps F]

/-- The reference's four outputs are the weighted combination of its four sums. -/
theorem ref_result (x0 : (⟨S32x25200x4, .f32⟩ : BufTy).Contents (Elt F)) (x1 : (⟨S32x25200, .f32⟩ : BufTy).Contents (Elt F))
    (x2 : (⟨S32x25200x80, .f32⟩ : BufTy).Contents (Elt F)) (x3 : (⟨S32x200x4, .f32⟩ : BufTy).Contents (Elt F))
    (x4 : (⟨S32x200, .i32⟩ : BufTy).Contents (Elt F)) :
    val_main_v105 (F := F) x0 x1 x2 x3 x4
      = Cert.Spec.tailS (F := F) Facts₀.bcast_S_S1 Facts₀.concatenates_S1_S1_S1_S1_S4_d0
          (val_main_v75 (F := F) x0 x3) (val_main_v82 (F := F) x1) (val_main_v86 (F := F) x1) (val_main_v96 (F := F) x2 x4) := by
  unfold val_main_v105 val_main_v101 val_main_v102 val_main_v103 val_main_v104 val_main_v100 val_main_v99
    val_main_v98 val_main_v97 val_main_v89 val_main_v88 val_main_v87 val_main_v84 val_main_v83 val_main_v77 val_main_v76
    val_main_cst_12 val_main_cst_13 val_main_cst_15 val_main_cst_16 val_main_cst_18 val_main_cst_19 val_main_cst_21 val_main_cst_22
    Cert.Spec.tailS Cert.Spec.lossBox Cert.Spec.lossObj Cert.Spec.lossCls
  rfl

end Cert.ReferenceIdeal.RefTail

end
-- ==== Proof.Assembly.lean ====
/-
  The two programs compute one function.  The kernel program ends with the closing arithmetic applied to the four
  sums over its grid points; each of those sums is the reference's corresponding sum (regrouping of finite sums for
  the box and objectness terms; for the classification term also that a difference of sums of real numbers is the sum
  of the differences, which is where the finiteness of the class logits and the range of the labels enter); and the
  reference ends with the same closing arithmetic of its sums.
-/
import proofs.«409640_j51616916963357_4_alg».proof.Proof.KFrame
import proofs.«409640_j51616916963357_4_alg».proof.Proof.KTail
import proofs.«409640_j51616916963357_4_alg».proof.Proof.KBlocks
import proofs.«409640_j51616916963357_4_alg».proof.Proof.KGiou
import proofs.«409640_j51616916963357_4_alg».proof.Proof.KObj
import proofs.«409640_j51616916963357_4_alg».proof.Proof.KCls
import proofs.«409640_j51616916963357_4_alg».proof.Proof.PreFacts
import proofs.«409640_j51616916963357_4_alg».proof.Proof.RefTail
import proofs.«409640_j51616916963357_4_alg».proof.Proof.RefRun
import proofs.«409640_j51616916963357_4_alg».proof.Proof.Gen.Pre_finite_inputs

noncomputable section

namespace Cert.Proof.Assembly

open Idealize.ShloMosaic Idealize.ShloMosaic.TcCoe Idealize.SL.Sem Idealize.ShloMosaic.ValueIdx
open Cert.KernelIdeal Cert.KernelIdeal.Gen Cert.KernelIdeal.Hand

instance : Cert.Pre_finite_inputs.Facts := Cert.Pre_finite_inputs.Gen.facts
instance : Cert.KernelIdeal.Facts := Cert.KernelIdeal.Gen.facts
instance : Cert.ReferenceIdeal.Facts := Cert.ReferenceIdeal.Gen.facts

/-- Under the precondition the kernel program's result is the reference's function of the argument arrays. -/
theorem kernel_value (m : (ℓ : Loc nD τ sig) → Buf (Elt Ideal) ℓ) (hpre : Cert.Pre_KernelIdeal m) (c : Dev nD) :
    Pipeline.afterTail₀ cfgs (dats m) 0 (V0 m) [hostOps1] c main_v30
      = Cert.ReferenceIdeal.Read.val_main_v105 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [kernel_result, Cert.ReferenceIdeal.RefTail.ref_result]
  have e0 : (fun _ => ∑ t : Fin 4, pG (xb0 m c t) (xb3 m c t))
      = Cert.ReferenceIdeal.Read.val_main_v75 (F := Ideal) (m ((c.tc : Thread nD τ).loc main_arg0)) (m ((c.tc : Thread nD τ).loc main_arg3)) :=
    funext fun i => by rw [eq_ix0 i]; exact giou_sum _ _ _ _ (xb0_apply m c) (xb3_apply m c)
  have e1 : (fun _ => ∑ t : Fin 4, pPos (xb1 m c t))
      = Cert.ReferenceIdeal.Read.val_main_v82 (F := Ideal) (m ((c.tc : Thread nD τ).loc main_arg1)) :=
    funext fun i => by rw [eq_ix0 i]; exact pos_sum _ _ (xb1_apply m c)
  have e2 : (fun _ => ∑ t : Fin 4, pNeg (xb1 m c t))
      = Cert.ReferenceIdeal.Read.val_main_v86 (F := Ideal) (m ((c.tc : Thread nD τ).loc main_arg1)) :=
    funext fun i => by rw [eq_ix0 i]; exact neg_sum _ _ (xb1_apply m c)
  have e3 : (fun _ => ∑ t : Fin 4, pCls (xb2 m c t) (xb4 m c t))
      = Cert.ReferenceIdeal.Read.val_main_v96 (F := Ideal) (m ((c.tc : Thread nD τ).loc main_arg2)) (m ((c.tc : Thread nD τ).loc main_arg4)) :=
    funext fun i => by
      rw [eq_ix0 i]
      exact cls_sum _ _ _ _ (xb2_apply m c) (xb4_apply m c)
        (fun b j k => pre_cls_finite _ _ _ _ _ (hpre c) _) (fun b j => pre_label_range _ _ _ _ _ (hpre c) _)
  rw [e0, e1, e2, e3]

theorem frame_ri : Cert.frame_ReferenceIdeal := fun m ρ _ =>
  (θ_run Cert.ReferenceIdeal.defs _ _).mono (fun _ h c => (h c).2) (Cert.ReferenceIdeal.RefRun.run_val (F := Ideal) m ρ)

theorem algebraic : Cert.algebraic_KernelIdeal_ReferenceIdeal := by
  intro m ρ m' ρ' hpre hagree
  refine ⟨fun c => Cert.ReferenceIdeal.Read.val_main_v105 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)), ?_, ?_⟩
  · refine (θ_run Cert.KernelIdeal.defs _ _).mono (fun r h c => ⟨?_, args_kept m r h c⟩) (run_main m ρ)
    exact ((h c).2 main_v30 (Pipeline.mem_restRefs_of main_v30 (by decide) (by decide))).trans (kernel_value m hpre c)
  · refine (θ_run Cert.ReferenceIdeal.defs _ _).mono (fun _ h c => ⟨?_, (h c).2⟩) (Cert.ReferenceIdeal.RefRun.run_val (F := Ideal) m' ρ')
    rw [(h c).1, (hagree c).1, (hagree c).2.1, (hagree c).2.2.1, (hagree c).2.2.2.1, (hagree c).2.2.2.2]

end Cert.Proof.Assembly

end
-- ==== Proof.lean ====
/-
  A detection loss (GIoU box loss over the 200 matched anchors, objectness binary cross-entropy with logits over all
  25200 anchors, classification cross-entropy over the matched anchors, each a mean over the batch of 32) computed by
  a kernel that handles eight batch rows per grid point and leaves four partial sums per point, against the plain
  array program.  Both programs run to the end without fault and leave their arguments unchanged; read over the
  extended reals they return the same four numbers, provided every float input is finite and every label lies in
  [0, 80): the box and objectness terms by regrouping finite sums, the classification term because, for finite logits
  and an in-range label, (sum of log-sum-exp) - (sum of one-hot-selected logits) is the sum of the negated
  log-probabilities of the labels.
-/
import proofs.«409640_j51616916963357_4_alg».proof.Defs
import proofs.«409640_j51616916963357_4_alg».proof.Proof.Gen.Kernel
import proofs.«409640_j51616916963357_4_alg».proof.Proof.Gen.Kernel.Skeleton
import proofs.«409640_j51616916963357_4_alg».proof.Proof.Gen.Kernel.Launch
import proofs.«409640_j51616916963357_4_alg».proof.Proof.Gen.Kernel.Points
import proofs.«409640_j51616916963357_4_alg».proof.Proof.Gen.KernelIdeal
import proofs.«409640_j51616916963357_4_alg».proof.Proof.Gen.KernelIdeal.Skeleton
import proofs.«409640_j51616916963357_4_alg».proof.Proof.Gen.KernelIdeal.Launch
import proofs.«409640_j51616916963357_4_alg».proof.Proof.Gen.KernelIdeal.Points
import proofs.«409640_j51616916963357_4_alg».proof.Proof.Gen.ReferenceIdeal
import proofs.«409640_j51616916963357_4_alg».proof.Proof.Gen.Pre_finite_inputs
import proofs.«409640_j51616916963357_4_alg».proof.Proof.BFrame
import proofs.«409640_j51616916963357_4_alg».proof.Proof.KFrame
import proofs.«409640_j51616916963357_4_alg».proof.Proof.Assembly
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.Proof.Assembly.frame_ri,
    trivial,
    Cert.Proof.Assembly.algebraic⟩

end Cert.Proof

end
